-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x1 : Shape := ⟨2, ![1, 1]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x16 : Shape := ⟨2, ![8, 16]⟩
abbrev S16x16 : Shape := ⟨2, ![16, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S1x1 : S_.BroadcastsInDim S1x1 (![] : Fin 0 → Fin S1x1.rank)
  reducesTo_S1x1_S_d0_1 : S1x1.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16x16 : S_.BroadcastsInDim S16x16 (![] : Fin 0 → Fin S16x16.rank)
  reducesTo_S16x16_S_d0_1 : S16x16.ReducesTo [0, 1] S_

variable [Facts]

def fn_part4 {F : FTy → Type} [FloatOps F] (main_arg14 : FVec F S16 .f32) (main_arg15 : FVec F S16x16 .f32) (main_arg16 : FVec F S16 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x16 .f32 := Host.absf main_arg15
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg11 : FVec F S16x8 .f32) (main_arg12 : FVec F S8 .f32) (main_arg13 : FVec F S8x16 .f32) (main_arg14 : FVec F S16 .f32) (main_arg15 : FVec F S16x16 .f32) (main_arg16 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x8 .f32 := Host.absf main_arg11
  let main_cst_20 : FVec F S_ .f32 := constant S_ .f32 0x7F800000#32
  let main_v55 : FVec F S16x8 .f32 := broadcastInDim S16x8 ![] bcast_S_S16x8 main_cst_20
  let main_v56 : IVec S16x8 1 := cmpf .olt main_v54 main_v55
  let main_c_21 : IVec S_ 1 := constantI S_ 1 1#1
  let main_v57 : IVec S_ 1 := (fun x v => Host.reduce IntOp.andi x v reducesTo_S16x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x16 .f32 := Host.absf main_arg13
  let main_cst_24 : FVec F S_ .f32 := constant S_ .f32 0x7F800000#32
  let main_v65 : FVec F S8x16 .f32 := broadcastInDim S8x16 ![] bcast_S_S8x16 main_cst_24
  let main_v66 : IVec S8x16 1 := cmpf .olt main_v64 main_v65
  let main_c_25 : IVec S_ 1 := constantI S_ 1 1#1
  let main_v67 : IVec S_ 1 := (fun x v => Host.reduce IntOp.andi x v reducesTo_S8x16_S_d0_1 h_S_) main_v66 main_c_25
  fn_part4 (F := F) main_arg14 main_arg15 main_arg16 main_v63 main_v67

def fn_part2 {F : FTy → Type} [FloatOps F] (main_arg7 : FVec F S1x1 .f32) (main_arg8 : FVec F S1x1 .f32) (main_arg9 : FVec F S32x16 .f32) (main_arg10 : FVec F S16 .f32) (main_arg11 : FVec F S16x8 .f32) (main_arg12 : FVec F S8 .f32) (main_arg13 : FVec F S8x16 .f32) (main_arg14 : FVec F S16 .f32) (main_arg15 : FVec F S16x16 .f32) (main_arg16 : FVec F S16 .f32) (main_v33 : IVec S_ 1) : IVec S_ 1 :=
  let main_v34 : FVec F S1x1 .f32 := Host.absf main_arg7
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_v44 : FVec F S32x16 .f32 := Host.absf main_arg9
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_v48 main_v49 main_v50

def fn_part1 {F : FTy → Type} [FloatOps F] (main_arg4 : FVec F S256 .f32) (main_arg5 : FVec F S256x32 .f32) (main_arg6 : FVec F S32 .f32) (main_arg7 : FVec F S1x1 .f32) (main_arg8 : FVec F S1x1 .f32) (main_arg9 : FVec F S32x16 .f32) (main_arg10 : FVec F S16 .f32) (main_arg11 : FVec F S16x8 .f32) (main_arg12 : FVec F S8 .f32) (main_arg13 : FVec F S8x16 .f32) (main_arg14 : FVec F S16 .f32) (main_arg15 : FVec F S16x16 .f32) (main_arg16 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x32 .f32 := Host.absf main_arg5
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x512 .f32) (main_arg1 : FVec F S512x256 .f32) (main_arg2 : FVec F S256 .f32) (main_arg3 : FVec F S256x256 .f32) (main_arg4 : FVec F S256 .f32) (main_arg5 : FVec F S256x32 .f32) (main_arg6 : FVec F S32 .f32) (main_arg7 : FVec F S1x1 .f32) (main_arg8 : FVec F S1x1 .f32) (main_arg9 : FVec F S32x16 .f32) (main_arg10 : FVec F S16 .f32) (main_arg11 : FVec F S16x8 .f32) (main_arg12 : FVec F S8 .f32) (main_arg13 : FVec F S8x16 .f32) (main_arg14 : FVec F S16 .f32) (main_arg15 : FVec F S16x16 .f32) (main_arg16 : FVec F S16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x1 : Shape := ⟨2, ![1, 1]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x16 : Shape := ⟨2, ![8, 16]⟩
abbrev S16x16 : Shape := ⟨2, ![16, 16]⟩
abbrev S1x256 : Shape := ⟨2, ![1, 256]⟩
abbrev S1x32 : Shape := ⟨2, ![1, 32]⟩
abbrev S8192x32 : Shape := ⟨2, ![8192, 32]⟩
abbrev S2048x512 : Shape := ⟨2, ![2048, 512]⟩
abbrev S2048x32 : Shape := ⟨2, ![2048, 32]⟩
abbrev S2048x256 : Shape := ⟨2, ![2048, 256]⟩
abbrev S8192x16 : Shape := ⟨2, ![8192, 16]⟩
abbrev S1024x32 : Shape := ⟨2, ![1024, 32]⟩
abbrev S1024x16 : Shape := ⟨2, ![1024, 16]⟩
abbrev S2048x16 : Shape := ⟨2, ![2048, 16]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S32x1024 : Shape := ⟨2, ![32, 1024]⟩
abbrev S2048x1024 : Shape := ⟨2, ![2048, 1024]⟩
abbrev S1x1024 : Shape := ⟨2, ![1, 1024]⟩
abbrev S_ : Shape := ⟨0, ![]⟩
abbrev S1x16 : Shape := ⟨2, ![1, 16]⟩
abbrev S8192x8 : Shape := ⟨2, ![8192, 8]⟩
abbrev S1024x8 : Shape := ⟨2, ![1024, 8]⟩
abbrev S2048x8 : Shape := ⟨2, ![2048, 8]⟩
abbrev S1x8 : Shape := ⟨2, ![1, 8]⟩

abbrev nBuf : Space → Nat
  | .hbm => 54
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x32, .f32⟩
  | .hbm, ⟨6, _⟩ => ⟨S32, .f32⟩
  | .hbm, ⟨7, _⟩ => ⟨S1x1, .f32⟩
  | .hbm, ⟨8, _⟩ => ⟨S1x1, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S1x256, .f32⟩
  | .hbm, ⟨18, _⟩ => ⟨S1x256, .f32⟩
  | .hbm, ⟨19, _⟩ => ⟨S1x32, .f32⟩
  | .hbm, ⟨20, _⟩ => ⟨S8192x32, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x16, .f32⟩
  | .hbm, ⟨25, _⟩ => ⟨S8192x16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S8192x8, .f32⟩
  | .hbm, ⟨36, _⟩ => ⟨S8192x8, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S_, .f32⟩
  | .hbm, ⟨41, _⟩ => ⟨S8192x8, .f32⟩
  | .hbm, ⟨42, _⟩ => ⟨S8192x8, .f32⟩
  | .hbm, ⟨43, _⟩ => ⟨S8192x16, .f32⟩
  | .hbm, ⟨44, _⟩ => ⟨S1x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S1x16, .f32⟩
  | .hbm, ⟨52, _⟩ => ⟨S8192x16, .f32⟩
  | .hbm, ⟨53, _⟩ => ⟨S8192x16, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x32, .f32⟩
  | .local _ .vmem, ⟨7, _⟩ => ⟨S1x32, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S1024x32, .f32⟩
  | .local _ .vmem, ⟨13, _⟩ => ⟨S1024x32, .f32⟩
  | .local _ .vmem, ⟨14, _⟩ => ⟨S1024x16, .f32⟩
  | .local _ .vmem, ⟨15, _⟩ => ⟨S1024x16, .f32⟩
  | .local _ .vmem, ⟨16, _⟩ => ⟨S1x1, .f32⟩
  | .local _ .vmem, ⟨17, _⟩ => ⟨S1x1, .f32⟩
  | .local _ .vmem, ⟨18, _⟩ => ⟨S2048x16, .f32⟩
  | .local _ .vmem, ⟨19, _⟩ => ⟨S2048x16, .f32⟩
  | .local _ .vmem, ⟨20, _⟩ => ⟨S2048x16, .f32⟩
  | .local _ .vmem, ⟨21, _⟩ => ⟨S2048x32, .f32⟩
  | .local _ .vmem, ⟨22, _⟩ => ⟨S2048x32, .f32⟩
  | .local _ .vmem, ⟨23, _⟩ => ⟨S1024x32, .f32⟩
  | .local _ .vmem, ⟨24, _⟩ => ⟨S1024x32, .f32⟩
  | .local _ .vmem, ⟨25, _⟩ => ⟨S1024x8, .f32⟩
  | .local _ .vmem, ⟨26, _⟩ => ⟨S1024x8, .f32⟩
  | .local _ .vmem, ⟨27, _⟩ => ⟨S1x1, .f32⟩
  | .local _ .vmem, ⟨28, _⟩ => ⟨S1x1, .f32⟩
  | .local _ .vmem, ⟨29, _⟩ => ⟨S2048x8, .f32⟩
  | .local _ .vmem, ⟨30, _⟩ => ⟨S2048x8, .f32⟩
  | .local _ .vmem, ⟨31, _⟩ => ⟨S2048x8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_cst : Ref sig .tc := ⟨.hbm, 29, rfl⟩
abbrev main_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_23 : BitVec 32 := 0#32
  let v54 : BitVec 1 := Scalar.cmpi .ne v53 c0_i32_23
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_23 : BitVec 32 := 0#32
  let v54 : BitVec 1 := Scalar.cmpi .ne v53 c0_i32_23
  v54

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S256_S1x256 : S256.ShapeCasts S1x256
  shapeCasts_S32_S1x32 : S32.ShapeCasts S1x32
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  shapeCasts_S2048x32_S2048x32 : S2048x32.ShapeCasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S2048x32_S2048 : S2048x32.Reduces [1] S2048
  shapeCasts_S2048_S2048x1 : S2048.ShapeCasts S2048x1
  reduces_S1024x32_S1024 : S1024x32.Reduces [1] S1024
  shapeCasts_S1024_S1024x1 : S1024.ShapeCasts S1024x1
  transposes_S1024x32_p1_0_S32x1024 : S1024x32.Transposes [1, 0] S32x1024
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  bcast_S_S8192x8 : S_.BroadcastsInDim S8192x8 (![] : Fin 0 → Fin S8192x8.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  dot_S2048x256_S256x32_S2048x32_1_0_0_1_n_n_wf : DotDims.WF S2048x256 S256x32 S2048x32 [1] [0] [0] [1] [] []
  dot_S8192x32_S32x16_S8192x16_1_0_0_1_n_n_wf : DotDims.WF S8192x32 S32x16 S8192x16 [1] [0] [0] [1] [] []
  dot_S2048x32_S32x1024_S2048x1024_1_0_0_1_n_n_wf : DotDims.WF S2048x32 S32x1024 S2048x1024 [1] [0] [0] [1] [] []
  dot_S2048x1024_S1024x16_S2048x16_1_0_0_1_n_n_wf : DotDims.WF S2048x1024 S1024x16 S2048x16 [1] [0] [0] [1] [] []
  dot_S8192x16_S16x8_S8192x8_1_0_0_1_n_n_wf : DotDims.WF S8192x16 S16x8 S8192x8 [1] [0] [0] [1] [] []
  dot_S2048x1024_S1024x8_S2048x8_1_0_0_1_n_n_wf : DotDims.WF S2048x1024 S1024x8 S2048x8 [1] [0] [0] [1] [] []
  dot_S8192x8_S8x16_S8192x16_1_0_0_1_n_n_wf : DotDims.WF S8192x8 S8x16 S8192x16 [1] [0] [0] [1] [] []
  dot_S8192x16_S16x16_S8192x16_1_0_0_1_n_n_wf : DotDims.WF S8192x16 S16x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S8192x32.size a
  hwx0_7 : ∀ i : grid0.Coords, EltTy.bits .f32 = 32 ∨ (Rect.block (s := S8192x32) S2048x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S8192x32.size a
  hwx1_0 : ∀ i : grid1.Coords, EltTy.bits .f32 = 32 ∨ (Rect.block (s := S8192x32) S2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S8192x32.size a
  hwx1_1 : ∀ i : grid1.Coords, EltTy.bits .f32 = 32 ∨ (Rect.block (s := S8192x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .f32 = 32 ∨ (Rect.block (s := S8192x16) S1024x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x16.size a ≤ S8192x16.size a
  hwx1_5 : ∀ i : grid1.Coords, EltTy.bits .f32 = 32 ∨ (Rect.block (s := S8192x16) S2048x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S8192x32.size a
  hwx2_0 : ∀ i : grid2.Coords, EltTy.bits .f32 = 32 ∨ (Rect.block (s := S8192x32) S2048x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S8192x32.size a
  hwx2_1 : ∀ i : grid2.Coords, EltTy.bits .f32 = 32 ∨ (Rect.block (s := S8192x32) S1024x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x8.size a ≤ S8192x8.size a
  hwx2_2 : ∀ i : grid2.Coords, EltTy.bits .f32 = 32 ∨ (Rect.block (s := S8192x8) S1024x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x8.size a ≤ S8192x8.size a
  hwx2_5 : ∀ i : grid2.Coords, EltTy.bits .f32 = 32 ∨ (Rect.block (s := S8192x8) S2048x8.size (cc2_transform_5 i) (hinb2_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v3) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S2048x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x1 : Shape := ⟨2, ![1, 1]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x16 : Shape := ⟨2, ![8, 16]⟩
abbrev S16x16 : Shape := ⟨2, ![16, 16]⟩
abbrev S8192x256 : Shape := ⟨2, ![8192, 256]⟩
abbrev S1x256 : Shape := ⟨2, ![1, 256]⟩
abbrev S_ : Shape := ⟨0, ![]⟩
abbrev S8192x32 : Shape := ⟨2, ![8192, 32]⟩
abbrev S1x32 : Shape := ⟨2, ![1, 32]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S8192x16 : Shape := ⟨2, ![8192, 16]⟩
abbrev S1x16 : Shape := ⟨2, ![1, 16]⟩
abbrev S8192x8 : Shape := ⟨2, ![8192, 8]⟩
abbrev S1x8 : Shape := ⟨2, ![1, 8]⟩

abbrev nBuf : Space → Nat
  | .hbm => 116
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x32, .f32⟩
  | .hbm, ⟨6, _⟩ => ⟨S32, .f32⟩
  | .hbm, ⟨7, _⟩ => ⟨S1x1, .f32⟩
  | .hbm, ⟨8, _⟩ => ⟨S1x1, .f32⟩
  | .hbm, ⟨9, _⟩ => ⟨S32x16, .f32⟩
  | .hbm, ⟨10, _⟩ => ⟨S16, .f32⟩
  | .hbm, ⟨11, _⟩ => ⟨S16x8, .f32⟩
  | .hbm, ⟨12, _⟩ => ⟨S8, .f32⟩
  | .hbm, ⟨13, _⟩ => ⟨S8x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x32, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S_, .f32⟩
  | .hbm, ⟨36, _⟩ => ⟨S8192x32, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S32x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .i1⟩
  | .hbm, ⟨56, _⟩ => ⟨S_, .f32⟩
  | .hbm, ⟨57, _⟩ => ⟨S8192x8192, .f32⟩
  | .hbm, ⟨58, _⟩ => ⟨S8192x8192, .i1⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x16, .f32⟩
  | .hbm, ⟨83, _⟩ => ⟨S8192x16, .f32⟩
  | .hbm, ⟨84, _⟩ => ⟨S_, .f32⟩
  | .hbm, ⟨85, _⟩ => ⟨S8192x16, .f32⟩
  | .hbm, ⟨86, _⟩ => ⟨S8192x16, .f32⟩
  | .hbm, ⟨87, _⟩ => ⟨S1x16, .f32⟩
  | .hbm, ⟨88, _⟩ => ⟨S8192x16, .f32⟩
  | .hbm, ⟨89, _⟩ => ⟨S8192x16, .f32⟩
  | .hbm, ⟨90, _⟩ => ⟨S_, .f32⟩
  | .hbm, ⟨91, _⟩ => ⟨S8192x16, .f32⟩
  | .hbm, ⟨92, _⟩ => ⟨S8192x16, .f32⟩
  | .hbm, ⟨93, _⟩ => ⟨S8192x8192, .f32⟩
  | .hbm, ⟨94, _⟩ => ⟨S8192x8, .f32⟩
  | .hbm, ⟨95, _⟩ => ⟨S8192x8, .f32⟩
  | .hbm, ⟨96, _⟩ => ⟨S_, .f32⟩
  | .hbm, ⟨97, _⟩ => ⟨S8192x8, .f32⟩
  | .hbm, ⟨98, _⟩ => ⟨S8192x8, .f32⟩
  | .hbm, ⟨99, _⟩ => ⟨S1x8, .f32⟩
  | .hbm, ⟨100, _⟩ => ⟨S8192x8, .f32⟩
  | .hbm, ⟨101, _⟩ => ⟨S8192x8, .f32⟩
  | .hbm, ⟨102, _⟩ => ⟨S_, .f32⟩
  | .hbm, ⟨103, _⟩ => ⟨S8192x8, .f32⟩
  | .hbm, ⟨104, _⟩ => ⟨S8192x8, .f32⟩
  | .hbm, ⟨105, _⟩ => ⟨S8192x16, .f32⟩
  | .hbm, ⟨106, _⟩ => ⟨S1x16, .f32⟩
  | .hbm, ⟨107, _⟩ => ⟨S8192x16, .f32⟩
  | .hbm, ⟨108, _⟩ => ⟨S8192x16, .f32⟩
  | .hbm, ⟨109, _⟩ => ⟨S_, .f32⟩
  | .hbm, ⟨110, _⟩ => ⟨S8192x16, .f32⟩
  | .hbm, ⟨111, _⟩ => ⟨S8192x16, .f32⟩
  | .hbm, ⟨112, _⟩ => ⟨S8192x16, .f32⟩
  | .hbm, ⟨113, _⟩ => ⟨S1x16, .f32⟩
  | .hbm, ⟨114, _⟩ => ⟨S8192x16, .f32⟩
  | .hbm, ⟨115, _⟩ => ⟨S8192x16, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_call3_v0 : Ref sig .tc := ⟨.hbm, 65, rfl⟩
abbrev main_call3_v1 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_cst_7 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call4_cst : Ref sig .tc := ⟨.hbm, 90, rfl⟩
abbrev main_call4_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call5_cst : Ref sig .tc := ⟨.hbm, 102, rfl⟩
abbrev main_call5_v0 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call6_cst : Ref sig .tc := ⟨.hbm, 109, rfl⟩
abbrev main_call6_v0 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  shapeCasts_S1x1_S_ : S1x1.ShapeCasts S_
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x32_S32x8192_1_0 : S8192x32.Transposes [1, 0] S32x8192
  bcast_S_S8192x8192 : S_.BroadcastsInDim S8192x8192 (![] : Fin 0 → Fin S8192x8192.rank)
  transposes_S8192x8192_S8192x8192_1_0 : S8192x8192.Transposes [1, 0] S8192x8192
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x8 : S_.BroadcastsInDim S8192x8 (![] : Fin 0 → Fin S8192x8.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S8192x512_S512x256_S8192x256_1_0_0_1_n_n_wf : DotDims.WF S8192x512 S512x256 S8192x256 [1] [0] [0] [1] [] []
  dot_S8192x256_S256x256_S8192x256_1_0_0_1_n_n_wf : DotDims.WF S8192x256 S256x256 S8192x256 [1] [0] [0] [1] [] []
  dot_S8192x256_S256x32_S8192x32_1_0_0_1_n_n_wf : DotDims.WF S8192x256 S256x32 S8192x32 [1] [0] [0] [1] [] []
  dot_S8192x32_S32x8192_S8192x8192_1_0_0_1_n_n_wf : DotDims.WF S8192x32 S32x8192 S8192x8192 [1] [0] [0] [1] [] []
  dot_S8192x32_S32x16_S8192x16_1_0_0_1_n_n_wf : DotDims.WF S8192x32 S32x16 S8192x16 [1] [0] [0] [1] [] []
  dot_S8192x8192_S8192x16_S8192x16_1_0_0_1_n_n_wf : DotDims.WF S8192x8192 S8192x16 S8192x16 [1] [0] [0] [1] [] []
  dot_S8192x16_S16x8_S8192x8_1_0_0_1_n_n_wf : DotDims.WF S8192x16 S16x8 S8192x8 [1] [0] [0] [1] [] []
  dot_S8192x8192_S8192x8_S8192x8_1_0_0_1_n_n_wf : DotDims.WF S8192x8192 S8192x8 S8192x8 [1] [0] [0] [1] [] []
  dot_S8192x8_S8x16_S8192x16_1_0_0_1_n_n_wf : DotDims.WF S8192x8 S8x16 S8192x16 [1] [0] [0] [1] [] []
  dot_S8192x16_S16x16_S8192x16_1_0_0_1_n_n_wf : DotDims.WF S8192x16 S16x16 S8192x16 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8192_S8192x8_S8192x8_1_0_0_1_n_n : DotDims S8192x8192 S8192x8 S8192x8 where
  lhsContracting := [1]
  rhsContracting := [0]
  lhsNonContracting := [0]
  rhsNonContracting := [1]
  lhsBatch := []
  rhsBatch := []
  wf := dot_S8192x8192_S8192x8_S8192x8_1_0_0_1_n_n_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

class Facts : Prop extends Facts₀ where

variable [Facts]
-- ==== Proof.RefRead.lean ====
/-
  The reference program's run and its stages read at an index, gathered in one place for the modules that compare the
  two sides: the reference's result is its operations' composed term of the argument arrays.
-/
import proofs.«163787_j56899726737498_1_alg».proof.Defs
import proofs.«163787_j56899726737498_1_alg».proof.Proof.Gen.ReferenceIdeal.Run
import proofs.«163787_j56899726737498_1_alg».proof.Proof.Gen.ReferenceIdeal.Read
-- ==== Proof.K.Enc.lean ====
/- The class-A half of region 0 (the MLP encoder, pipeline 0 of @main) at the contents `V` the region finds in
   the TensorCore's buffers: each window's block at a point, the output window's buffer after the body as the one
   store's payload over the seven blocks loaded whole, the body's triple, the proof data, and the body obligation
   at every point. Generic in the float model. -/
import proofs.«163787_j56899726737498_1_alg».proof.Proof.Gen.Kernel.Launch
import proofs.«163787_j56899726737498_1_alg».proof.Proof.Gen.Kernel.Skeleton
import proofs.«163787_j56899726737498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole output block: the one store's rectangle. -/
abbrev r0_7 : Rect S2048x32 := Rect.unit (s := S2048x32) ![0, 0] S2048x32.size inb_S2048x32_S2048x32_0_0
/-- Input 0's whole block: its load's rectangle. -/
abbrev r0_0 : Rect S2048x512 := Rect.unit (s := S2048x512) ![0, 0] S2048x512.size inb_S2048x512_S2048x512_0_0
/-- Input 1's whole block: its load's rectangle. -/
abbrev r0_1 : Rect S512x256 := Rect.unit (s := S512x256) ![0, 0] S512x256.size inb_S512x256_S512x256_0_0
/-- Input 2's whole block: its load's rectangle. -/
abbrev r0_2 : Rect S1x256 := Rect.unit (s := S1x256) ![0, 0] S1x256.size inb_S1x256_S1x256_0_0
/-- Input 3's whole block: its load's rectangle. -/
abbrev r0_3 : Rect S256x256 := Rect.unit (s := S256x256) ![0, 0] S256x256.size inb_S256x256_S256x256_0_0
/-- Input 4's whole block: its load's rectangle. -/
abbrev r0_4 : Rect S1x256 := Rect.unit (s := S1x256) ![0, 0] S1x256.size inb_S1x256_S1x256_0_0
/-- Input 5's whole block: its load's rectangle. -/
abbrev r0_5 : Rect S256x32 := Rect.unit (s := S256x32) ![0, 0] S256x32.size inb_S256x32_S256x32_0_0
/-- Input 6's whole block: its load's rectangle. -/
abbrev r0_6 : Rect S1x32 := Rect.unit (s := S1x32) ![0, 0] S1x32.size inb_S1x32_S1x32_0_0

/-! ## What the body leaves in the output window's buffer -/

/-- Window 7's staging buffer after the body, from the input windows' blocks: its one store, whole, of the payload
    over the seven whole loads. -/
def out0_7 (x0 : Vec F S2048x512 .f32) (x1 : Vec F S512x256 .f32) (x2 : Vec F S1x256 .f32) (x3 : Vec F S256x256 .f32) (x4 : Vec F S1x256 .f32) (x5 : Vec F S256x32 .f32) (x6 : Vec F S1x32 .f32) : Vec F S2048x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer, so it covers it. -/
theorem cover0_7 (p0 : Vec F S2048x32 .f32) (y : S2048x32.Idx) :
    ∃ pc ∈ ([⟨r0_7, p0⟩] : List (View.Piece (Elt F) S2048x32 .f32)), y ∈ pc.1.set :=
  View.cover_of_tiled [⟨r0_7, p0⟩] S2048x32.size (by rfl) y

/-! ## The body's triple -/

set_option maxHeartbeats 4000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg0 : Memref sig .tc .vmem S2048x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S1x32 .f32) (harg6 : arg6.IsWhole) (arg7 : Memref sig .tc .vmem S2048x32 .f32) (harg7 : arg7.IsWhole)
    (x0 : Vec F S2048x512 .f32) (x1 : Vec F S512x256 .f32) (x2 : Vec F S1x256 .f32) (x3 : Vec F S256x256 .f32) (x4 : Vec F S1x256 .f32) (x5 : Vec F S256x32 .f32) (x6 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__encoder_kernel i arg0 harg0 arg1 harg1 arg2 harg2 arg3 harg3 arg4 harg4 arg5 harg5 arg6 harg6 arg7 harg7) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t`
    each input's buffer at its block and the output's at `out0_7` of the input blocks; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KI.Shares.lean ====
/-
  The two halves of the full share. An array that two input windows of one pallas_call read is held by each
  window at one half; the halves compose to the full share and nothing else is said of them.
-/
import Idealize.ShloMosaic.Lib.Pipeline.Launch

noncomputable section

namespace Cert.Shares

open Idealize.SL.RA Idealize.SL.RA.PCS

/-- The left half of the full share. -/
def qL : PosShare TreeShare := (fullShare : PosShare TreeShare).left
/-- The right half of the full share. -/
def qR : PosShare TreeShare := (fullShare : PosShare TreeShare).right

/-- The halves compose to the full share. -/
theorem full_mem : (fullShare : PosShare TreeShare) ∈ qL ·? qR := by
  unfold qL qR; rw [PosShare.left_op_right]; exact Part.mem_some _

end Cert.Shares

end
-- ==== Proof.K.Gat1.lean ====
/-
  Region 1 (the first attention call), the half that carries a scratch accumulator across grid points.
  The body adds one term to the accumulator at every point; the accumulator is reset to zero at the first
  point of each row of the grid (column index 0) and copied to the output block at the last one (column
  index 7). What the accumulator holds after each point is a recursion over the points; the region's
  invariant carries it from point to point, and the output window is idle wherever it is not written back.
-/
import proofs.«163787_j56899726737498_1_alg».proof.Proof.Gen.Kernel.Launch
import proofs.«163787_j56899726737498_1_alg».proof.Proof.Gen.Kernel.Skeleton
import proofs.«163787_j56899726737498_1_alg».proof.Proof.Gen.Kernel.Points
import proofs.«163787_j56899726737498_1_alg».proof.Proof.KI.Shares
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- One step of the accumulation: the accumulator `a` plus the point's term, from the five input blocks. -/
def acc1 (x0 : Vec F S2048x32 .f32) (x1 : Vec F S1024x32 .f32) (x2 : Vec F S1024x16 .f32) (x3 x4 : Vec F S1x1 .f32)
    (a : Vec F S2048x16 .f32) : Vec F S2048x16 .f32 :=
  k1_pay1 (k1_pay3 x2) (k1_pay4 x0 x1) (k1_pay5 x3) x4 a

/-- What the accumulator holds after the body at position `n`: one step from zero at the first point of a row
    of the grid, one step from what the point before left elsewhere. -/
def sc1 (c : Dev nD) : (n : ℕ) → n < cfg1.N → Vec F S2048x16 .f32
  | 0, hn => acc1 (iblk1 V c 0 ⟨0, hn⟩) (iblk1 V c 1 ⟨0, hn⟩) (iblk1 V c 2 ⟨0, hn⟩) (iblk1 V c 3 ⟨0, hn⟩) (iblk1 V c 4 ⟨0, hn⟩) k1_pay2
  | n + 1, hn => acc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (if (n + 1) % 8 = 0 then k1_pay2 else sc1 c n (Nat.lt_of_succ_lt hn))

/-- At the first point of a row the step starts from zero. -/
theorem sc1_first (c : Dev nD) (t : Fin cfg1.N) (h : t.val % 8 = 0) :
    sc1 V c t.val t.isLt = acc1 (iblk1 V c 0 t) (iblk1 V c 1 t) (iblk1 V c 2 t) (iblk1 V c 3 t) (iblk1 V c 4 t) k1_pay2 := by
  obtain ⟨n, hn⟩ := t
  cases n with
  | zero => rfl
  | succ n => exact congrArg (acc1 _ _ _ _ _) (if_pos h)

/-- Elsewhere it starts from what the point before left. -/
theorem sc1_next (c : Dev nD) (t : Fin cfg1.N) (h : t.val % 8 ≠ 0) :
    sc1 V c t.val t.isLt = acc1 (iblk1 V c 0 t) (iblk1 V c 1 t) (iblk1 V c 2 t) (iblk1 V c 3 t) (iblk1 V c 4 t) (sc1 V c (t.val - 1) (by omega)) := by
  obtain ⟨n, hn⟩ := t
  cases n with
  | zero => exact absurd (Nat.zero_mod _) h
  | succ n => exact congrArg (acc1 _ _ _ _ _) (if_neg h)

/-! ## The body's branch conditions -/

/-- The condition of the body's first conditional (the reset of the accumulator), from the grid coordinates. -/
abbrev condFirst1 (i : grid1.Coords) : Prop := (Scalar.cmpi .ne (Scalar.extui (Scalar.cmpi .eq (BitVec.ofNat 32 (i 1).val) 0#32)) 0#32) = 1#1
/-- It holds at the points whose position is 0 modulo 8. -/
theorem hcondFirst1 : ∀ t : Fin cfg1.N, condFirst1 (grid1.coords t) ↔ t.val % 8 = 0 :=
  (by decide +kernel : ∀ t : Fin grid1.N, condFirst1 (grid1.coords t) ↔ t.val % 8 = 0)

/-- The condition of the body's second conditional (the copy to the output block). -/
abbrev condLast1 (i : grid1.Coords) : Prop := k1_cond2 i = 1#1
/-- It holds at the points whose position is 7 modulo 8. -/
theorem hcondLast1 : ∀ t : Fin cfg1.N, condLast1 (grid1.coords t) ↔ t.val % 8 = 7 :=
  (by decide +kernel : ∀ t : Fin grid1.N, condLast1 (grid1.coords t) ↔ t.val % 8 = 7)

/-! ## The body's triple, case by case -/

theorem hz1 : (![0, 0] : Fin 2 → Nat) = fun _ => 0 := funext fun a => by fin_cases a <;> rfl

set_option maxHeartbeats 1000000 in
/-- At the first point of a row: the accumulator, whatever it held, is reset and ends one step from zero; the
    output's buffer is handed back untouched. -/
theorem sound_first1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : condFirst1 i) (hc1 : ¬condLast1 i)
    (x0 : Vec F S2048x32 .f32) (x1 : Vec F S1024x32 .f32) (x2 : Vec F S1024x16 .f32) (x3 x4 : Vec F S1x1 .f32)
    (xo : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc1 x0 x1 x2 x3 x4 k1_pay2)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  subst hf0; subst hf1; subst hf2; subst hf3; subst hf4; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1, View.readCov_unit_zero (S := S2048x16) _ hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

set_option maxHeartbeats 1000000 in
/-- At a point that is neither first nor last in its row: the accumulator goes one step from what it held; the
    output's buffer is handed back untouched. -/
theorem sound_mid1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : ¬condFirst1 i) (hc1 : ¬condLast1 i)
    (x0 : Vec F S2048x32 .f32) (x1 : Vec F S1024x32 .f32) (x2 : Vec F S1024x16 .f32) (x3 x4 : Vec F S1x1 .f32)
    (xo a : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc1 x0 x1 x2 x3 x4 a)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0; subst hf1; subst hf2; subst hf3; subst hf4; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

set_option maxHeartbeats 1000000 in
/-- At the last point of a row: the accumulator goes one step from what it held, and the output's buffer,
    whatever it held, ends at the accumulator's new contents. -/
theorem sound_last1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : ¬condFirst1 i) (hc1 : condLast1 i)
    (x0 : Vec F S2048x32 .f32) (x1 : Vec F S1024x32 .f32) (x2 : Vec F S1024x16 .f32) (x3 x4 : Vec F S1x1 .f32)
    (a : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (acc1 x0 x1 x2 x3 x4 a)
            ∗ owns (c : Thread nD τ) arg8 fullShare (acc1 x0 x1 x2 x3 x4 a)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists _; isplitr
    swap; · iexact HO
    ipureintro
    sl_unfold_words
    rw [View.read_writes_eq_canon _ _ _ (fun y => ⟨_, List.mem_cons_self .., View.mem_set_unit_zero hz1 inb_S2048x16_S2048x16_0_0 y⟩)]
    rw [View.canon_cons_unit_zero (S := S2048x16) hz1, View.readCov_unit_zero (S := S2048x16) _ hz1]
    unfold acc1
    simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

/-! ## The invariant -/

/-- The scratch accumulator, a whole scoped buffer of the kernel's own. -/
abbrev scM1 : Memref sig .tc .vmem S2048x16 .f32 := Memref.whole cc1_scratch0

/-- The other scoped buffers of the core that are no staging buffer of this call, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region invariant before position `n`: before the first point what the launch hands over; afterwards the
    same with the accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (sc1 V c (n - 1) (by omega)) ∗ restBut1 c) ∗ (∃ r, prngReg c r)) := by
  cases n with
  | zero => exact absurd rfl hz
  | succ n => rfl

/-- What the launch hands over, with the accumulator's buffer split off the other scoped buffers. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]; try rfl

/-! ## The proof data -/

/-- The proof data of this call on core `c`: the arrays as the region finds them; after the body at a point each
    input's buffer at its block and the output's at the accumulator's contents there (read only where the block is
    written back); the invariant carries the accumulator; the shared array's two windows hold a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => sc1 V c t.val t.isLt
  Φ t := PhiS1 V c t.val (Nat.le_of_lt_succ t.isLt)
  q w := if w = 0 then Cert.Shares.qL else if w = 1 then Cert.Shares.qR else fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = sc1 V c t.val t.isLt := by dsimp only [dat1]

theorem q1_0 (c : Dev nD) : (dat1 V c).q 0 = Cert.Shares.qL := by
  dsimp only [dat1]; rw [if_pos rfl]
theorem q1_1 (c : Dev nD) : (dat1 V c).q 1 = Cert.Shares.qR := by
  dsimp only [dat1]; rw [if_neg (by decide), if_pos rfl]
theorem q1_ge (c : Dev nD) (w : Fin cfg1.W) (h0 : w ≠ 0) (h1 : w ≠ 1) : (dat1 V c).q w = fullShare := by
  dsimp only [dat1]; rw [if_neg h0, if_neg h1]

theorem owed1 (c : Dev nD) (t : Fin (cfg1.N + 1)) : (dat1 V c).owed t = 0 := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the inputs' buffers -/

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last point of a row the output window is idle: the body stores nothing into it, -/
theorem idleAt1 : ∀ t : Fin cfg1.N, ¬condLast1 (grid1.coords t) → cfg1.idle 5 (grid1.coords t) = true := by decide +kernel
/-- and its block is not written back there. -/
theorem noFlush1 : ∀ t : Fin cfg1.N, ¬condLast1 (grid1.coords t) → (cfg1.win 5).flush t = false := by decide +kernel
/-- At the last point of a row it is live. -/
theorem liveAtLast1 : ∀ t : Fin cfg1.N, condLast1 (grid1.coords t) → cfg1.idle 5 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the position modulo 8 says which case the point
    is in; the invariant hands the body the accumulator at what the point before left (at anything before the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
    unfold Dat.leavesExact; rw [liveAt1_0 t, after1_0]]
  rw [show (dat1 V c).leavesExact 1 t = owns (c : Thread nD τ) (st1_1 t) fullShare (iblk1 V c 1 t) from by
    unfold Dat.leavesExact; rw [liveAt1_1 t, after1_1]]
  rw [show (dat1 V c).leavesExact 2 t = owns (c : Thread nD τ) (st1_2 t) fullShare (iblk1 V c 2 t) from by
    unfold Dat.leavesExact; rw [liveAt1_2 t, after1_2]]
  rw [show (dat1 V c).leavesExact 3 t = owns (c : Thread nD τ) (st1_3 t) fullShare (iblk1 V c 3 t) from by
    unfold Dat.leavesExact; rw [liveAt1_3 t, after1_3]]
  rw [show (dat1 V c).leavesExact 4 t = owns (c : Thread nD τ) (st1_4 t) fullShare (iblk1 V c 4 t) from by
    unfold Dat.leavesExact; rw [liveAt1_4 t, after1_4]]
  have hN : t.val < 32 := lt_of_lt_of_eq t.isLt (show cfg1.N = 32 from N_1)
  by_cases h0 : t.val % 8 = 0
  · have hc0 : condFirst1 (grid1.coords t) := (hcondFirst1 t).mpr h0
    have hc1 : ¬condLast1 (grid1.coords t) := fun h => by have := (hcondLast1 t).mp h; omega
    rw [Dat.leavesExact_idle (dat1 V c) 5 t (idleAt1 t hc1) (noFlush1 t hc1)]
    rw [sc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condFirst1 (grid1.coords t) := fun h => h0 ((hcondFirst1 t).mp h)
    have hz : t.val ≠ 0 := fun e => h0 (by rw [e])
    rw [sc1_next V c t h0]
    rw [PhiS1_castSucc V c t, PhiS1_pos V c _ _ hz]
    by_cases h1 : t.val % 8 = 7
    · have hc1 : condLast1 (grid1.coords t) := (hcondLast1 t).mpr h1
      rw [show (dat1 V c).leavesExact 5 t = owns (c : Thread nD τ) (st1_5 t) fullShare ((dat1 V c).after 5 t) from by
        unfold Dat.leavesExact; rw [liveAtLast1 t hc1]]
      rw [after1_5, sc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last1 c Set.univ (grid1.coords t) _ _ _ _ _ _ _ _ _ _ _ _ _ _ hc0 hc1
        (iblk1 V c 0 t) (iblk1 V c 1 t) (iblk1 V c 2 t) (iblk1 V c 3 t) (iblk1 V c 4 t) (sc1 V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬condLast1 (grid1.coords t) := fun h => h1 ((hcondLast1 t).mp h)
      rw [Dat.leavesExact_idle (dat1 V c) 5 t (idleAt1 t hc1) (noFlush1 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5)
        (sc1 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.Kernel.Gen

end
-- ==== Proof.K.Gat2.lean ====
/-
  Region 2 (the second attention call), the half that carries a scratch accumulator across grid points.
  The body adds one term to the accumulator at every point; the accumulator is reset to zero at the first
  point of each row of the grid (column index 0) and copied to the output block at the last one (column
  index 7). What the accumulator holds after each point is a recursion over the points; the region's
  invariant carries it from point to point, and the output window is idle wherever it is not written back.
-/
import proofs.«163787_j56899726737498_1_alg».proof.Proof.Gen.Kernel.Launch
import proofs.«163787_j56899726737498_1_alg».proof.Proof.Gen.Kernel.Skeleton
import proofs.«163787_j56899726737498_1_alg».proof.Proof.Gen.Kernel.Points
import proofs.«163787_j56899726737498_1_alg».proof.Proof.KI.Shares
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator -/

/-- One step of the accumulation: the accumulator `a` plus the point's term, from the five input blocks. -/
def acc2 (x0 : Vec F S2048x32 .f32) (x1 : Vec F S1024x32 .f32) (x2 : Vec F S1024x8 .f32) (x3 x4 : Vec F S1x1 .f32)
    (a : Vec F S2048x8 .f32) : Vec F S2048x8 .f32 :=
  k2_pay1 (k2_pay3 x2) (k2_pay4 x0 x1) (k2_pay5 x3) x4 a

/-- What the accumulator holds after the body at position `n`: one step from zero at the first point of a row
    of the grid, one step from what the point before left elsewhere. -/
def sc2 (c : Dev nD) : (n : ℕ) → n < cfg2.N → Vec F S2048x8 .f32
  | 0, hn => acc2 (iblk2 V c 0 ⟨0, hn⟩) (iblk2 V c 1 ⟨0, hn⟩) (iblk2 V c 2 ⟨0, hn⟩) (iblk2 V c 3 ⟨0, hn⟩) (iblk2 V c 4 ⟨0, hn⟩) k2_pay2
  | n + 1, hn => acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (if (n + 1) % 8 = 0 then k2_pay2 else sc2 c n (Nat.lt_of_succ_lt hn))

/-- At the first point of a row the step starts from zero. -/
theorem sc2_first (c : Dev nD) (t : Fin cfg2.N) (h : t.val % 8 = 0) :
    sc2 V c t.val t.isLt = acc2 (iblk2 V c 0 t) (iblk2 V c 1 t) (iblk2 V c 2 t) (iblk2 V c 3 t) (iblk2 V c 4 t) k2_pay2 := by
  obtain ⟨n, hn⟩ := t
  cases n with
  | zero => rfl
  | succ n => exact congrArg (acc2 _ _ _ _ _) (if_pos h)

/-- Elsewhere it starts from what the point before left. -/
theorem sc2_next (c : Dev nD) (t : Fin cfg2.N) (h : t.val % 8 ≠ 0) :
    sc2 V c t.val t.isLt = acc2 (iblk2 V c 0 t) (iblk2 V c 1 t) (iblk2 V c 2 t) (iblk2 V c 3 t) (iblk2 V c 4 t) (sc2 V c (t.val - 1) (by omega)) := by
  obtain ⟨n, hn⟩ := t
  cases n with
  | zero => exact absurd (Nat.zero_mod _) h
  | succ n => exact congrArg (acc2 _ _ _ _ _) (if_neg h)

/-! ## The body's branch conditions -/

/-- The condition of the body's first conditional (the reset of the accumulator), from the grid coordinates. -/
abbrev condFirst2 (i : grid2.Coords) : Prop := (Scalar.cmpi .ne (Scalar.extui (Scalar.cmpi .eq (BitVec.ofNat 32 (i 1).val) 0#32)) 0#32) = 1#1
/-- It holds at the points whose position is 0 modulo 8. -/
theorem hcondFirst2 : ∀ t : Fin cfg2.N, condFirst2 (grid2.coords t) ↔ t.val % 8 = 0 :=
  (by decide +kernel : ∀ t : Fin grid2.N, condFirst2 (grid2.coords t) ↔ t.val % 8 = 0)

/-- The condition of the body's second conditional (the copy to the output block). -/
abbrev condLast2 (i : grid2.Coords) : Prop := k2_cond2 i = 1#1
/-- It holds at the points whose position is 7 modulo 8. -/
theorem hcondLast2 : ∀ t : Fin cfg2.N, condLast2 (grid2.coords t) ↔ t.val % 8 = 7 :=
  (by decide +kernel : ∀ t : Fin grid2.N, condLast2 (grid2.coords t) ↔ t.val % 8 = 7)

/-! ## The body's triple, case by case -/

theorem hz2 : (![0, 0] : Fin 2 → Nat) = fun _ => 0 := funext fun a => by fin_cases a <;> rfl

set_option maxHeartbeats 1000000 in
/-- At the first point of a row: the accumulator, whatever it held, is reset and ends one step from zero; the
    output's buffer is handed back untouched. -/
theorem sound_first2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : condFirst2 i) (hc1 : ¬condLast2 i)
    (x0 : Vec F S2048x32 .f32) (x1 : Vec F S1024x32 .f32) (x2 : Vec F S1024x8 .f32) (x3 x4 : Vec F S1x1 .f32)
    (xo : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc2 x0 x1 x2 x3 x4 k2_pay2)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  subst hf0; subst hf1; subst hf2; subst hf3; subst hf4; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2, View.readCov_unit_zero (S := S2048x8) _ hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

set_option maxHeartbeats 1000000 in
/-- At a point that is neither first nor last in its row: the accumulator goes one step from what it held; the
    output's buffer is handed back untouched. -/
theorem sound_mid2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : ¬condFirst2 i) (hc1 : ¬condLast2 i)
    (x0 : Vec F S2048x32 .f32) (x1 : Vec F S1024x32 .f32) (x2 : Vec F S1024x8 .f32) (x3 x4 : Vec F S1x1 .f32)
    (xo a : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc2 x0 x1 x2 x3 x4 a)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0; subst hf1; subst hf2; subst hf3; subst hf4; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

set_option maxHeartbeats 1000000 in
/-- At the last point of a row: the accumulator goes one step from what it held, and the output's buffer,
    whatever it held, ends at the accumulator's new contents. -/
theorem sound_last2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : ¬condFirst2 i) (hc1 : condLast2 i)
    (x0 : Vec F S2048x32 .f32) (x1 : Vec F S1024x32 .f32) (x2 : Vec F S1024x8 .f32) (x3 x4 : Vec F S1x1 .f32)
    (a : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (acc2 x0 x1 x2 x3 x4 a)
            ∗ owns (c : Thread nD τ) arg8 fullShare (acc2 x0 x1 x2 x3 x4 a)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists _; isplitr
    swap; · iexact HO
    ipureintro
    sl_unfold_words
    rw [View.read_writes_eq_canon _ _ _ (fun y => ⟨_, List.mem_cons_self .., View.mem_set_unit_zero hz2 inb_S2048x8_S2048x8_0_0 y⟩)]
    rw [View.canon_cons_unit_zero (S := S2048x8) hz2, View.readCov_unit_zero (S := S2048x8) _ hz2]
    unfold acc2
    simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

/-! ## The invariant -/

/-- The scratch accumulator, a whole scoped buffer of the kernel's own. -/
abbrev scM2 : Memref sig .tc .vmem S2048x8 .f32 := Memref.whole cc2_scratch0

/-- The other scoped buffers of the core that are no staging buffer of this call, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The region invariant before position `n`: before the first point what the launch hands over; afterwards the
    same with the accumulator at what the point before left in it. -/
def PhiS2 (c : Dev nD) : (n : ℕ) → n ≤ cfg2.N → sProp 𝕄
  | 0, _ => Pipeline.ΦA spec2 c
  | n + 1, hn => iprop(iprop(owns (c : Thread nD τ) scM2 fullShare (sc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (sc2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (sc2 V c (n - 1) (by omega)) ∗ restBut2 c) ∗ (∃ r, prngReg c r)) := by
  cases n with
  | zero => exact absurd rfl hz
  | succ n => rfl

/-- What the launch hands over, with the accumulator's buffer split off the other scoped buffers. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA
  rw [Pipeline.scopedRest_split_of_list spec2 c [cc2_scratch0] (by decide) (by decide)]
  simp only [scM2, owns_whole]; try rfl

/-! ## The proof data -/

/-- The proof data of this call on core `c`: the arrays as the region finds them; after the body at a point each
    input's buffer at its block and the output's at the accumulator's contents there (read only where the block is
    written back); the invariant carries the accumulator; the shared array's two windows hold a half each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sc2 V c t.val t.isLt
  Φ t := PhiS2 V c t.val (Nat.le_of_lt_succ t.isLt)
  q w := if w = 0 then Cert.Shares.qL else if w = 1 then Cert.Shares.qR else fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = sc2 V c t.val t.isLt := by dsimp only [dat2]

theorem q2_0 (c : Dev nD) : (dat2 V c).q 0 = Cert.Shares.qL := by
  dsimp only [dat2]; rw [if_pos rfl]
theorem q2_1 (c : Dev nD) : (dat2 V c).q 1 = Cert.Shares.qR := by
  dsimp only [dat2]; rw [if_neg (by decide), if_pos rfl]
theorem q2_ge (c : Dev nD) (w : Fin cfg2.W) (h0 : w ≠ 0) (h1 : w ≠ 1) : (dat2 V c).q w = fullShare := by
  dsimp only [dat2]; rw [if_neg h0, if_neg h1]

theorem owed2 (c : Dev nD) (t : Fin (cfg2.N + 1)) : (dat2 V c).owed t = 0 := rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the inputs' buffers -/

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Off the last point of a row the output window is idle: the body stores nothing into it, -/
theorem idleAt2 : ∀ t : Fin cfg2.N, ¬condLast2 (grid2.coords t) → cfg2.idle 5 (grid2.coords t) = true := by decide +kernel
/-- and its block is not written back there. -/
theorem noFlush2 : ∀ t : Fin cfg2.N, ¬condLast2 (grid2.coords t) → (cfg2.win 5).flush t = false := by decide +kernel
/-- At the last point of a row it is live. -/
theorem liveAtLast2 : ∀ t : Fin cfg2.N, condLast2 (grid2.coords t) → cfg2.idle 5 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the position modulo 8 says which case the point
    is in; the invariant hands the body the accumulator at what the point before left (at anything before the
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare (iblk2 V c 0 t) from by
    unfold Dat.leavesExact; rw [liveAt2_0 t, after2_0]]
  rw [show (dat2 V c).leavesExact 1 t = owns (c : Thread nD τ) (st2_1 t) fullShare (iblk2 V c 1 t) from by
    unfold Dat.leavesExact; rw [liveAt2_1 t, after2_1]]
  rw [show (dat2 V c).leavesExact 2 t = owns (c : Thread nD τ) (st2_2 t) fullShare (iblk2 V c 2 t) from by
    unfold Dat.leavesExact; rw [liveAt2_2 t, after2_2]]
  rw [show (dat2 V c).leavesExact 3 t = owns (c : Thread nD τ) (st2_3 t) fullShare (iblk2 V c 3 t) from by
    unfold Dat.leavesExact; rw [liveAt2_3 t, after2_3]]
  rw [show (dat2 V c).leavesExact 4 t = owns (c : Thread nD τ) (st2_4 t) fullShare (iblk2 V c 4 t) from by
    unfold Dat.leavesExact; rw [liveAt2_4 t, after2_4]]
  have hN : t.val < 32 := lt_of_lt_of_eq t.isLt (show cfg2.N = 32 from N_2)
  by_cases h0 : t.val % 8 = 0
  · have hc0 : condFirst2 (grid2.coords t) := (hcondFirst2 t).mpr h0
    have hc1 : ¬condLast2 (grid2.coords t) := fun h => by have := (hcondLast2 t).mp h; omega
    rw [Dat.leavesExact_idle (dat2 V c) 5 t (idleAt2 t hc1) (noFlush2 t hc1)]
    rw [sc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condFirst2 (grid2.coords t) := fun h => h0 ((hcondFirst2 t).mp h)
    have hz : t.val ≠ 0 := fun e => h0 (by rw [e])
    rw [sc2_next V c t h0]
    rw [PhiS2_castSucc V c t, PhiS2_pos V c _ _ hz]
    by_cases h1 : t.val % 8 = 7
    · have hc1 : condLast2 (grid2.coords t) := (hcondLast2 t).mpr h1
      rw [show (dat2 V c).leavesExact 5 t = owns (c : Thread nD τ) (st2_5 t) fullShare ((dat2 V c).after 5 t) from by
        unfold Dat.leavesExact; rw [liveAtLast2 t hc1]]
      rw [after2_5, sc2_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last2 c Set.univ (grid2.coords t) _ _ _ _ _ _ _ _ _ _ _ _ _ _ hc0 hc1
        (iblk2 V c 0 t) (iblk2 V c 1 t) (iblk2 V c 2 t) (iblk2 V c 3 t) (iblk2 V c 4 t) (sc2 V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬condLast2 (grid2.coords t) := fun h => h1 ((hcondLast2 t).mp h)
      rw [Dat.leavesExact_idle (dat2 V c) 5 t (idleAt2 t hc1) (noFlush2 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5)
        (sc2 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, HR⟩, Hg⟩
  isplitl [HS HR]
  · isplitl [HS]
    · iexists _; iexact HS
    iexact HR
  iexact Hg

end Cert.Kernel.Gen

end
-- ==== Proof.K.Shared.lean ====
/-
  How a core's unscoped buffers become a pipeline's arrays when a region is entered, and come back when it is
  left, for the two pallas_calls whose first two input windows read ONE array. The buffers behind the windows
  are five; the shared one, held whole at the full share among the core's unscoped buffers, is split along the
  share into the two halves, one for each window on it, and the halves are joined again at the exit; every
  other window holds its own buffer at the full share.
-/
import proofs.«163787_j56899726737498_1_alg».proof.Proof.Gen.Kernel.Launch
import proofs.«163787_j56899726737498_1_alg».proof.Proof.KI.Shares
import Idealize.ShloMosaic.Lib.Pipeline.Regions
import Idealize.ShloMosaic.Lib.Pipeline.RegionsLoop

noncomputable section

namespace Cert.Kernel.Gen

open Idealize.ShloMosaic Idealize.ShloMosaic.TcCoe
open Idealize.SL Idealize.SL.RA
open Idealize.SL.BI (sProp bigSep bigSepL bigSep_congr bigSep_sdiff_split bigSep_eq_bigSepL_of_eq)
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## Region 1 -/

/-- The distinct buffers behind region 1's windows. -/
theorem arrImage1 : Finset.univ.image (Pipeline.arrRef spec1) = [main_v3, main_v4, main_arg7, main_arg8, main_v5].toFinset := by decide

/-- A core's unscoped buffers are the buffers behind region 1's windows and the rest. -/
theorem unscopedBufs_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V ∗ Pipeline.unscopedRest (Ix := Unit) (Name := ℕ) (U := UR sig nD τ) (Lvl := ℕ) spec1 c V) := by
  classical
  have hsub : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hsub]
  rfl

/-- The buffers behind region 1's windows one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_v4) ↦{fullShare} V main_v4)
          ∗ (((c : Thread nD τ).loc main_arg7) ↦{fullShare} V main_arg7) ∗ (((c : Thread nD τ).loc main_arg8) ↦{fullShare} V main_arg8)
          ∗ (((c : Thread nD τ).loc main_v5) ↦{fullShare} V main_v5)) :=
  bigSep_eq_bigSepL_of_eq [main_v3, main_v4, main_arg7, main_arg8, main_v5] arrImage1 (by decide) _

/-- ENTRY of region 1: the core's unscoped buffers at contents `Vc` are pipeline 1's arrays at the proof data's
    entry contents — read off `Vc` —, the shared array split in its two halves, and the unscoped rest. -/
theorem entry1 (c : Dev nD) (dat : Dat τ (Elt F) Unit ℕ (UR sig nD τ) ℕ cfg1 c)
    (hq0 : dat.q 0 = Cert.Shares.qL) (hq1 : dat.q 1 = Cert.Shares.qR) (hq : ∀ w : Fin cfg1.W, w ≠ 0 → w ≠ 1 → dat.q w = fullShare)
    (Vc : (b : Ref sig .tc) → Buf (Elt F) ((c : Thread nD τ).loc b)) (hA : ∀ w, dat.A w = Vc (Pipeline.arrRef spec1 w)) :
    (unscopedBufs c Vc : sProp 𝕄) ⊢ iprop(dat.arrays (dat.arrAt · 0) ∗ Pipeline.unscopedRest (Ix := Unit) (Name := ℕ) (U := UR sig nD τ) (Lvl := ℕ) spec1 c Vc) := by
  rw [unscopedBufs_split1, arrBufs1_eq]
  refine sep_mono ?_ .rfl
  have hset : ∀ w : Fin cfg1.W, (cfg1.win w).arr.view.set = Finset.univ := fun w => (arr_whole1 w).set_eq_univ
  have e0 : ((cfg1.win 0).arr.view.loc (c : Thread nD τ) ↦[(cfg1.win 0).arr.view.set]{dat.share 0} dat.arrAt 0 0 : sProp 𝕄)
      = (((c : Thread nD τ).loc main_v3) ↦{Cert.Shares.qL} Vc main_v3) := by
    rw [hset 0, ← hq0, show dat.arrAt 0 0 = Vc (Pipeline.arrRef spec1 0) from hA 0]; rfl
  have e1 : ((cfg1.win 1).arr.view.loc (c : Thread nD τ) ↦[(cfg1.win 1).arr.view.set]{dat.share 1} dat.arrAt 1 0 : sProp 𝕄)
      = (((c : Thread nD τ).loc main_v3) ↦{Cert.Shares.qR} Vc main_v3) := by
    rw [hset 1, ← hq1, show dat.arrAt 1 0 = Vc (Pipeline.arrRef spec1 1) from hA 1]; rfl
  have e2 : ((cfg1.win 2).arr.view.loc (c : Thread nD τ) ↦[(cfg1.win 2).arr.view.set]{dat.share 2} dat.arrAt 2 0 : sProp 𝕄)
      = (((c : Thread nD τ).loc main_v4) ↦{fullShare} Vc main_v4) := by
    rw [hset 2, ← hq 2 (by decide) (by decide), show dat.arrAt 2 0 = Vc (Pipeline.arrRef spec1 2) from hA 2]; rfl
  have e3 : ((cfg1.win 3).arr.view.loc (c : Thread nD τ) ↦[(cfg1.win 3).arr.view.set]{dat.share 3} dat.arrAt 3 0 : sProp 𝕄)
      = (((c : Thread nD τ).loc main_arg7) ↦{fullShare} Vc main_arg7) := by
    rw [hset 3, ← hq 3 (by decide) (by decide), show dat.arrAt 3 0 = Vc (Pipeline.arrRef spec1 3) from hA 3]; rfl
  have e4 : ((cfg1.win 4).arr.view.loc (c : Thread nD τ) ↦[(cfg1.win 4).arr.view.set]{dat.share 4} dat.arrAt 4 0 : sProp 𝕄)
      = (((c : Thread nD τ).loc main_arg8) ↦{fullShare} Vc main_arg8) := by
    rw [hset 4, ← hq 4 (by decide) (by decide), show dat.arrAt 4 0 = Vc (Pipeline.arrRef spec1 4) from hA 4]; rfl
  have e5 : ((cfg1.win 5).arr.view.loc (c : Thread nD τ) ↦[(cfg1.win 5).arr.view.set]{dat.share 5} dat.arrAt 5 0 : sProp 𝕄)
      = (((c : Thread nD τ).loc main_v5) ↦{fullShare} Vc main_v5) := by
    rw [hset 5, show dat.arrAt 5 0 = Vc (Pipeline.arrRef spec1 5) from hA 5]; rfl
  unfold Dat.arrays
  rw [bigSep_W1]
  refine (sep_mono_left (pointsTo_share Cert.Shares.full_mem).1).trans ?_
  refine sep_assoc.1.trans ?_
  exact sep_mono (Entails.of_eq e0.symm) (sep_mono (Entails.of_eq e1.symm) (sep_mono (Entails.of_eq e2.symm)
    (sep_mono (Entails.of_eq e3.symm) (sep_mono (Entails.of_eq e4.symm) (Entails.of_eq e5.symm)))))

/-- EXIT of region 1: pipeline 1's arrays at contents `G`, the two halves of the shared array at one contents,
    and the unscoped rest at `Vc` are the core's unscoped buffers at any valuation `Vc'` that has the arrays at `G`
    and agrees with `Vc` off them. -/
theorem exit1 (c : Dev nD) (dat : Dat τ (Elt F) Unit ℕ (UR sig nD τ) ℕ cfg1 c)
    (hq0 : dat.q 0 = Cert.Shares.qL) (hq1 : dat.q 1 = Cert.Shares.qR) (hq : ∀ w : Fin cfg1.W, w ≠ 0 → w ≠ 1 → dat.q w = fullShare)
    (Vc Vc' : (b : Ref sig .tc) → Buf (Elt F) ((c : Thread nD τ).loc b))
    (G : (w : Fin cfg1.W) → Buf (Elt F) ((spec1 w).arr.view.loc (c : Thread nD τ)))
    (hG : ∀ w, G w = Vc' (Pipeline.arrRef spec1 w)) (hrest : ∀ b, b ∉ Finset.univ.image (Pipeline.arrRef spec1) → Vc' b = Vc b) :
    iprop(dat.arrays G ∗ Pipeline.unscopedRest (Ix := Unit) (Name := ℕ) (U := UR sig nD τ) (Lvl := ℕ) spec1 c Vc) ⊢ (unscopedBufs c Vc' : sProp 𝕄) := by
  rw [unscopedBufs_split1 c Vc', arrBufs1_eq]
  refine sep_mono ?_ (Entails.of_eq ?_)
  swap
  · unfold Pipeline.unscopedRest
    exact bigSep_congr fun b hb => by rw [hrest b (Finset.mem_sdiff.mp hb).2]
  have hset : ∀ w : Fin cfg1.W, (cfg1.win w).arr.view.set = Finset.univ := fun w => (arr_whole1 w).set_eq_univ
  have e0 : ((cfg1.win 0).arr.view.loc (c : Thread nD τ) ↦[(cfg1.win 0).arr.view.set]{dat.share 0} G 0 : sProp 𝕄)
      = (((c : Thread nD τ).loc main_v3) ↦{Cert.Shares.qL} Vc' main_v3) := by
    rw [hset 0, ← hq0, hG 0]; rfl
  have e1 : ((cfg1.win 1).arr.view.loc (c : Thread nD τ) ↦[(cfg1.win 1).arr.view.set]{dat.share 1} G 1 : sProp 𝕄)
      = (((c : Thread nD τ).loc main_v3) ↦{Cert.Shares.qR} Vc' main_v3) := by
    rw [hset 1, ← hq1, hG 1]; rfl
  have e2 : ((cfg1.win 2).arr.view.loc (c : Thread nD τ) ↦[(cfg1.win 2).arr.view.set]{dat.share 2} G 2 : sProp 𝕄)
      = (((c : Thread nD τ).loc main_v4) ↦{fullShare} Vc' main_v4) := by
    rw [hset 2, ← hq 2 (by decide) (by decide), hG 2]; rfl
  have e3 : ((cfg1.win 3).arr.view.loc (c : Thread nD τ) ↦[(cfg1.win 3).arr.view.set]{dat.share 3} G 3 : sProp 𝕄)
      = (((c : Thread nD τ).loc main_arg7) ↦{fullShare} Vc' main_arg7) := by
    rw [hset 3, ← hq 3 (by decide) (by decide), hG 3]; rfl
  have e4 : ((cfg1.win 4).arr.view.loc (c : Thread nD τ) ↦[(cfg1.win 4).arr.view.set]{dat.share 4} G 4 : sProp 𝕄)
      = (((c : Thread nD τ).loc main_arg8) ↦{fullShare} Vc' main_arg8) := by
    rw [hset 4, ← hq 4 (by decide) (by decide), hG 4]; rfl
  have e5 : ((cfg1.win 5).arr.view.loc (c : Thread nD τ) ↦[(cfg1.win 5).arr.view.set]{dat.share 5} G 5 : sProp 𝕄)
      = (((c : Thread nD τ).loc main_v5) ↦{fullShare} Vc' main_v5) := by
    rw [hset 5, hG 5]; rfl
  unfold Dat.arrays
  rw [bigSep_W1]
  refine (sep_mono (Entails.of_eq e0) (sep_mono (Entails.of_eq e1) (sep_mono (Entails.of_eq e2)
    (sep_mono (Entails.of_eq e3) (sep_mono (Entails.of_eq e4) (Entails.of_eq e5)))))).trans ?_
  refine sep_assoc.2.trans ?_
  exact sep_mono_left (pointsTo_share Cert.Shares.full_mem).2

/-! ## Region 2 -/

/-- The distinct buffers behind region 2's windows. -/
theorem arrImage2 : Finset.univ.image (Pipeline.arrRef spec2) = [main_v3, main_v12, main_arg7, main_arg8, main_v13].toFinset := by decide

/-- A core's unscoped buffers are the buffers behind region 2's windows and the rest. -/
theorem unscopedBufs_split2 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec2 c V ∗ Pipeline.unscopedRest (Ix := Unit) (Name := ℕ) (U := UR sig nD τ) (Lvl := ℕ) spec2 c V) := by
  classical
  have hsub : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hsub]
  rfl

/-- The buffers behind region 2's windows one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v12) ↦{fullShare} V main_v12)
          ∗ (((c : Thread nD τ).loc main_arg7) ↦{fullShare} V main_arg7) ∗ (((c : Thread nD τ).loc main_arg8) ↦{fullShare} V main_arg8)
          ∗ (((c : Thread nD τ).loc main_v13) ↦{fullShare} V main_v13)) :=
  bigSep_eq_bigSepL_of_eq [main_v3, main_v12, main_arg7, main_arg8, main_v13] arrImage2 (by decide) _

/-- ENTRY of region 2: the core's unscoped buffers at contents `Vc` are pipeline 2's arrays at the proof data's
    entry contents — read off `Vc` —, the shared array split in its two halves, and the unscoped rest. -/
theorem entry2 (c : Dev nD) (dat : Dat τ (Elt F) Unit ℕ (UR sig nD τ) ℕ cfg2 c)
    (hq0 : dat.q 0 = Cert.Shares.qL) (hq1 : dat.q 1 = Cert.Shares.qR) (hq : ∀ w : Fin cfg2.W, w ≠ 0 → w ≠ 1 → dat.q w = fullShare)
    (Vc : (b : Ref sig .tc) → Buf (Elt F) ((c : Thread nD τ).loc b)) (hA : ∀ w, dat.A w = Vc (Pipeline.arrRef spec2 w)) :
    (unscopedBufs c Vc : sProp 𝕄) ⊢ iprop(dat.arrays (dat.arrAt · 0) ∗ Pipeline.unscopedRest (Ix := Unit) (Name := ℕ) (U := UR sig nD τ) (Lvl := ℕ) spec2 c Vc) := by
  rw [unscopedBufs_split2, arrBufs2_eq]
  refine sep_mono ?_ .rfl
  have hset : ∀ w : Fin cfg2.W, (cfg2.win w).arr.view.set = Finset.univ := fun w => (arr_whole2 w).set_eq_univ
  have e0 : ((cfg2.win 0).arr.view.loc (c : Thread nD τ) ↦[(cfg2.win 0).arr.view.set]{dat.share 0} dat.arrAt 0 0 : sProp 𝕄)
      = (((c : Thread nD τ).loc main_v3) ↦{Cert.Shares.qL} Vc main_v3) := by
    rw [hset 0, ← hq0, show dat.arrAt 0 0 = Vc (Pipeline.arrRef spec2 0) from hA 0]; rfl
  have e1 : ((cfg2.win 1).arr.view.loc (c : Thread nD τ) ↦[(cfg2.win 1).arr.view.set]{dat.share 1} dat.arrAt 1 0 : sProp 𝕄)
      = (((c : Thread nD τ).loc main_v3) ↦{Cert.Shares.qR} Vc main_v3) := by
    rw [hset 1, ← hq1, show dat.arrAt 1 0 = Vc (Pipeline.arrRef spec2 1) from hA 1]; rfl
  have e2 : ((cfg2.win 2).arr.view.loc (c : Thread nD τ) ↦[(cfg2.win 2).arr.view.set]{dat.share 2} dat.arrAt 2 0 : sProp 𝕄)
      = (((c : Thread nD τ).loc main_v12) ↦{fullShare} Vc main_v12) := by
    rw [hset 2, ← hq 2 (by decide) (by decide), show dat.arrAt 2 0 = Vc (Pipeline.arrRef spec2 2) from hA 2]; rfl
  have e3 : ((cfg2.win 3).arr.view.loc (c : Thread nD τ) ↦[(cfg2.win 3).arr.view.set]{dat.share 3} dat.arrAt 3 0 : sProp 𝕄)
      = (((c : Thread nD τ).loc main_arg7) ↦{fullShare} Vc main_arg7) := by
    rw [hset 3, ← hq 3 (by decide) (by decide), show dat.arrAt 3 0 = Vc (Pipeline.arrRef spec2 3) from hA 3]; rfl
  have e4 : ((cfg2.win 4).arr.view.loc (c : Thread nD τ) ↦[(cfg2.win 4).arr.view.set]{dat.share 4} dat.arrAt 4 0 : sProp 𝕄)
      = (((c : Thread nD τ).loc main_arg8) ↦{fullShare} Vc main_arg8) := by
    rw [hset 4, ← hq 4 (by decide) (by decide), show dat.arrAt 4 0 = Vc (Pipeline.arrRef spec2 4) from hA 4]; rfl
  have e5 : ((cfg2.win 5).arr.view.loc (c : Thread nD τ) ↦[(cfg2.win 5).arr.view.set]{dat.share 5} dat.arrAt 5 0 : sProp 𝕄)
      = (((c : Thread nD τ).loc main_v13) ↦{fullShare} Vc main_v13) := by
    rw [hset 5, show dat.arrAt 5 0 = Vc (Pipeline.arrRef spec2 5) from hA 5]; rfl
  unfold Dat.arrays
  rw [bigSep_W2]
  refine (sep_mono_left (pointsTo_share Cert.Shares.full_mem).1).trans ?_
  refine sep_assoc.1.trans ?_
  exact sep_mono (Entails.of_eq e0.symm) (sep_mono (Entails.of_eq e1.symm) (sep_mono (Entails.of_eq e2.symm)
    (sep_mono (Entails.of_eq e3.symm) (sep_mono (Entails.of_eq e4.symm) (Entails.of_eq e5.symm)))))

/-- EXIT of region 2: pipeline 2's arrays at contents `G`, the two halves of the shared array at one contents,
    and the unscoped rest at `Vc` are the core's unscoped buffers at any valuation `Vc'` that has the arrays at `G`
    and agrees with `Vc` off them. -/
theorem exit2 (c : Dev nD) (dat : Dat τ (Elt F) Unit ℕ (UR sig nD τ) ℕ cfg2 c)
    (hq0 : dat.q 0 = Cert.Shares.qL) (hq1 : dat.q 1 = Cert.Shares.qR) (hq : ∀ w : Fin cfg2.W, w ≠ 0 → w ≠ 1 → dat.q w = fullShare)
    (Vc Vc' : (b : Ref sig .tc) → Buf (Elt F) ((c : Thread nD τ).loc b))
    (G : (w : Fin cfg2.W) → Buf (Elt F) ((spec2 w).arr.view.loc (c : Thread nD τ)))
    (hG : ∀ w, G w = Vc' (Pipeline.arrRef spec2 w)) (hrest : ∀ b, b ∉ Finset.univ.image (Pipeline.arrRef spec2) → Vc' b = Vc b) :
    iprop(dat.arrays G ∗ Pipeline.unscopedRest (Ix := Unit) (Name := ℕ) (U := UR sig nD τ) (Lvl := ℕ) spec2 c Vc) ⊢ (unscopedBufs c Vc' : sProp 𝕄) := by
  rw [unscopedBufs_split2 c Vc', arrBufs2_eq]
  refine sep_mono ?_ (Entails.of_eq ?_)
  swap
  · unfold Pipeline.unscopedRest
    exact bigSep_congr fun b hb => by rw [hrest b (Finset.mem_sdiff.mp hb).2]
  have hset : ∀ w : Fin cfg2.W, (cfg2.win w).arr.view.set = Finset.univ := fun w => (arr_whole2 w).set_eq_univ
  have e0 : ((cfg2.win 0).arr.view.loc (c : Thread nD τ) ↦[(cfg2.win 0).arr.view.set]{dat.share 0} G 0 : sProp 𝕄)
      = (((c : Thread nD τ).loc main_v3) ↦{Cert.Shares.qL} Vc' main_v3) := by
    rw [hset 0, ← hq0, hG 0]; rfl
  have e1 : ((cfg2.win 1).arr.view.loc (c : Thread nD τ) ↦[(cfg2.win 1).arr.view.set]{dat.share 1} G 1 : sProp 𝕄)
      = (((c : Thread nD τ).loc main_v3) ↦{Cert.Shares.qR} Vc' main_v3) := by
    rw [hset 1, ← hq1, hG 1]; rfl
  have e2 : ((cfg2.win 2).arr.view.loc (c : Thread nD τ) ↦[(cfg2.win 2).arr.view.set]{dat.share 2} G 2 : sProp 𝕄)
      = (((c : Thread nD τ).loc main_v12) ↦{fullShare} Vc' main_v12) := by
    rw [hset 2, ← hq 2 (by decide) (by decide), hG 2]; rfl
  have e3 : ((cfg2.win 3).arr.view.loc (c : Thread nD τ) ↦[(cfg2.win 3).arr.view.set]{dat.share 3} G 3 : sProp 𝕄)
      = (((c : Thread nD τ).loc main_arg7) ↦{fullShare} Vc' main_arg7) := by
    rw [hset 3, ← hq 3 (by decide) (by decide), hG 3]; rfl
  have e4 : ((cfg2.win 4).arr.view.loc (c : Thread nD τ) ↦[(cfg2.win 4).arr.view.set]{dat.share 4} G 4 : sProp 𝕄)
      = (((c : Thread nD τ).loc main_arg8) ↦{fullShare} Vc' main_arg8) := by
    rw [hset 4, ← hq 4 (by decide) (by decide), hG 4]; rfl
  have e5 : ((cfg2.win 5).arr.view.loc (c : Thread nD τ) ↦[(cfg2.win 5).arr.view.set]{dat.share 5} G 5 : sProp 𝕄)
      = (((c : Thread nD τ).loc main_v13) ↦{fullShare} Vc' main_v13) := by
    rw [hset 5, hG 5]; rfl
  unfold Dat.arrays
  rw [bigSep_W2]
  refine (sep_mono (Entails.of_eq e0) (sep_mono (Entails.of_eq e1) (sep_mono (Entails.of_eq e2)
    (sep_mono (Entails.of_eq e3) (sep_mono (Entails.of_eq e4) (Entails.of_eq e5)))))).trans ?_
  refine sep_assoc.2.trans ?_
  exact sep_mono_left (pointsTo_share Cert.Shares.full_mem).2

end Cert.Kernel.Gen

end
-- ==== Proof.K.RunAll.lean ====
/-
  The run of @main with every unscoped buffer named at its end.

  Between two items of @main, core c holds every unscoped buffer whole at the valuation V_J m outs c (the launch
  contents, then each host stretch applied, then what a region may change at the unknowns outs). Given one segment
  record per kernel region, entered from the thread state before it and left at the one after it, every weakly fair
  execution of @main from memory m with zero counters terminates, and in every final memory each unscoped buffer b of
  core c holds V13 m outs c b: the last valuation, read whole off the final state.

  Two readings of that one run follow: each argument array ends as launched (no item writes an argument), and the
  result array main_v28 ends at V13 m outs c main_v28 beside the arguments.
-/
import proofs.«163787_j56899726737498_1_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. For any user algebra, level assignment, launch dues and ghost resources, any rest states E the
    launch makes on every core at once (hE0) and that end owing nothing (hE3), any contents the regions leave (outs)
    and any proof data: given, per region K, a segment record entered from the thread state before it and left at the
    one after it, every weakly fair execution of @main from memory m with zero counters terminates and in every final
    memory every unscoped buffer b of every core c holds V13 m outs c b. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD, ∀ b ∈ Pipeline.ucRefs τ sig,
      r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          StableHlo.seq hostOps3_3,
          StableHlo.seq hostOps3_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, .rfl, .rfl, hpre2 c, hpost2 c, .rfl, .rfl, .rfl, .rfl, sep_mono .rfl (hE3 c)⟩)
    (hinit := ?_)
    (QY := fun c s => ∀ b ∈ Pipeline.ucRefs τ sig, s.mem (((c : Thread nD τ)).1, b) = V13 m outs c b)
    (hfin := fun c s' => ?_) (hQ := fun _ h => h)
  · -- the launch: the unscoped buffers are held at V0; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read whole off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- THE FRAME, off the run: no host stretch writes an argument and no region may change one, so the last valuation
    holds each argument as launched. -/
theorem frame_of_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  OrdCont.mono (θ_run defs (onTc (τ := τ) (main (F := F))) ⟨m, fun _ => 0, ρ⟩)
    (fun r h c =>
      ⟨(h c (Proc.devRef .tc main_arg0) (Finset.mem_filter.mpr ⟨StableHlo.devRef_mem_tcRefs main_arg0, by decide⟩)).trans (V13_main_arg0 m outs c),
        (h c (Proc.devRef .tc main_arg1) (Finset.mem_filter.mpr ⟨StableHlo.devRef_mem_tcRefs main_arg1, by decide⟩)).trans (V13_main_arg1 m outs c),
        (h c (Proc.devRef .tc main_arg2) (Finset.mem_filter.mpr ⟨StableHlo.devRef_mem_tcRefs main_arg2, by decide⟩)).trans (V13_main_arg2 m outs c),
        (h c (Proc.devRef .tc main_arg3) (Finset.mem_filter.mpr ⟨StableHlo.devRef_mem_tcRefs main_arg3, by decide⟩)).trans (V13_main_arg3 m outs c),
        (h c (Proc.devRef .tc main_arg4) (Finset.mem_filter.mpr ⟨StableHlo.devRef_mem_tcRefs main_arg4, by decide⟩)).trans (V13_main_arg4 m outs c),
        (h c (Proc.devRef .tc main_arg5) (Finset.mem_filter.mpr ⟨StableHlo.devRef_mem_tcRefs main_arg5, by decide⟩)).trans (V13_main_arg5 m outs c),
        (h c (Proc.devRef .tc main_arg6) (Finset.mem_filter.mpr ⟨StableHlo.devRef_mem_tcRefs main_arg6, by decide⟩)).trans (V13_main_arg6 m outs c),
        (h c (Proc.devRef .tc main_arg7) (Finset.mem_filter.mpr ⟨StableHlo.devRef_mem_tcRefs main_arg7, by decide⟩)).trans (V13_main_arg7 m outs c),
        (h c (Proc.devRef .tc main_arg8) (Finset.mem_filter.mpr ⟨StableHlo.devRef_mem_tcRefs main_arg8, by decide⟩)).trans (V13_main_arg8 m outs c),
        (h c (Proc.devRef .tc main_arg9) (Finset.mem_filter.mpr ⟨StableHlo.devRef_mem_tcRefs main_arg9, by decide⟩)).trans (V13_main_arg9 m outs c),
        (h c (Proc.devRef .tc main_arg10) (Finset.mem_filter.mpr ⟨StableHlo.devRef_mem_tcRefs main_arg10, by decide⟩)).trans (V13_main_arg10 m outs c),
        (h c (Proc.devRef .tc main_arg11) (Finset.mem_filter.mpr ⟨StableHlo.devRef_mem_tcRefs main_arg11, by decide⟩)).trans (V13_main_arg11 m outs c),
        (h c (Proc.devRef .tc main_arg12) (Finset.mem_filter.mpr ⟨StableHlo.devRef_mem_tcRefs main_arg12, by decide⟩)).trans (V13_main_arg12 m outs c),
        (h c (Proc.devRef .tc main_arg13) (Finset.mem_filter.mpr ⟨StableHlo.devRef_mem_tcRefs main_arg13, by decide⟩)).trans (V13_main_arg13 m outs c),
        (h c (Proc.devRef .tc main_arg14) (Finset.mem_filter.mpr ⟨StableHlo.devRef_mem_tcRefs main_arg14, by decide⟩)).trans (V13_main_arg14 m outs c),
        (h c (Proc.devRef .tc main_arg15) (Finset.mem_filter.mpr ⟨StableHlo.devRef_mem_tcRefs main_arg15, by decide⟩)).trans (V13_main_arg15 m outs c),
        (h c (Proc.devRef .tc main_arg16) (Finset.mem_filter.mpr ⟨StableHlo.devRef_mem_tcRefs main_arg16, by decide⟩)).trans (V13_main_arg16 m outs c)⟩)
    (run_cond m EP ι 𝒱₀ L lv hL ρ outs pdats O₀ G u₀ hu₀ E hE0 hE3 R0 hpre0 hpost0 R1 hpre1 hpost1 R2 hpre2 hpost2)

/-- THE RESULT beside the frame, off the run: the result array main_v28 ends at the last valuation's contents for it,
    and each argument ends as launched. -/
theorem result_of_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v28) = V13 m outs c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  OrdCont.mono (θ_run defs (onTc (τ := τ) (main (F := F))) ⟨m, fun _ => 0, ρ⟩)
    (fun r h c =>
      ⟨h c (Proc.devRef .tc main_v28) (Finset.mem_filter.mpr ⟨StableHlo.devRef_mem_tcRefs main_v28, by decide⟩),
        (h c (Proc.devRef .tc main_arg0) (Finset.mem_filter.mpr ⟨StableHlo.devRef_mem_tcRefs main_arg0, by decide⟩)).trans (V13_main_arg0 m outs c),
        (h c (Proc.devRef .tc main_arg1) (Finset.mem_filter.mpr ⟨StableHlo.devRef_mem_tcRefs main_arg1, by decide⟩)).trans (V13_main_arg1 m outs c),
        (h c (Proc.devRef .tc main_arg2) (Finset.mem_filter.mpr ⟨StableHlo.devRef_mem_tcRefs main_arg2, by decide⟩)).trans (V13_main_arg2 m outs c),
        (h c (Proc.devRef .tc main_arg3) (Finset.mem_filter.mpr ⟨StableHlo.devRef_mem_tcRefs main_arg3, by decide⟩)).trans (V13_main_arg3 m outs c),
        (h c (Proc.devRef .tc main_arg4) (Finset.mem_filter.mpr ⟨StableHlo.devRef_mem_tcRefs main_arg4, by decide⟩)).trans (V13_main_arg4 m outs c),
        (h c (Proc.devRef .tc main_arg5) (Finset.mem_filter.mpr ⟨StableHlo.devRef_mem_tcRefs main_arg5, by decide⟩)).trans (V13_main_arg5 m outs c),
        (h c (Proc.devRef .tc main_arg6) (Finset.mem_filter.mpr ⟨StableHlo.devRef_mem_tcRefs main_arg6, by decide⟩)).trans (V13_main_arg6 m outs c),
        (h c (Proc.devRef .tc main_arg7) (Finset.mem_filter.mpr ⟨StableHlo.devRef_mem_tcRefs main_arg7, by decide⟩)).trans (V13_main_arg7 m outs c),
        (h c (Proc.devRef .tc main_arg8) (Finset.mem_filter.mpr ⟨StableHlo.devRef_mem_tcRefs main_arg8, by decide⟩)).trans (V13_main_arg8 m outs c),
        (h c (Proc.devRef .tc main_arg9) (Finset.mem_filter.mpr ⟨StableHlo.devRef_mem_tcRefs main_arg9, by decide⟩)).trans (V13_main_arg9 m outs c),
        (h c (Proc.devRef .tc main_arg10) (Finset.mem_filter.mpr ⟨StableHlo.devRef_mem_tcRefs main_arg10, by decide⟩)).trans (V13_main_arg10 m outs c),
        (h c (Proc.devRef .tc main_arg11) (Finset.mem_filter.mpr ⟨StableHlo.devRef_mem_tcRefs main_arg11, by decide⟩)).trans (V13_main_arg11 m outs c),
        (h c (Proc.devRef .tc main_arg12) (Finset.mem_filter.mpr ⟨StableHlo.devRef_mem_tcRefs main_arg12, by decide⟩)).trans (V13_main_arg12 m outs c),
        (h c (Proc.devRef .tc main_arg13) (Finset.mem_filter.mpr ⟨StableHlo.devRef_mem_tcRefs main_arg13, by decide⟩)).trans (V13_main_arg13 m outs c),
        (h c (Proc.devRef .tc main_arg14) (Finset.mem_filter.mpr ⟨StableHlo.devRef_mem_tcRefs main_arg14, by decide⟩)).trans (V13_main_arg14 m outs c),
        (h c (Proc.devRef .tc main_arg15) (Finset.mem_filter.mpr ⟨StableHlo.devRef_mem_tcRefs main_arg15, by decide⟩)).trans (V13_main_arg15 m outs c),
        (h c (Proc.devRef .tc main_arg16) (Finset.mem_filter.mpr ⟨StableHlo.devRef_mem_tcRefs main_arg16, by decide⟩)).trans (V13_main_arg16 m outs c)⟩)
    (run_cond m EP ι 𝒱₀ L lv hL ρ outs pdats O₀ G u₀ hu₀ E hE0 hE3 R0 hpre0 hpost0 R1 hpre1 hpost1 R2 hpre2 hpost2)

end Cert.Kernel.Gen

end
-- ==== Proof.K.Regs.lean ====
/-
  The three kernel regions of @main as segments of its run, and the run itself.

  Between two items of @main every core holds each of its unscoped buffers whole. The contents are named by a
  fold through @main: the launch memory, each host stretch applied in turn, and after each kernel region the one
  array it writes set to what the region's pipeline leaves in it (the output window's write-backs folded over
  the grid). Each region's proof data are taken at the contents the region is entered from, so the fold is
  defined outright, region by region, and the unknowns of the conditional run are then instantiated by it.

  A region is entered by sorting its windows' arrays out of the unscoped buffers and is left by putting them
  back at the contents the pipeline leaves; the generator register rides into the region's invariant and out
  again; no core owes anything.
-/
import proofs.«163787_j56899726737498_1_alg».proof.Proof.K.Enc
import proofs.«163787_j56899726737498_1_alg».proof.Proof.K.Gat1
import proofs.«163787_j56899726737498_1_alg».proof.Proof.K.Gat2
import proofs.«163787_j56899726737498_1_alg».proof.Proof.K.Shared
import proofs.«163787_j56899726737498_1_alg».proof.Proof.K.RunAll

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items, region by region -/

/-- Region 0's entry contents: the launch memory after the first host stretch, read at the core's references. -/
abbrev X1 : (c : Dev nD) → (b : Ref sig .tc) → Buf (Elt F) ((c : Thread nD τ).loc b) := fun c b => V1 m c b

/-- What region 0 leaves in the array it writes: the output window's write-backs folded over the whole grid. -/
def o2 (c : Dev nD) : Buf (Elt F) ((c : Thread nD τ).loc main_v3) := (dat0 (X1 m) c).arrAt 7 cfg0.N

/-- After region 0: its output array at what the pipeline leaves, every other buffer as entered. -/
def W2 (c : Dev nD) : Valuation τ sig (Elt F) := Function.update (V1 m c) main_v3 (o2 m c)
abbrev X2 : (c : Dev nD) → (b : Ref sig .tc) → Buf (Elt F) ((c : Thread nD τ).loc b) := fun c b => W2 m c b

/-- After the host stretch between regions 0 and 1: region 1's entry contents. -/
abbrev W3 (c : Dev nD) : Valuation τ sig (Elt F) := StableHlo.after hostOps1 (W2 m c)
abbrev X3 : (c : Dev nD) → (b : Ref sig .tc) → Buf (Elt F) ((c : Thread nD τ).loc b) := fun c b => W3 m c b

/-- What region 1 leaves in the array it writes. -/
def o4 (c : Dev nD) : Buf (Elt F) ((c : Thread nD τ).loc main_v5) := (dat1 (X3 m) c).arrAt 5 cfg1.N

/-- After region 1. -/
def W4 (c : Dev nD) : Valuation τ sig (Elt F) := Function.update (W3 m c) main_v5 (o4 m c)
abbrev X4 : (c : Dev nD) → (b : Ref sig .tc) → Buf (Elt F) ((c : Thread nD τ).loc b) := fun c b => W4 m c b

/-- After the three host stretches between regions 1 and 2: region 2's entry contents. -/
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
abbrev X7 : (c : Dev nD) → (b : Ref sig .tc) → Buf (Elt F) ((c : Thread nD τ).loc b) := fun c b => W7 m c b

/-- What region 2 leaves in the array it writes. -/
def o8 (c : Dev nD) : Buf (Elt F) ((c : Thread nD τ).loc main_v13) := (dat2 (X7 m) c).arrAt 5 cfg2.N

/-- After region 2. -/
def W8 (c : Dev nD) : Valuation τ sig (Elt F) := Function.update (W7 m c) main_v13 (o8 m c)
abbrev X8 : (c : Dev nD) → (b : Ref sig .tc) → Buf (Elt F) ((c : Thread nD τ).loc b) := fun c b => W8 m c b

/-- The regions' contributions to the fold, as the conditional run reads them: after region 0, after region 1,
    after region 2. -/
def outs : Outs (F := F) := fun J r c => if J = 2 then W2 m c r else if J = 4 then W4 m c r else W8 m c r

theorem outs_2 (c : Dev nD) : outs m 2 main_v3 c = o2 m c := by
  show W2 m c main_v3 = _
  unfold W2; exact Function.update_self ..
theorem outs_4 (c : Dev nD) : outs m 4 main_v5 c = o4 m c := by
  show W4 m c main_v5 = _
  unfold W4; exact Function.update_self ..
theorem outs_8 (c : Dev nD) : outs m 8 main_v13 c = o8 m c := by
  show W8 m c main_v13 = _
  unfold W8; exact Function.update_self ..

/-- The conditional run's valuations at these unknowns are the fold. -/
theorem V2_eq (c : Dev nD) : V2 m (outs m) c = W2 m c := by
  show Function.update (V1 m c) main_v3 (outs m 2 main_v3 c) = _
  rw [outs_2]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v5 (outs m 4 main_v5 c) = _
  rw [outs_4, V3_eq]; rfl
theorem V5_eq (c : Dev nD) : V5 m (outs m) c = W5 m c := by
  show StableHlo.after hostOps2 (V4 m (outs m) c) = _
  rw [V4_eq]
theorem V6_eq (c : Dev nD) : V6 m (outs m) c = W6 m c := by
  show StableHlo.after hostOps2_1 (V5 m (outs m) c) = _
  rw [V5_eq]
theorem V7_eq (c : Dev nD) : V7 m (outs m) c = W7 m c := by
  show StableHlo.after hostOps2_2 (V6 m (outs m) c) = _
  rw [V6_eq]
theorem V8_eq (c : Dev nD) : V8 m (outs m) c = W8 m c := by
  show Function.update (V7 m (outs m) c) main_v13 (outs m 8 main_v13 c) = _
  rw [outs_8, V7_eq]; rfl

/-- The three region values, read off the conditional run's valuations. -/
theorem V2_main_v3 (c : Dev nD) : V2 m (outs m) c main_v3 = o2 m c := by
  rw [V2_eq]; unfold W2; exact Function.update_self ..
theorem V4_main_v5 (c : Dev nD) : V4 m (outs m) c main_v5 = o4 m c := by
  rw [V4_eq]; unfold W4; exact Function.update_self ..
theorem V8_main_v13 (c : Dev nD) : V8 m (outs m) c main_v13 = o8 m c := by
  rw [V8_eq]; unfold W8; exact Function.update_self ..

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## What each region leaves: its arrays at the pipeline's last contents, every other buffer as entered -/

/-- A buffer other than the one a region writes is as the region found it. -/
theorem update_other {W : Valuation τ sig (Elt F)} {r b : Ref sig .tc} (c : Dev nD) (v : Buf (Elt F) ((c : Thread nD τ).loc r)) (h : b ≠ r) :
    (Function.update W (r : DevRef τ sig) v) b = W b :=
  Function.update_of_ne (StableHlo.devRef_ne_of_ne h) ..

theorem hF0 (c : Dev nD) (w : Fin cfg0.W) : (dat0 (X1 m) c).arrAt w cfg0.N = X2 m c (Pipeline.arrRef spec0 w) := by
  have hi : ∀ w : Fin cfg0.W, (cfg0.win w).isOut = false → Pipeline.arrRef spec0 w ≠ main_v3 →
      (dat0 (X1 m) c).arrAt w cfg0.N = X2 m c (Pipeline.arrRef spec0 w) := fun w h hne => by
    rw [(dat0 (X1 m) c).arrAt_in w h, A_eq0]
    exact (update_other c (o2 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact hi 5 rfl (by decide)
  | ⟨6, _⟩ => exact hi 6 rfl (by decide)
  | ⟨7, _⟩ => exact (Function.update_self (f := V1 m c) ..).symm

theorem hrest0 (c : Dev nD) : ∀ b, b ∉ Finset.univ.image (Pipeline.arrRef spec0) → X2 m c b = X1 m c b :=
  fun b hb => update_other c (o2 m c) fun e => hb (Finset.mem_image.mpr ⟨7, Finset.mem_univ _, e.symm⟩)

theorem hF1 (c : Dev nD) (w : Fin cfg1.W) : (dat1 (X3 m) c).arrAt w cfg1.N = X4 m c (Pipeline.arrRef spec1 w) := by
  have hi : ∀ w : Fin cfg1.W, (cfg1.win w).isOut = false → Pipeline.arrRef spec1 w ≠ main_v5 →
      (dat1 (X3 m) c).arrAt w cfg1.N = X4 m c (Pipeline.arrRef spec1 w) := fun w h hne => by
    rw [(dat1 (X3 m) c).arrAt_in w h, A_eq1]
    exact (update_other c (o4 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact (Function.update_self (f := W3 m c) ..).symm

theorem hrest1 (c : Dev nD) : ∀ b, b ∉ Finset.univ.image (Pipeline.arrRef spec1) → X4 m c b = X3 m c b :=
  fun b hb => update_other c (o4 m c) fun e => hb (Finset.mem_image.mpr ⟨5, Finset.mem_univ _, e.symm⟩)

theorem hF2 (c : Dev nD) (w : Fin cfg2.W) : (dat2 (X7 m) c).arrAt w cfg2.N = X8 m c (Pipeline.arrRef spec2 w) := by
  have hi : ∀ w : Fin cfg2.W, (cfg2.win w).isOut = false → Pipeline.arrRef spec2 w ≠ main_v13 →
      (dat2 (X7 m) c).arrAt w cfg2.N = X8 m c (Pipeline.arrRef spec2 w) := fun w h hne => by
    rw [(dat2 (X7 m) c).arrAt_in w h, A_eq2]
    exact (update_other c (o8 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact (Function.update_self (f := W7 m c) ..).symm

theorem hrest2 (c : Dev nD) : ∀ b, b ∉ Finset.univ.image (Pipeline.arrRef spec2) → X8 m c b = X7 m c b :=
  fun b hb => update_other c (o8 m c) fun e => hb (Finset.mem_image.mpr ⟨5, Finset.mem_univ _, e.symm⟩)

/-! ## The regions as segments -/

/-- No pipeline has a prefetched table: the tables' part of a region's entry is empty. -/
theorem noTables (c : Dev nD) (p : Fin 3) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]
  | ⟨2, _⟩ => rw [show (Finset.univ : Finset (Fin 0)) = ∅ from rfl, BI.bigSep_empty]

set_option backward.isDefEq.respectTransparency.types false in
/-- REGION 0 over the thread state: entered from every unscoped buffer at the contents after the first host stretch,
    left with its output array at what the pipeline leaves. Its eight windows read eight distinct arrays, each held
    at the full share. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 0; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    rw [show (pdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (pdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

set_option backward.isDefEq.respectTransparency.types false in
/-- REGION 1 over the thread state: entered from every unscoped buffer at the contents after the host stretch that
    follows region 0, left with its output array at what the pipeline leaves. Its first two windows read one array,
    which is split along the share at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X3 m) c).loose
  hwaits := Pipeline.hwaits_of_owed_zero _ _ _ _ L lv 1 fun c t => owed1 (X3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    have hsplit := entry1 c (pdats m 1 c) (q1_0 (X3 m) c) (q1_1 (X3 m) c) (q1_ge (X3 m) c) (X3 m c) (A_eq1 (X3 m) c)
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 1; iempintro
    isplitl [Hdue]
    · unfold Pipeline.Dat.owesAt Pipeline.owesWithin
      rw [show (pdats m 1 c).owed 0 = 0 from owed1 (X3 m) c 0]
      icases Hdue with ⟨%W, Hdue⟩; iexists W; isplitr; · ipureintro; exact fun _ _ => Or.inl trivial
      iexact Hdue
    isplitl [Hprng]; · iexact Hprng
    iexact Hrest
  hin c := by
    refine .trans ?_ (hin1 (X3 m) c); unfold Pipeline.ΦA
    iintro ⟨Hprng, -, Hsc⟩
    isplitl [Hsc]; · iexact Hsc
    iexact Hprng
  hout c := by
    rw [Pipeline.ownSems0_none]
    refine (hout1 (X3 m) c).trans ?_; unfold Pipeline.ΦA
    iintro ⟨Hsc, Hprng⟩
    isplitl [Hprng]; · iexact Hprng
    isplitr; · iempintro
    iexact Hsc
  hexit c := by
    have hjoin := exit1 c (pdats m 1 c) (q1_0 (X3 m) c) (q1_1 (X3 m) c) (q1_ge (X3 m) c) (X3 m c) (X4 m c)
      ((pdats m 1 c).arrAt · cfg1.N) (hF1 m c) (hrest1 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    rw [show (pdats m 1 c).owed (Fin.last (Pipeline.pin (pcfgs (F := F)) adm 1).N) = 0 from owed1 (X3 m) c _]
    icases Hdue with ⟨%W, -, Hdue⟩; iexists W; iexact Hdue

set_option backward.isDefEq.respectTransparency.types false in
/-- REGION 2 over the thread state: region 1's record at the second attention call's arrays. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (X7 m) c).loose
  hwaits := Pipeline.hwaits_of_owed_zero _ _ _ _ L lv 2 fun c t => owed2 (X7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (X7 m c)
  hentry c := by
    have hsplit := entry2 c (pdats m 2 c) (q2_0 (X7 m) c) (q2_1 (X7 m) c) (q2_ge (X7 m) c) (X7 m c) (A_eq2 (X7 m) c)
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 2; iempintro
    isplitl [Hdue]
    · unfold Pipeline.Dat.owesAt Pipeline.owesWithin
      rw [show (pdats m 2 c).owed 0 = 0 from owed2 (X7 m) c 0]
      icases Hdue with ⟨%W, Hdue⟩; iexists W; isplitr; · ipureintro; exact fun _ _ => Or.inl trivial
      iexact Hdue
    isplitl [Hprng]; · iexact Hprng
    iexact Hrest
  hin c := by
    refine .trans ?_ (hin2 (X7 m) c); unfold Pipeline.ΦA
    iintro ⟨Hprng, -, Hsc⟩
    isplitl [Hsc]; · iexact Hsc
    iexact Hprng
  hout c := by
    rw [Pipeline.ownSems0_none]
    refine (hout2 (X7 m) c).trans ?_; unfold Pipeline.ΦA
    iintro ⟨Hsc, Hprng⟩
    isplitl [Hprng]; · iexact Hprng
    isplitr; · iempintro
    iexact Hsc
  hexit c := by
    have hjoin := exit2 c (pdats m 2 c) (q2_0 (X7 m) c) (q2_1 (X7 m) c) (q2_ge (X7 m) c) (X7 m c) (X8 m c)
      ((pdats m 2 c).arrAt · cfg2.N) (hF2 m c) (hrest2 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    rw [show (pdats m 2 c).owed (Fin.last (Pipeline.pin (pcfgs (F := F)) adm 2).N) = 0 from owed2 (X7 m) c _]
    icases Hdue with ⟨%W, -, Hdue⟩; iexists W; iexact Hdue

/-! ## The launch -/

/-- The launch's user element: the pipeline library's, at every pipeline's staging cells. -/
abbrev u₀ : UR sig nD τ := initOf (Pipeline.cells cfgs cellOf_inj) (Pipeline.launchToks cfgs cellOf_inj)

/-- The launch element is the library's own; no core keeps a ghost resource of its own. -/
theorem hu₀ : (ownU u₀ : sProp 𝕄) ⊢ |={Set.univ}=> iprop(BI.own (emb₁ (initOf (Pipeline.cells cfgs cellOf_inj) (Pipeline.launchToks cfgs cellOf_inj)))
    ∗ bigSep Finset.univ fun _ : Dev nD => (iprop(emp) : sProp 𝕄)) := by
  iintro Hu; imodintro
  isplitl [Hu]
  · iapply (show (ownU u₀ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest state from what the launch deals it: its generator register, at the launch's state, and
    its dues, at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, Hdue, -, Hprng, -⟩, -⟩
  imodintro
  isplitl [Hprng]; · iexists _; iexact Hprng
  iexists ∅; iexact Hdue

/-- The rest state ends owing nothing. -/
theorem hE3 (c : Dev nD) : R (F := F) c ⊢ (iprop(∃ W, owes (c : Thread nD τ) (0 : CellTallies nD τ sig Unit) W) : sProp 𝕄) := by
  iintro ⟨-, Hdue⟩; iexact Hdue

/-! The thread states chain: each region is entered from the conditional run's valuation before it and left at the
    one after it, these being the fold. -/

theorem hpre0 (c : Dev nD) : iprop(StableHlo.held (c : Thread nD τ) (Pipeline.ucRefs τ sig) (V1 m c) ∗ R c) ⊢ (reg0 m).pre c := .rfl
theorem hpost0 (c : Dev nD) : (reg0 m).post c ⊢ iprop(StableHlo.held (c : Thread nD τ) (Pipeline.ucRefs τ sig) (V2 m (outs m) c) ∗ R c) := by
  rw [V2_eq]; exact .rfl
theorem hpre1 (c : Dev nD) : iprop(StableHlo.held (c : Thread nD τ) (Pipeline.ucRefs τ sig) (V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ R c) := by
  rw [V4_eq]; exact .rfl
theorem hpre2 (c : Dev nD) : iprop(StableHlo.held (c : Thread nD τ) (Pipeline.ucRefs τ sig) (V7 m (outs m) c) ∗ R c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ R c) := by
  rw [V8_eq]; exact .rfl

variable (ρ : Dev nD → PrngReg)

/-- THE RUN: every weakly fair execution of @main from memory m with zero counters terminates, and in every final
    memory each unscoped buffer of each core holds the fold's last contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = V13 m (outs m) c b) :=
  run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

/-- THE FRAME: every weakly fair execution of @main terminates and every final memory holds each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of_run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

/-- THE RESULT beside the frame: the result array ends at the fold's last contents for it, each argument as launched. -/
theorem result_run : θ_run defs (onTc (τ := τ) (main (F := F))) ⟨m, fun _ => 0, ρ⟩ (fun r => ∀ c : Dev nD,
      r.2.mem ((c.tc : Thread nD τ).loc main_v28) = V13 m (outs m) c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  result_of_run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

end Cert.Kernel.Gen

end
-- ==== Proof.KI.Enc.lean ====
/- The class-A half of region 0 (the MLP encoder, pipeline 0 of @main) at the contents `V` the region finds in
   the TensorCore's buffers: each window's block at a point, the output window's buffer after the body as the one
   store's payload over the seven blocks loaded whole, the body's triple, the proof data, and the body obligation
   at every point. Generic in the float model. -/
import proofs.«163787_j56899726737498_1_alg».proof.Proof.Gen.KernelIdeal.Launch
import proofs.«163787_j56899726737498_1_alg».proof.Proof.Gen.KernelIdeal.Skeleton
import proofs.«163787_j56899726737498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole output block: the one store's rectangle. -/
abbrev r0_7 : Rect S2048x32 := Rect.unit (s := S2048x32) ![0, 0] S2048x32.size inb_S2048x32_S2048x32_0_0
/-- Input 0's whole block: its load's rectangle. -/
abbrev r0_0 : Rect S2048x512 := Rect.unit (s := S2048x512) ![0, 0] S2048x512.size inb_S2048x512_S2048x512_0_0
/-- Input 1's whole block: its load's rectangle. -/
abbrev r0_1 : Rect S512x256 := Rect.unit (s := S512x256) ![0, 0] S512x256.size inb_S512x256_S512x256_0_0
/-- Input 2's whole block: its load's rectangle. -/
abbrev r0_2 : Rect S1x256 := Rect.unit (s := S1x256) ![0, 0] S1x256.size inb_S1x256_S1x256_0_0
/-- Input 3's whole block: its load's rectangle. -/
abbrev r0_3 : Rect S256x256 := Rect.unit (s := S256x256) ![0, 0] S256x256.size inb_S256x256_S256x256_0_0
/-- Input 4's whole block: its load's rectangle. -/
abbrev r0_4 : Rect S1x256 := Rect.unit (s := S1x256) ![0, 0] S1x256.size inb_S1x256_S1x256_0_0
/-- Input 5's whole block: its load's rectangle. -/
abbrev r0_5 : Rect S256x32 := Rect.unit (s := S256x32) ![0, 0] S256x32.size inb_S256x32_S256x32_0_0
/-- Input 6's whole block: its load's rectangle. -/
abbrev r0_6 : Rect S1x32 := Rect.unit (s := S1x32) ![0, 0] S1x32.size inb_S1x32_S1x32_0_0

/-! ## What the body leaves in the output window's buffer -/

/-- Window 7's staging buffer after the body, from the input windows' blocks: its one store, whole, of the payload
    over the seven whole loads. -/
def out0_7 (x0 : Vec F S2048x512 .f32) (x1 : Vec F S512x256 .f32) (x2 : Vec F S1x256 .f32) (x3 : Vec F S256x256 .f32) (x4 : Vec F S1x256 .f32) (x5 : Vec F S256x32 .f32) (x6 : Vec F S1x32 .f32) : Vec F S2048x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store's rectangle is the whole buffer, so it covers it. -/
theorem cover0_7 (p0 : Vec F S2048x32 .f32) (y : S2048x32.Idx) :
    ∃ pc ∈ ([⟨r0_7, p0⟩] : List (View.Piece (Elt F) S2048x32 .f32)), y ∈ pc.1.set :=
  View.cover_of_tiled [⟨r0_7, p0⟩] S2048x32.size (by rfl) y

/-! ## The body's triple -/

set_option maxHeartbeats 4000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg0 : Memref sig .tc .vmem S2048x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S1x32 .f32) (harg6 : arg6.IsWhole) (arg7 : Memref sig .tc .vmem S2048x32 .f32) (harg7 : arg7.IsWhole)
    (x0 : Vec F S2048x512 .f32) (x1 : Vec F S512x256 .f32) (x2 : Vec F S1x256 .f32) (x3 : Vec F S256x256 .f32) (x4 : Vec F S1x256 .f32) (x5 : Vec F S256x32 .f32) (x6 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__encoder_kernel i arg0 harg0 arg1 harg1 arg2 harg2 arg3 harg3 arg4 harg4 arg5 harg5 arg6 harg6 arg7 harg7) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t`
    each input's buffer at its block and the output's at `out0_7` of the input blocks; the class's invariant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Gat1.lean ====
/-
  Region 1 (the first attention call), the half that carries a scratch accumulator across grid points.
  The body adds one term to the accumulator at every point; the accumulator is reset to zero at the first
  point of each row of the grid (column index 0) and copied to the output block at the last one (column
  index 7). What the accumulator holds after each point is a recursion over the points; the region's
  invariant carries it from point to point, and the output window is idle wherever it is not written back.
-/
import proofs.«163787_j56899726737498_1_alg».proof.Proof.Gen.KernelIdeal.Launch
import proofs.«163787_j56899726737498_1_alg».proof.Proof.Gen.KernelIdeal.Skeleton
import proofs.«163787_j56899726737498_1_alg».proof.Proof.Gen.KernelIdeal.Points
import proofs.«163787_j56899726737498_1_alg».proof.Proof.KI.Shares
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- One step of the accumulation: the accumulator `a` plus the point's term, from the five input blocks. -/
def acc1 (x0 : Vec F S2048x32 .f32) (x1 : Vec F S1024x32 .f32) (x2 : Vec F S1024x16 .f32) (x3 x4 : Vec F S1x1 .f32)
    (a : Vec F S2048x16 .f32) : Vec F S2048x16 .f32 :=
  k1_pay1 (k1_pay3 x2) (k1_pay4 x0 x1) (k1_pay5 x3) x4 a

/-- What the accumulator holds after the body at position `n`: one step from zero at the first point of a row
    of the grid, one step from what the point before left elsewhere. -/
def sc1 (c : Dev nD) : (n : ℕ) → n < cfg1.N → Vec F S2048x16 .f32
  | 0, hn => acc1 (iblk1 V c 0 ⟨0, hn⟩) (iblk1 V c 1 ⟨0, hn⟩) (iblk1 V c 2 ⟨0, hn⟩) (iblk1 V c 3 ⟨0, hn⟩) (iblk1 V c 4 ⟨0, hn⟩) k1_pay2
  | n + 1, hn => acc1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (if (n + 1) % 8 = 0 then k1_pay2 else sc1 c n (Nat.lt_of_succ_lt hn))

/-- At the first point of a row the step starts from zero. -/
theorem sc1_first (c : Dev nD) (t : Fin cfg1.N) (h : t.val % 8 = 0) :
    sc1 V c t.val t.isLt = acc1 (iblk1 V c 0 t) (iblk1 V c 1 t) (iblk1 V c 2 t) (iblk1 V c 3 t) (iblk1 V c 4 t) k1_pay2 := by
  obtain ⟨n, hn⟩ := t
  cases n with
  | zero => rfl
  | succ n => exact congrArg (acc1 _ _ _ _ _) (if_pos h)

/-- Elsewhere it starts from what the point before left. -/
theorem sc1_next (c : Dev nD) (t : Fin cfg1.N) (h : t.val % 8 ≠ 0) :
    sc1 V c t.val t.isLt = acc1 (iblk1 V c 0 t) (iblk1 V c 1 t) (iblk1 V c 2 t) (iblk1 V c 3 t) (iblk1 V c 4 t) (sc1 V c (t.val - 1) (by omega)) := by
  obtain ⟨n, hn⟩ := t
  cases n with
  | zero => exact absurd (Nat.zero_mod _) h
  | succ n => exact congrArg (acc1 _ _ _ _ _) (if_neg h)

/-! ## The body's branch conditions -/

/-- The condition of the body's first conditional (the reset of the accumulator), from the grid coordinates. -/
abbrev condFirst1 (i : grid1.Coords) : Prop := (Scalar.cmpi .ne (Scalar.extui (Scalar.cmpi .eq (BitVec.ofNat 32 (i 1).val) 0#32)) 0#32) = 1#1
/-- It holds at the points whose position is 0 modulo 8. -/
theorem hcondFirst1 : ∀ t : Fin cfg1.N, condFirst1 (grid1.coords t) ↔ t.val % 8 = 0 :=
  (by decide +kernel : ∀ t : Fin grid1.N, condFirst1 (grid1.coords t) ↔ t.val % 8 = 0)

/-- The condition of the body's second conditional (the copy to the output block). -/
abbrev condLast1 (i : grid1.Coords) : Prop := k1_cond2 i = 1#1
/-- It holds at the points whose position is 7 modulo 8. -/
theorem hcondLast1 : ∀ t : Fin cfg1.N, condLast1 (grid1.coords t) ↔ t.val % 8 = 7 :=
  (by decide +kernel : ∀ t : Fin grid1.N, condLast1 (grid1.coords t) ↔ t.val % 8 = 7)

/-! ## The body's triple, case by case -/

theorem hz1 : (![0, 0] : Fin 2 → Nat) = fun _ => 0 := funext fun a => by fin_cases a <;> rfl

set_option maxHeartbeats 1000000 in
/-- At the first point of a row: the accumulator, whatever it held, is reset and ends one step from zero; the
    output's buffer is handed back untouched. -/
theorem sound_first1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : condFirst1 i) (hc1 : ¬condLast1 i)
    (x0 : Vec F S2048x32 .f32) (x1 : Vec F S1024x32 .f32) (x2 : Vec F S1024x16 .f32) (x3 x4 : Vec F S1x1 .f32)
    (xo : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc1 x0 x1 x2 x3 x4 k1_pay2)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  subst hf0; subst hf1; subst hf2; subst hf3; subst hf4; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1, View.readCov_unit_zero (S := S2048x16) _ hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

set_option maxHeartbeats 1000000 in
/-- At a point that is neither first nor last in its row: the accumulator goes one step from what it held; the
    output's buffer is handed back untouched. -/
theorem sound_mid1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : ¬condFirst1 i) (hc1 : ¬condLast1 i)
    (x0 : Vec F S2048x32 .f32) (x1 : Vec F S1024x32 .f32) (x2 : Vec F S1024x16 .f32) (x3 x4 : Vec F S1x1 .f32)
    (xo a : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc1 x0 x1 x2 x3 x4 a)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0; subst hf1; subst hf2; subst hf3; subst hf4; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

set_option maxHeartbeats 1000000 in
/-- At the last point of a row: the accumulator goes one step from what it held, and the output's buffer,
    whatever it held, ends at the accumulator's new contents. -/
theorem sound_last1 (c : Dev nD) (E : Set ℕ) (i : grid1.Coords)
    (arg2 : Memref sig .tc .vmem S2048x32 .f32) (harg2 : arg2.IsWhole) (arg3 : Memref sig .tc .vmem S1024x32 .f32) (harg3 : arg3.IsWhole)
    (arg4 : Memref sig .tc .vmem S1024x16 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x16 .f32) (harg7 : arg7.IsWhole)
    (arg8 : Memref sig .tc .vmem S2048x16 .f32) (harg8 : arg8.IsWhole)
    (hc0 : ¬condFirst1 i) (hc1 : condLast1 i)
    (x0 : Vec F S2048x32 .f32) (x1 : Vec F S1024x32 .f32) (x2 : Vec F S1024x16 .f32) (x3 x4 : Vec F S1x1 .f32)
    (a : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (acc1 x0 x1 x2 x3 x4 a)
            ∗ owns (c : Thread nD τ) arg8 fullShare (acc1 x0 x1 x2 x3 x4 a)) -∗ K ⟨⟩))
      ⊢ wp frame (wpE (defs₀ (F := F)) Variants.none c none) E (cc1__gat_kernel i arg2 harg2 arg3 harg3 arg4 harg4 arg5 harg5 arg6 harg6 arg7 harg7 arg8 harg8) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists _; isplitr
    swap; · iexact HO
    ipureintro
    sl_unfold_words
    rw [View.read_writes_eq_canon _ _ _ (fun y => ⟨_, List.mem_cons_self .., View.mem_set_unit_zero hz1 inb_S2048x16_S2048x16_0_0 y⟩)]
    rw [View.canon_cons_unit_zero (S := S2048x16) hz1, View.readCov_unit_zero (S := S2048x16) _ hz1]
    unfold acc1
    simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]
  iexists _; isplitr
  swap; · iexact HS
  ipureintro
  sl_unfold_words
  rw [View.read_writes_eq_canon _ _ _ (fun y => ⟨_, List.mem_cons_self .., View.mem_set_unit_zero hz1 inb_S2048x16_S2048x16_0_0 y⟩)]
  rw [View.canon_cons_unit_zero (S := S2048x16) hz1]
  unfold acc1
  simp only [View.readAt_eq_ld, View.ld_unit_zero (S := S2048x32) hz1, View.ld_unit_zero (S := S1024x32) hz1,
    View.ld_unit_zero (S := S1024x16) hz1, View.ld_unit_zero (S := S1x1) hz1, View.ld_unit_zero (S := S2048x16) hz1]

/-! ## The invariant -/

/-- The scratch accumulator, a whole scoped buffer of the kernel's own. -/
abbrev scM1 : Memref sig .tc .vmem S2048x16 .f32 := Memref.whole cc1_scratch0

/-- The other scoped buffers of the core that are no staging buffer of this call, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region invariant before position `n`: before the first point what the launch hands over; afterwards the
    same with the accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (sc1 V c n hn) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (sc1 V c (n - 1) (by omega)) ∗ restBut1 c) ∗ (∃ r, prngReg c r)) := by
  cases n with
  | zero => exact absurd rfl hz
  | succ n => rfl

/-- What the launch hands over, with the accumulator's buffer split off the other scoped buffers. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole]; try rfl

/-! ## The proof data -/

/-- The proof data of this call on core `c`: the arrays as the region finds them; after the body at a point each
    input's buffer at its block and the output's at the accumulator's contents there (read only where the block is
    written back); the invariant carries the accumulator; the shared array's two windows hold a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => sc1 V c t.val t.isLt
  Φ t := PhiS1 V c t.val (Nat.le_of_lt_succ t.isLt)
  q w := if w = 0 then Cert.Shares.qL else if w = 1 then Cert.Shares.qR else fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = sc1 V c t.val t.isLt := by dsimp only [dat1]

theorem q1_0 (c : Dev nD) : (dat1 V c).q 0 = Cert.Shares.qL := by
  dsimp only [dat1]; rw [if_pos rfl]
theorem q1_1 (c : Dev nD) : (dat1 V c).q 1 = Cert.Shares.qR := by
  dsimp only [dat1]; rw [if_neg (by decide), if_pos rfl]
theorem q1_ge (c : Dev nD) (w : Fin cfg1.W) (h0 : w ≠ 0) (h1 : w ≠ 1) : (dat1 V c).q w = fullShare := by
  dsimp only [dat1]; rw [if_neg h0, if_neg h1]

theorem owed1 (c : Dev nD) (t : Fin (cfg1.N + 1)) : (dat1 V c).owed t = 0 := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the inputs' buffers -/

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Off the last point of a row the output window is idle: the body stores nothing into it, -/
theorem idleAt1 : ∀ t : Fin cfg1.N, ¬condLast1 (grid1.coords t) → cfg1.idle 5 (grid1.coords t) = true := by decide +kernel
/-- and its block is not written back there. -/
theorem noFlush1 : ∀ t : Fin cfg1.N, ¬condLast1 (grid1.coords t) → (cfg1.win 5).flush t = false := by decide +kernel
/-- At the last point of a row it is live. -/
theorem liveAtLast1 : ∀ t : Fin cfg1.N, condLast1 (grid1.coords t) → cfg1.idle 5 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' buffers hold their blocks; the position modulo 8 says which case the point
    is in; the invariant hands the body the accumulator at what the point before left (at anything before the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
    unfold Dat.leavesExact; rw [liveAt1_0 t, after1_0]]
  rw [show (dat1 V c).leavesExact 1 t = owns (c : Thread nD τ) (st1_1 t) fullShare (iblk1 V c 1 t) from by
    unfold Dat.leavesExact; rw [liveAt1_1 t, after1_1]]
  rw [show (dat1 V c).leavesExact 2 t = owns (c : Thread nD τ) (st1_2 t) fullShare (iblk1 V c 2 t) from by
    unfold Dat.leavesExact; rw [liveAt1_2 t, after1_2]]
  rw [show (dat1 V c).leavesExact 3 t = owns (c : Thread nD τ) (st1_3 t) fullShare (iblk1 V c 3 t) from by
    unfold Dat.leavesExact; rw [liveAt1_3 t, after1_3]]
  rw [show (dat1 V c).leavesExact 4 t = owns (c : Thread nD τ) (st1_4 t) fullShare (iblk1 V c 4 t) from by
    unfold Dat.leavesExact; rw [liveAt1_4 t, after1_4]]
  have hN : t.val < 32 := lt_of_lt_of_eq t.isLt (show cfg1.N = 32 from N_1)
  by_cases h0 : t.val % 8 = 0
  · have hc0 : condFirst1 (grid1.coords t) := (hcondFirst1 t).mpr h0
    have hc1 : ¬condLast1 (grid1.coords t) := fun h => by have := (hcondLast1 t).mp h; omega
    rw [Dat.leavesExact_idle (dat1 V c) 5 t (idleAt1 t hc1) (noFlush1 t hc1)]
    rw [sc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condFirst1 (grid1.coords t) := fun h => h0 ((hcondFirst1 t).mp h)
    have hz : t.val ≠ 0 := fun e => h0 (by rw [e])
    rw [sc1_next V c t h0]
    rw [PhiS1_castSucc V c t, PhiS1_pos V c _ _ hz]
    by_cases h1 : t.val % 8 = 7
    · have hc1 : condLast1 (grid1.coords t) := (hcondLast1 t).mpr h1
      rw [show (dat1 V c).leavesExact 5 t = owns (c : Thread nD τ) (st1_5 t) fullShare ((dat1 V c).after 5 t) from by
        unfold Dat.leavesExact; rw [liveAtLast1 t hc1]]
      rw [after1_5, sc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last1 c Set.univ (grid1.coords t) _ _ _ _ _ _ _ _ _ _ _ _ _ _ hc0 hc1
        (iblk1 V c 0 t) (iblk1 V c 1 t) (iblk1 V c 2 t) (iblk1 V c 3 t) (iblk1 V c 4 t) (sc1 V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬condLast1 (grid1.coords t) := fun h => h1 ((hcondLast1 t).mp h)
      rw [Dat.leavesExact_idle (dat1 V c) 5 t (idleAt1 t hc1) (noFlush1 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid1 c Set.univ (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5)
        (sc1 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.KernelIdeal.Gen

end
-- ==== Proof.KI.Gat2.lean ====
/-
  Region 2 (the second attention call), the half that carries a scratch accumulator across grid points.
  The body adds one term to the accumulator at every point; the accumulator is reset to zero at the first
  point of each row of the grid (column index 0) and copied to the output block at the last one (column
  index 7). What the accumulator holds after each point is a recursion over the points; the region's
  invariant carries it from point to point, and the output window is idle wherever it is not written back.
-/
import proofs.«163787_j56899726737498_1_alg».proof.Proof.Gen.KernelIdeal.Launch
import proofs.«163787_j56899726737498_1_alg».proof.Proof.Gen.KernelIdeal.Skeleton
import proofs.«163787_j56899726737498_1_alg».proof.Proof.Gen.KernelIdeal.Points
import proofs.«163787_j56899726737498_1_alg».proof.Proof.KI.Shares
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator -/

/-- One step of the accumulation: the accumulator `a` plus the point's term, from the five input blocks. -/
def acc2 (x0 : Vec F S2048x32 .f32) (x1 : Vec F S1024x32 .f32) (x2 : Vec F S1024x8 .f32) (x3 x4 : Vec F S1x1 .f32)
    (a : Vec F S2048x8 .f32) : Vec F S2048x8 .f32 :=
  k2_pay1 (k2_pay3 x2) (k2_pay4 x0 x1) (k2_pay5 x3) x4 a

/-- What the accumulator holds after the body at position `n`: one step from zero at the first point of a row
    of the grid, one step from what the point before left elsewhere. -/
def sc2 (c : Dev nD) : (n : ℕ) → n < cfg2.N → Vec F S2048x8 .f32
  | 0, hn => acc2 (iblk2 V c 0 ⟨0, hn⟩) (iblk2 V c 1 ⟨0, hn⟩) (iblk2 V c 2 ⟨0, hn⟩) (iblk2 V c 3 ⟨0, hn⟩) (iblk2 V c 4 ⟨0, hn⟩) k2_pay2
  | n + 1, hn => acc2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (if (n + 1) % 8 = 0 then k2_pay2 else sc2 c n (Nat.lt_of_succ_lt hn))

/-- At the first point of a row the step starts from zero. -/
theorem sc2_first (c : Dev nD) (t : Fin cfg2.N) (h : t.val % 8 = 0) :
    sc2 V c t.val t.isLt = acc2 (iblk2 V c 0 t) (iblk2 V c 1 t) (iblk2 V c 2 t) (iblk2 V c 3 t) (iblk2 V c 4 t) k2_pay2 := by
  obtain ⟨n, hn⟩ := t
  cases n with
  | zero => rfl
  | succ n => exact congrArg (acc2 _ _ _ _ _) (if_pos h)

/-- Elsewhere it starts from what the point before left. -/
theorem sc2_next (c : Dev nD) (t : Fin cfg2.N) (h : t.val % 8 ≠ 0) :
    sc2 V c t.val t.isLt = acc2 (iblk2 V c 0 t) (iblk2 V c 1 t) (iblk2 V c 2 t) (iblk2 V c 3 t) (iblk2 V c 4 t) (sc2 V c (t.val - 1) (by omega)) := by
  obtain ⟨n, hn⟩ := t
  cases n with
  | zero => exact absurd (Nat.zero_mod _) h
  | succ n => exact congrArg (acc2 _ _ _ _ _) (if_neg h)

/-! ## The body's branch conditions -/

/-- The condition of the body's first conditional (the reset of the accumulator), from the grid coordinates. -/
abbrev condFirst2 (i : grid2.Coords) : Prop := (Scalar.cmpi .ne (Scalar.extui (Scalar.cmpi .eq (BitVec.ofNat 32 (i 1).val) 0#32)) 0#32) = 1#1
/-- It holds at the points whose position is 0 modulo 8. -/
theorem hcondFirst2 : ∀ t : Fin cfg2.N, condFirst2 (grid2.coords t) ↔ t.val % 8 = 0 :=
  (by decide +kernel : ∀ t : Fin grid2.N, condFirst2 (grid2.coords t) ↔ t.val % 8 = 0)

/-- The condition of the body's second conditional (the copy to the output block). -/
abbrev condLast2 (i : grid2.Coords) : Prop := k2_cond2 i = 1#1
/-- It holds at the points whose position is 7 modulo 8. -/
theorem hcondLast2 : ∀ t : Fin cfg2.N, condLast2 (grid2.coords t) ↔ t.val % 8 = 7 :=
  (by decide +kernel : ∀ t : Fin grid2.N, condLast2 (grid2.coords t) ↔ t.val % 8 = 7)

/-! ## The body's triple, case by case -/

theorem hz2 : (![0, 0] : Fin 2 → Nat) = fun _ => 0 := funext fun a => by fin_cases a <;> rfl

set_option maxHeartbeats 1000000 in
/-- At the first point of a row: the accumulator, whatever it held, is reset and ends one step from zero; the
    output's buffer is handed back untouched. -/
theorem sound_first2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : condFirst2 i) (hc1 : ¬condLast2 i)
    (x0 : Vec F S2048x32 .f32) (x1 : Vec F S1024x32 .f32) (x2 : Vec F S1024x8 .f32) (x3 x4 : Vec F S1x1 .f32)
    (xo : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc2 x0 x1 x2 x3 x4 k2_pay2)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  subst hf0; subst hf1; subst hf2; subst hf3; subst hf4; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2, View.readCov_unit_zero (S := S2048x8) _ hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

set_option maxHeartbeats 1000000 in
/-- At a point that is neither first nor last in its row: the accumulator goes one step from what it held; the
    output's buffer is handed back untouched. -/
theorem sound_mid2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : ¬condFirst2 i) (hc1 : ¬condLast2 i)
    (x0 : Vec F S2048x32 .f32) (x1 : Vec F S1024x32 .f32) (x2 : Vec F S1024x8 .f32) (x3 x4 : Vec F S1x1 .f32)
    (xo a : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
            ∗ owns (c : Thread nD τ) arg8 fullShare (acc2 x0 x1 x2 x3 x4 a)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  subst hf0; subst hf1; subst hf2; subst hf3; subst hf4; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists fo; isplitr; · ipureintro; rfl
    iexact HO
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

set_option maxHeartbeats 1000000 in
/-- At the last point of a row: the accumulator goes one step from what it held, and the output's buffer,
    whatever it held, ends at the accumulator's new contents. -/
theorem sound_last2 (c : Dev nD) (E : Set ℕ) (i : grid2.Coords)
    (arg2 : Memref sig .tc .vmem S2048x32 .f32) (harg2 : arg2.IsWhole) (arg3 : Memref sig .tc .vmem S1024x32 .f32) (harg3 : arg3.IsWhole)
    (arg4 : Memref sig .tc .vmem S1024x8 .f32) (harg4 : arg4.IsWhole) (arg5 : Memref sig .tc .vmem S1x1 .f32) (harg5 : arg5.IsWhole)
    (arg6 : Memref sig .tc .vmem S1x1 .f32) (harg6 : arg6.IsWhole) (arg7 : Memref sig .tc .vmem S2048x8 .f32) (harg7 : arg7.IsWhole)
    (arg8 : Memref sig .tc .vmem S2048x8 .f32) (harg8 : arg8.IsWhole)
    (hc0 : ¬condFirst2 i) (hc1 : condLast2 i)
    (x0 : Vec F S2048x32 .f32) (x1 : Vec F S1024x32 .f32) (x2 : Vec F S1024x8 .f32) (x3 x4 : Vec F S1x1 .f32)
    (a : Vec F S2048x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (acc2 x0 x1 x2 x3 x4 a)
            ∗ owns (c : Thread nD τ) arg8 fullShare (acc2 x0 x1 x2 x3 x4 a)) -∗ K ⟨⟩))
      ⊢ wp frame (wpE (defs₀ (F := F)) Variants.none c none) E (cc2__gat_kernel i arg2 harg2 arg3 harg3 arg4 harg4 arg5 harg5 arg6 harg6 arg7 harg7 arg8 harg8) K := by
  simp only [cc2__gat_kernel_eq_skeleton]; unfold cc2__gat_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HO]
  · iexists _; isplitr
    swap; · iexact HO
    ipureintro
    sl_unfold_words
    rw [View.read_writes_eq_canon _ _ _ (fun y => ⟨_, List.mem_cons_self .., View.mem_set_unit_zero hz2 inb_S2048x8_S2048x8_0_0 y⟩)]
    rw [View.canon_cons_unit_zero (S := S2048x8) hz2, View.readCov_unit_zero (S := S2048x8) _ hz2]
    unfold acc2
    simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]
  iexists _; isplitr
  swap; · iexact HS
  ipureintro
  sl_unfold_words
  rw [View.read_writes_eq_canon _ _ _ (fun y => ⟨_, List.mem_cons_self .., View.mem_set_unit_zero hz2 inb_S2048x8_S2048x8_0_0 y⟩)]
  rw [View.canon_cons_unit_zero (S := S2048x8) hz2]
  unfold acc2
  simp only [View.readAt_eq_ld, View.ld_unit_zero (S := S2048x32) hz2, View.ld_unit_zero (S := S1024x32) hz2,
    View.ld_unit_zero (S := S1024x8) hz2, View.ld_unit_zero (S := S1x1) hz2, View.ld_unit_zero (S := S2048x8) hz2]

/-! ## The invariant -/

/-- The scratch accumulator, a whole scoped buffer of the kernel's own. -/
abbrev scM2 : Memref sig .tc .vmem S2048x8 .f32 := Memref.whole cc2_scratch0

/-- The other scoped buffers of the core that are no staging buffer of this call, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The region invariant before position `n`: before the first point what the launch hands over; afterwards the
    same with the accumulator at what the point before left in it. -/
def PhiS2 (c : Dev nD) : (n : ℕ) → n ≤ cfg2.N → sProp 𝕄
  | 0, _ => Pipeline.ΦA spec2 c
  | n + 1, hn => iprop(iprop(owns (c : Thread nD τ) scM2 fullShare (sc2 V c n hn) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (sc2 V c n hn) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (sc2 V c (n - 1) (by omega)) ∗ restBut2 c) ∗ (∃ r, prngReg c r)) := by
  cases n with
  | zero => exact absurd rfl hz
  | succ n => rfl

/-- What the launch hands over, with the accumulator's buffer split off the other scoped buffers. -/
theorem PhiA2_eq (c : Dev nD) :
    (Pipeline.ΦA spec2 c : sProp 𝕄)
      = iprop(iprop((∃ d, owns (c : Thread nD τ) scM2 fullShare d) ∗ restBut2 c) ∗ (∃ r, prngReg c r)) := by
  unfold Pipeline.ΦA
  rw [Pipeline.scopedRest_split_of_list spec2 c [cc2_scratch0] (by decide) (by decide)]
  simp only [scM2, owns_whole]; try rfl

/-! ## The proof data -/

/-- The proof data of this call on core `c`: the arrays as the region finds them; after the body at a point each
    input's buffer at its block and the output's at the accumulator's contents there (read only where the block is
    written back); the invariant carries the accumulator; the shared array's two windows hold a half each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sc2 V c t.val t.isLt
  Φ t := PhiS2 V c t.val (Nat.le_of_lt_succ t.isLt)
  q w := if w = 0 then Cert.Shares.qL else if w = 1 then Cert.Shares.qR else fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = sc2 V c t.val t.isLt := by dsimp only [dat2]

theorem q2_0 (c : Dev nD) : (dat2 V c).q 0 = Cert.Shares.qL := by
  dsimp only [dat2]; rw [if_pos rfl]
theorem q2_1 (c : Dev nD) : (dat2 V c).q 1 = Cert.Shares.qR := by
  dsimp only [dat2]; rw [if_neg (by decide), if_pos rfl]
theorem q2_ge (c : Dev nD) (w : Fin cfg2.W) (h0 : w ≠ 0) (h1 : w ≠ 1) : (dat2 V c).q w = fullShare := by
  dsimp only [dat2]; rw [if_neg h0, if_neg h1]

theorem owed2 (c : Dev nD) (t : Fin (cfg2.N + 1)) : (dat2 V c).owed t = 0 := rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the inputs' buffers -/

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Off the last point of a row the output window is idle: the body stores nothing into it, -/
theorem idleAt2 : ∀ t : Fin cfg2.N, ¬condLast2 (grid2.coords t) → cfg2.idle 5 (grid2.coords t) = true := by decide +kernel
/-- and its block is not written back there. -/
theorem noFlush2 : ∀ t : Fin cfg2.N, ¬condLast2 (grid2.coords t) → (cfg2.win 5).flush t = false := by decide +kernel
/-- At the last point of a row it is live. -/
theorem liveAtLast2 : ∀ t : Fin cfg2.N, condLast2 (grid2.coords t) → cfg2.idle 5 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the position modulo 8 says which case the point
    is in; the invariant hands the body the accumulator at what the point before left (at anything before the
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare (iblk2 V c 0 t) from by
    unfold Dat.leavesExact; rw [liveAt2_0 t, after2_0]]
  rw [show (dat2 V c).leavesExact 1 t = owns (c : Thread nD τ) (st2_1 t) fullShare (iblk2 V c 1 t) from by
    unfold Dat.leavesExact; rw [liveAt2_1 t, after2_1]]
  rw [show (dat2 V c).leavesExact 2 t = owns (c : Thread nD τ) (st2_2 t) fullShare (iblk2 V c 2 t) from by
    unfold Dat.leavesExact; rw [liveAt2_2 t, after2_2]]
  rw [show (dat2 V c).leavesExact 3 t = owns (c : Thread nD τ) (st2_3 t) fullShare (iblk2 V c 3 t) from by
    unfold Dat.leavesExact; rw [liveAt2_3 t, after2_3]]
  rw [show (dat2 V c).leavesExact 4 t = owns (c : Thread nD τ) (st2_4 t) fullShare (iblk2 V c 4 t) from by
    unfold Dat.leavesExact; rw [liveAt2_4 t, after2_4]]
  have hN : t.val < 32 := lt_of_lt_of_eq t.isLt (show cfg2.N = 32 from N_2)
  by_cases h0 : t.val % 8 = 0
  · have hc0 : condFirst2 (grid2.coords t) := (hcondFirst2 t).mpr h0
    have hc1 : ¬condLast2 (grid2.coords t) := fun h => by have := (hcondLast2 t).mp h; omega
    rw [Dat.leavesExact_idle (dat2 V c) 5 t (idleAt2 t hc1) (noFlush2 t hc1)]
    rw [sc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬condFirst2 (grid2.coords t) := fun h => h0 ((hcondFirst2 t).mp h)
    have hz : t.val ≠ 0 := fun e => h0 (by rw [e])
    rw [sc2_next V c t h0]
    rw [PhiS2_castSucc V c t, PhiS2_pos V c _ _ hz]
    by_cases h1 : t.val % 8 = 7
    · have hc1 : condLast2 (grid2.coords t) := (hcondLast2 t).mpr h1
      rw [show (dat2 V c).leavesExact 5 t = owns (c : Thread nD τ) (st2_5 t) fullShare ((dat2 V c).after 5 t) from by
        unfold Dat.leavesExact; rw [liveAtLast2 t hc1]]
      rw [after2_5, sc2_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last2 c Set.univ (grid2.coords t) _ _ _ _ _ _ _ _ _ _ _ _ _ _ hc0 hc1
        (iblk2 V c 0 t) (iblk2 V c 1 t) (iblk2 V c 2 t) (iblk2 V c 3 t) (iblk2 V c 4 t) (sc2 V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬condLast2 (grid2.coords t) := fun h => h1 ((hcondLast2 t).mp h)
      rw [Dat.leavesExact_idle (dat2 V c) 5 t (idleAt2 t hc1) (noFlush2 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid2 c Set.univ (grid2.coords t) _ _ _ _ _ _ _ _ _ _ _ _ _ _ hc0 hc1
        (iblk2 V c 0 t) (iblk2 V c 1 t) (iblk2 V c 2 t) (iblk2 V c 3 t) (iblk2 V c 4 t) ((dat2 V c).before 5 t d5)
        (sc2 V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, HR⟩, Hg⟩
  isplitl [HS HR]
  · isplitl [HS]
    · iexists _; iexact HS
    iexact HR
  iexact Hg

end Cert.KernelIdeal.Gen

end
-- ==== Proof.KI.Shared.lean ====
/-
  How a core's unscoped buffers become a pipeline's arrays when a region is entered, and come back when it is
  left, for the two pallas_calls whose first two input windows read ONE array. The buffers behind the windows
  are five; the shared one, held whole at the full share among the core's unscoped buffers, is split along the
  share into the two halves, one for each window on it, and the halves are joined again at the exit; every
  other window holds its own buffer at the full share.
-/
import proofs.«163787_j56899726737498_1_alg».proof.Proof.Gen.KernelIdeal.Launch
import proofs.«163787_j56899726737498_1_alg».proof.Proof.KI.Shares
import Idealize.ShloMosaic.Lib.Pipeline.Regions
import Idealize.ShloMosaic.Lib.Pipeline.RegionsLoop

noncomputable section

namespace Cert.KernelIdeal.Gen

open Idealize.ShloMosaic Idealize.ShloMosaic.TcCoe
open Idealize.SL Idealize.SL.RA
open Idealize.SL.BI (sProp bigSep bigSepL bigSep_congr bigSep_sdiff_split bigSep_eq_bigSepL_of_eq)
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## Region 1 -/

/-- The distinct buffers behind region 1's windows. -/
theorem arrImage1 : Finset.univ.image (Pipeline.arrRef spec1) = [main_v3, main_v4, main_arg7, main_arg8, main_v5].toFinset := by decide

/-- A core's unscoped buffers are the buffers behind region 1's windows and the rest. -/
theorem unscopedBufs_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V ∗ Pipeline.unscopedRest (Ix := Unit) (Name := ℕ) (U := UR sig nD τ) (Lvl := ℕ) spec1 c V) := by
  classical
  have hsub : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hsub]
  rfl

/-- The buffers behind region 1's windows one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_v4) ↦{fullShare} V main_v4)
          ∗ (((c : Thread nD τ).loc main_arg7) ↦{fullShare} V main_arg7) ∗ (((c : Thread nD τ).loc main_arg8) ↦{fullShare} V main_arg8)
          ∗ (((c : Thread nD τ).loc main_v5) ↦{fullShare} V main_v5)) :=
  bigSep_eq_bigSepL_of_eq [main_v3, main_v4, main_arg7, main_arg8, main_v5] arrImage1 (by decide) _

/-- ENTRY of region 1: the core's unscoped buffers at contents `Vc` are pipeline 1's arrays at the proof data's
    entry contents — read off `Vc` —, the shared array split in its two halves, and the unscoped rest. -/
theorem entry1 (c : Dev nD) (dat : Dat τ (Elt F) Unit ℕ (UR sig nD τ) ℕ cfg1 c)
    (hq0 : dat.q 0 = Cert.Shares.qL) (hq1 : dat.q 1 = Cert.Shares.qR) (hq : ∀ w : Fin cfg1.W, w ≠ 0 → w ≠ 1 → dat.q w = fullShare)
    (Vc : (b : Ref sig .tc) → Buf (Elt F) ((c : Thread nD τ).loc b)) (hA : ∀ w, dat.A w = Vc (Pipeline.arrRef spec1 w)) :
    (unscopedBufs c Vc : sProp 𝕄) ⊢ iprop(dat.arrays (dat.arrAt · 0) ∗ Pipeline.unscopedRest (Ix := Unit) (Name := ℕ) (U := UR sig nD τ) (Lvl := ℕ) spec1 c Vc) := by
  rw [unscopedBufs_split1, arrBufs1_eq]
  refine sep_mono ?_ .rfl
  have hset : ∀ w : Fin cfg1.W, (cfg1.win w).arr.view.set = Finset.univ := fun w => (arr_whole1 w).set_eq_univ
  have e0 : ((cfg1.win 0).arr.view.loc (c : Thread nD τ) ↦[(cfg1.win 0).arr.view.set]{dat.share 0} dat.arrAt 0 0 : sProp 𝕄)
      = (((c : Thread nD τ).loc main_v3) ↦{Cert.Shares.qL} Vc main_v3) := by
    rw [hset 0, ← hq0, show dat.arrAt 0 0 = Vc (Pipeline.arrRef spec1 0) from hA 0]; rfl
  have e1 : ((cfg1.win 1).arr.view.loc (c : Thread nD τ) ↦[(cfg1.win 1).arr.view.set]{dat.share 1} dat.arrAt 1 0 : sProp 𝕄)
      = (((c : Thread nD τ).loc main_v3) ↦{Cert.Shares.qR} Vc main_v3) := by
    rw [hset 1, ← hq1, show dat.arrAt 1 0 = Vc (Pipeline.arrRef spec1 1) from hA 1]; rfl
  have e2 : ((cfg1.win 2).arr.view.loc (c : Thread nD τ) ↦[(cfg1.win 2).arr.view.set]{dat.share 2} dat.arrAt 2 0 : sProp 𝕄)
      = (((c : Thread nD τ).loc main_v4) ↦{fullShare} Vc main_v4) := by
    rw [hset 2, ← hq 2 (by decide) (by decide), show dat.arrAt 2 0 = Vc (Pipeline.arrRef spec1 2) from hA 2]; rfl
  have e3 : ((cfg1.win 3).arr.view.loc (c : Thread nD τ) ↦[(cfg1.win 3).arr.view.set]{dat.share 3} dat.arrAt 3 0 : sProp 𝕄)
      = (((c : Thread nD τ).loc main_arg7) ↦{fullShare} Vc main_arg7) := by
    rw [hset 3, ← hq 3 (by decide) (by decide), show dat.arrAt 3 0 = Vc (Pipeline.arrRef spec1 3) from hA 3]; rfl
  have e4 : ((cfg1.win 4).arr.view.loc (c : Thread nD τ) ↦[(cfg1.win 4).arr.view.set]{dat.share 4} dat.arrAt 4 0 : sProp 𝕄)
      = (((c : Thread nD τ).loc main_arg8) ↦{fullShare} Vc main_arg8) := by
    rw [hset 4, ← hq 4 (by decide) (by decide), show dat.arrAt 4 0 = Vc (Pipeline.arrRef spec1 4) from hA 4]; rfl
  have e5 : ((cfg1.win 5).arr.view.loc (c : Thread nD τ) ↦[(cfg1.win 5).arr.view.set]{dat.share 5} dat.arrAt 5 0 : sProp 𝕄)
      = (((c : Thread nD τ).loc main_v5) ↦{fullShare} Vc main_v5) := by
    rw [hset 5, show dat.arrAt 5 0 = Vc (Pipeline.arrRef spec1 5) from hA 5]; rfl
  unfold Dat.arrays
  rw [bigSep_W1]
  refine (sep_mono_left (pointsTo_share Cert.Shares.full_mem).1).trans ?_
  refine sep_assoc.1.trans ?_
  exact sep_mono (Entails.of_eq e0.symm) (sep_mono (Entails.of_eq e1.symm) (sep_mono (Entails.of_eq e2.symm)
    (sep_mono (Entails.of_eq e3.symm) (sep_mono (Entails.of_eq e4.symm) (Entails.of_eq e5.symm)))))

/-- EXIT of region 1: pipeline 1's arrays at contents `G`, the two halves of the shared array at one contents,
    and the unscoped rest at `Vc` are the core's unscoped buffers at any valuation `Vc'` that has the arrays at `G`
    and agrees with `Vc` off them. -/
theorem exit1 (c : Dev nD) (dat : Dat τ (Elt F) Unit ℕ (UR sig nD τ) ℕ cfg1 c)
    (hq0 : dat.q 0 = Cert.Shares.qL) (hq1 : dat.q 1 = Cert.Shares.qR) (hq : ∀ w : Fin cfg1.W, w ≠ 0 → w ≠ 1 → dat.q w = fullShare)
    (Vc Vc' : (b : Ref sig .tc) → Buf (Elt F) ((c : Thread nD τ).loc b))
    (G : (w : Fin cfg1.W) → Buf (Elt F) ((spec1 w).arr.view.loc (c : Thread nD τ)))
    (hG : ∀ w, G w = Vc' (Pipeline.arrRef spec1 w)) (hrest : ∀ b, b ∉ Finset.univ.image (Pipeline.arrRef spec1) → Vc' b = Vc b) :
    iprop(dat.arrays G ∗ Pipeline.unscopedRest (Ix := Unit) (Name := ℕ) (U := UR sig nD τ) (Lvl := ℕ) spec1 c Vc) ⊢ (unscopedBufs c Vc' : sProp 𝕄) := by
  rw [unscopedBufs_split1 c Vc', arrBufs1_eq]
  refine sep_mono ?_ (Entails.of_eq ?_)
  swap
  · unfold Pipeline.unscopedRest
    exact bigSep_congr fun b hb => by rw [hrest b (Finset.mem_sdiff.mp hb).2]
  have hset : ∀ w : Fin cfg1.W, (cfg1.win w).arr.view.set = Finset.univ := fun w => (arr_whole1 w).set_eq_univ
  have e0 : ((cfg1.win 0).arr.view.loc (c : Thread nD τ) ↦[(cfg1.win 0).arr.view.set]{dat.share 0} G 0 : sProp 𝕄)
      = (((c : Thread nD τ).loc main_v3) ↦{Cert.Shares.qL} Vc' main_v3) := by
    rw [hset 0, ← hq0, hG 0]; rfl
  have e1 : ((cfg1.win 1).arr.view.loc (c : Thread nD τ) ↦[(cfg1.win 1).arr.view.set]{dat.share 1} G 1 : sProp 𝕄)
      = (((c : Thread nD τ).loc main_v3) ↦{Cert.Shares.qR} Vc' main_v3) := by
    rw [hset 1, ← hq1, hG 1]; rfl
  have e2 : ((cfg1.win 2).arr.view.loc (c : Thread nD τ) ↦[(cfg1.win 2).arr.view.set]{dat.share 2} G 2 : sProp 𝕄)
      = (((c : Thread nD τ).loc main_v4) ↦{fullShare} Vc' main_v4) := by
    rw [hset 2, ← hq 2 (by decide) (by decide), hG 2]; rfl
  have e3 : ((cfg1.win 3).arr.view.loc (c : Thread nD τ) ↦[(cfg1.win 3).arr.view.set]{dat.share 3} G 3 : sProp 𝕄)
      = (((c : Thread nD τ).loc main_arg7) ↦{fullShare} Vc' main_arg7) := by
    rw [hset 3, ← hq 3 (by decide) (by decide), hG 3]; rfl
  have e4 : ((cfg1.win 4).arr.view.loc (c : Thread nD τ) ↦[(cfg1.win 4).arr.view.set]{dat.share 4} G 4 : sProp 𝕄)
      = (((c : Thread nD τ).loc main_arg8) ↦{fullShare} Vc' main_arg8) := by
    rw [hset 4, ← hq 4 (by decide) (by decide), hG 4]; rfl
  have e5 : ((cfg1.win 5).arr.view.loc (c : Thread nD τ) ↦[(cfg1.win 5).arr.view.set]{dat.share 5} G 5 : sProp 𝕄)
      = (((c : Thread nD τ).loc main_v5) ↦{fullShare} Vc' main_v5) := by
    rw [hset 5, hG 5]; rfl
  unfold Dat.arrays
  rw [bigSep_W1]
  refine (sep_mono (Entails.of_eq e0) (sep_mono (Entails.of_eq e1) (sep_mono (Entails.of_eq e2)
    (sep_mono (Entails.of_eq e3) (sep_mono (Entails.of_eq e4) (Entails.of_eq e5)))))).trans ?_
  refine sep_assoc.2.trans ?_
  exact sep_mono_left (pointsTo_share Cert.Shares.full_mem).2

/-! ## Region 2 -/

/-- The distinct buffers behind region 2's windows. -/
theorem arrImage2 : Finset.univ.image (Pipeline.arrRef spec2) = [main_v3, main_v12, main_arg7, main_arg8, main_v13].toFinset := by decide

/-- A core's unscoped buffers are the buffers behind region 2's windows and the rest. -/
theorem unscopedBufs_split2 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec2 c V ∗ Pipeline.unscopedRest (Ix := Unit) (Name := ℕ) (U := UR sig nD τ) (Lvl := ℕ) spec2 c V) := by
  classical
  have hsub : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hsub]
  rfl

/-- The buffers behind region 2's windows one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v12) ↦{fullShare} V main_v12)
          ∗ (((c : Thread nD τ).loc main_arg7) ↦{fullShare} V main_arg7) ∗ (((c : Thread nD τ).loc main_arg8) ↦{fullShare} V main_arg8)
          ∗ (((c : Thread nD τ).loc main_v13) ↦{fullShare} V main_v13)) :=
  bigSep_eq_bigSepL_of_eq [main_v3, main_v12, main_arg7, main_arg8, main_v13] arrImage2 (by decide) _

/-- ENTRY of region 2: the core's unscoped buffers at contents `Vc` are pipeline 2's arrays at the proof data's
    entry contents — read off `Vc` —, the shared array split in its two halves, and the unscoped rest. -/
theorem entry2 (c : Dev nD) (dat : Dat τ (Elt F) Unit ℕ (UR sig nD τ) ℕ cfg2 c)
    (hq0 : dat.q 0 = Cert.Shares.qL) (hq1 : dat.q 1 = Cert.Shares.qR) (hq : ∀ w : Fin cfg2.W, w ≠ 0 → w ≠ 1 → dat.q w = fullShare)
    (Vc : (b : Ref sig .tc) → Buf (Elt F) ((c : Thread nD τ).loc b)) (hA : ∀ w, dat.A w = Vc (Pipeline.arrRef spec2 w)) :
    (unscopedBufs c Vc : sProp 𝕄) ⊢ iprop(dat.arrays (dat.arrAt · 0) ∗ Pipeline.unscopedRest (Ix := Unit) (Name := ℕ) (U := UR sig nD τ) (Lvl := ℕ) spec2 c Vc) := by
  rw [unscopedBufs_split2, arrBufs2_eq]
  refine sep_mono ?_ .rfl
  have hset : ∀ w : Fin cfg2.W, (cfg2.win w).arr.view.set = Finset.univ := fun w => (arr_whole2 w).set_eq_univ
  have e0 : ((cfg2.win 0).arr.view.loc (c : Thread nD τ) ↦[(cfg2.win 0).arr.view.set]{dat.share 0} dat.arrAt 0 0 : sProp 𝕄)
      = (((c : Thread nD τ).loc main_v3) ↦{Cert.Shares.qL} Vc main_v3) := by
    rw [hset 0, ← hq0, show dat.arrAt 0 0 = Vc (Pipeline.arrRef spec2 0) from hA 0]; rfl
  have e1 : ((cfg2.win 1).arr.view.loc (c : Thread nD τ) ↦[(cfg2.win 1).arr.view.set]{dat.share 1} dat.arrAt 1 0 : sProp 𝕄)
      = (((c : Thread nD τ).loc main_v3) ↦{Cert.Shares.qR} Vc main_v3) := by
    rw [hset 1, ← hq1, show dat.arrAt 1 0 = Vc (Pipeline.arrRef spec2 1) from hA 1]; rfl
  have e2 : ((cfg2.win 2).arr.view.loc (c : Thread nD τ) ↦[(cfg2.win 2).arr.view.set]{dat.share 2} dat.arrAt 2 0 : sProp 𝕄)
      = (((c : Thread nD τ).loc main_v12) ↦{fullShare} Vc main_v12) := by
    rw [hset 2, ← hq 2 (by decide) (by decide), show dat.arrAt 2 0 = Vc (Pipeline.arrRef spec2 2) from hA 2]; rfl
  have e3 : ((cfg2.win 3).arr.view.loc (c : Thread nD τ) ↦[(cfg2.win 3).arr.view.set]{dat.share 3} dat.arrAt 3 0 : sProp 𝕄)
      = (((c : Thread nD τ).loc main_arg7) ↦{fullShare} Vc main_arg7) := by
    rw [hset 3, ← hq 3 (by decide) (by decide), show dat.arrAt 3 0 = Vc (Pipeline.arrRef spec2 3) from hA 3]; rfl
  have e4 : ((cfg2.win 4).arr.view.loc (c : Thread nD τ) ↦[(cfg2.win 4).arr.view.set]{dat.share 4} dat.arrAt 4 0 : sProp 𝕄)
      = (((c : Thread nD τ).loc main_arg8) ↦{fullShare} Vc main_arg8) := by
    rw [hset 4, ← hq 4 (by decide) (by decide), show dat.arrAt 4 0 = Vc (Pipeline.arrRef spec2 4) from hA 4]; rfl
  have e5 : ((cfg2.win 5).arr.view.loc (c : Thread nD τ) ↦[(cfg2.win 5).arr.view.set]{dat.share 5} dat.arrAt 5 0 : sProp 𝕄)
      = (((c : Thread nD τ).loc main_v13) ↦{fullShare} Vc main_v13) := by
    rw [hset 5, show dat.arrAt 5 0 = Vc (Pipeline.arrRef spec2 5) from hA 5]; rfl
  unfold Dat.arrays
  rw [bigSep_W2]
  refine (sep_mono_left (pointsTo_share Cert.Shares.full_mem).1).trans ?_
  refine sep_assoc.1.trans ?_
  exact sep_mono (Entails.of_eq e0.symm) (sep_mono (Entails.of_eq e1.symm) (sep_mono (Entails.of_eq e2.symm)
    (sep_mono (Entails.of_eq e3.symm) (sep_mono (Entails.of_eq e4.symm) (Entails.of_eq e5.symm)))))

/-- EXIT of region 2: pipeline 2's arrays at contents `G`, the two halves of the shared array at one contents,
    and the unscoped rest at `Vc` are the core's unscoped buffers at any valuation `Vc'` that has the arrays at `G`
    and agrees with `Vc` off them. -/
theorem exit2 (c : Dev nD) (dat : Dat τ (Elt F) Unit ℕ (UR sig nD τ) ℕ cfg2 c)
    (hq0 : dat.q 0 = Cert.Shares.qL) (hq1 : dat.q 1 = Cert.Shares.qR) (hq : ∀ w : Fin cfg2.W, w ≠ 0 → w ≠ 1 → dat.q w = fullShare)
    (Vc Vc' : (b : Ref sig .tc) → Buf (Elt F) ((c : Thread nD τ).loc b))
    (G : (w : Fin cfg2.W) → Buf (Elt F) ((spec2 w).arr.view.loc (c : Thread nD τ)))
    (hG : ∀ w, G w = Vc' (Pipeline.arrRef spec2 w)) (hrest : ∀ b, b ∉ Finset.univ.image (Pipeline.arrRef spec2) → Vc' b = Vc b) :
    iprop(dat.arrays G ∗ Pipeline.unscopedRest (Ix := Unit) (Name := ℕ) (U := UR sig nD τ) (Lvl := ℕ) spec2 c Vc) ⊢ (unscopedBufs c Vc' : sProp 𝕄) := by
  rw [unscopedBufs_split2 c Vc', arrBufs2_eq]
  refine sep_mono ?_ (Entails.of_eq ?_)
  swap
  · unfold Pipeline.unscopedRest
    exact bigSep_congr fun b hb => by rw [hrest b (Finset.mem_sdiff.mp hb).2]
  have hset : ∀ w : Fin cfg2.W, (cfg2.win w).arr.view.set = Finset.univ := fun w => (arr_whole2 w).set_eq_univ
  have e0 : ((cfg2.win 0).arr.view.loc (c : Thread nD τ) ↦[(cfg2.win 0).arr.view.set]{dat.share 0} G 0 : sProp 𝕄)
      = (((c : Thread nD τ).loc main_v3) ↦{Cert.Shares.qL} Vc' main_v3) := by
    rw [hset 0, ← hq0, hG 0]; rfl
  have e1 : ((cfg2.win 1).arr.view.loc (c : Thread nD τ) ↦[(cfg2.win 1).arr.view.set]{dat.share 1} G 1 : sProp 𝕄)
      = (((c : Thread nD τ).loc main_v3) ↦{Cert.Shares.qR} Vc' main_v3) := by
    rw [hset 1, ← hq1, hG 1]; rfl
  have e2 : ((cfg2.win 2).arr.view.loc (c : Thread nD τ) ↦[(cfg2.win 2).arr.view.set]{dat.share 2} G 2 : sProp 𝕄)
      = (((c : Thread nD τ).loc main_v12) ↦{fullShare} Vc' main_v12) := by
    rw [hset 2, ← hq 2 (by decide) (by decide), hG 2]; rfl
  have e3 : ((cfg2.win 3).arr.view.loc (c : Thread nD τ) ↦[(cfg2.win 3).arr.view.set]{dat.share 3} G 3 : sProp 𝕄)
      = (((c : Thread nD τ).loc main_arg7) ↦{fullShare} Vc' main_arg7) := by
    rw [hset 3, ← hq 3 (by decide) (by decide), hG 3]; rfl
  have e4 : ((cfg2.win 4).arr.view.loc (c : Thread nD τ) ↦[(cfg2.win 4).arr.view.set]{dat.share 4} G 4 : sProp 𝕄)
      = (((c : Thread nD τ).loc main_arg8) ↦{fullShare} Vc' main_arg8) := by
    rw [hset 4, ← hq 4 (by decide) (by decide), hG 4]; rfl
  have e5 : ((cfg2.win 5).arr.view.loc (c : Thread nD τ) ↦[(cfg2.win 5).arr.view.set]{dat.share 5} G 5 : sProp 𝕄)
      = (((c : Thread nD τ).loc main_v13) ↦{fullShare} Vc' main_v13) := by
    rw [hset 5, hG 5]; rfl
  unfold Dat.arrays
  rw [bigSep_W2]
  refine (sep_mono (Entails.of_eq e0) (sep_mono (Entails.of_eq e1) (sep_mono (Entails.of_eq e2)
    (sep_mono (Entails.of_eq e3) (sep_mono (Entails.of_eq e4) (Entails.of_eq e5)))))).trans ?_
  refine sep_assoc.2.trans ?_
  exact sep_mono_left (pointsTo_share Cert.Shares.full_mem).2

end Cert.KernelIdeal.Gen

end
-- ==== Proof.KI.RunAll.lean ====
/-
  The run of @main with every unscoped buffer named at its end.

  Between two items of @main, core c holds every unscoped buffer whole at the valuation V_J m outs c (the launch
  contents, then each host stretch applied, then what a region may change at the unknowns outs). Given one segment
  record per kernel region, entered from the thread state before it and left at the one after it, every weakly fair
  execution of @main from memory m with zero counters terminates, and in every final memory each unscoped buffer b of
  core c holds V13 m outs c b: the last valuation, read whole off the final state.

  Two readings of that one run follow: each argument array ends as launched (no item writes an argument), and the
  result array main_v28 ends at V13 m outs c main_v28 beside the arguments.
-/
import proofs.«163787_j56899726737498_1_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. For any user algebra, level assignment, launch dues and ghost resources, any rest states E the
    launch makes on every core at once (hE0) and that end owing nothing (hE3), any contents the regions leave (outs)
    and any proof data: given, per region K, a segment record entered from the thread state before it and left at the
    one after it, every weakly fair execution of @main from memory m with zero counters terminates and in every final
    memory every unscoped buffer b of every core c holds V13 m outs c b. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD, ∀ b ∈ Pipeline.ucRefs τ sig,
      r.2.mem (((c : Thread nD τ)).1, b) = V13 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          StableHlo.seq hostOps3_3,
          StableHlo.seq hostOps3_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, .rfl, .rfl, hpre2 c, hpost2 c, .rfl, .rfl, .rfl, .rfl, sep_mono .rfl (hE3 c)⟩)
    (hinit := ?_)
    (QY := fun c s => ∀ b ∈ Pipeline.ucRefs τ sig, s.mem (((c : Thread nD τ)).1, b) = V13 m outs c b)
    (hfin := fun c s' => ?_) (hQ := fun _ h => h)
  · -- the launch: the unscoped buffers are held at V0; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read whole off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- THE FRAME, off the run: no host stretch writes an argument and no region may change one, so the last valuation
    holds each argument as launched. -/
theorem frame_of_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  OrdCont.mono (θ_run defs (onTc (τ := τ) (main (F := F))) ⟨m, fun _ => 0, ρ⟩)
    (fun r h c =>
      ⟨(h c (Proc.devRef .tc main_arg0) (Finset.mem_filter.mpr ⟨StableHlo.devRef_mem_tcRefs main_arg0, by decide⟩)).trans (V13_main_arg0 m outs c),
        (h c (Proc.devRef .tc main_arg1) (Finset.mem_filter.mpr ⟨StableHlo.devRef_mem_tcRefs main_arg1, by decide⟩)).trans (V13_main_arg1 m outs c),
        (h c (Proc.devRef .tc main_arg2) (Finset.mem_filter.mpr ⟨StableHlo.devRef_mem_tcRefs main_arg2, by decide⟩)).trans (V13_main_arg2 m outs c),
        (h c (Proc.devRef .tc main_arg3) (Finset.mem_filter.mpr ⟨StableHlo.devRef_mem_tcRefs main_arg3, by decide⟩)).trans (V13_main_arg3 m outs c),
        (h c (Proc.devRef .tc main_arg4) (Finset.mem_filter.mpr ⟨StableHlo.devRef_mem_tcRefs main_arg4, by decide⟩)).trans (V13_main_arg4 m outs c),
        (h c (Proc.devRef .tc main_arg5) (Finset.mem_filter.mpr ⟨StableHlo.devRef_mem_tcRefs main_arg5, by decide⟩)).trans (V13_main_arg5 m outs c),
        (h c (Proc.devRef .tc main_arg6) (Finset.mem_filter.mpr ⟨StableHlo.devRef_mem_tcRefs main_arg6, by decide⟩)).trans (V13_main_arg6 m outs c),
        (h c (Proc.devRef .tc main_arg7) (Finset.mem_filter.mpr ⟨StableHlo.devRef_mem_tcRefs main_arg7, by decide⟩)).trans (V13_main_arg7 m outs c),
        (h c (Proc.devRef .tc main_arg8) (Finset.mem_filter.mpr ⟨StableHlo.devRef_mem_tcRefs main_arg8, by decide⟩)).trans (V13_main_arg8 m outs c),
        (h c (Proc.devRef .tc main_arg9) (Finset.mem_filter.mpr ⟨StableHlo.devRef_mem_tcRefs main_arg9, by decide⟩)).trans (V13_main_arg9 m outs c),
        (h c (Proc.devRef .tc main_arg10) (Finset.mem_filter.mpr ⟨StableHlo.devRef_mem_tcRefs main_arg10, by decide⟩)).trans (V13_main_arg10 m outs c),
        (h c (Proc.devRef .tc main_arg11) (Finset.mem_filter.mpr ⟨StableHlo.devRef_mem_tcRefs main_arg11, by decide⟩)).trans (V13_main_arg11 m outs c),
        (h c (Proc.devRef .tc main_arg12) (Finset.mem_filter.mpr ⟨StableHlo.devRef_mem_tcRefs main_arg12, by decide⟩)).trans (V13_main_arg12 m outs c),
        (h c (Proc.devRef .tc main_arg13) (Finset.mem_filter.mpr ⟨StableHlo.devRef_mem_tcRefs main_arg13, by decide⟩)).trans (V13_main_arg13 m outs c),
        (h c (Proc.devRef .tc main_arg14) (Finset.mem_filter.mpr ⟨StableHlo.devRef_mem_tcRefs main_arg14, by decide⟩)).trans (V13_main_arg14 m outs c),
        (h c (Proc.devRef .tc main_arg15) (Finset.mem_filter.mpr ⟨StableHlo.devRef_mem_tcRefs main_arg15, by decide⟩)).trans (V13_main_arg15 m outs c),
        (h c (Proc.devRef .tc main_arg16) (Finset.mem_filter.mpr ⟨StableHlo.devRef_mem_tcRefs main_arg16, by decide⟩)).trans (V13_main_arg16 m outs c)⟩)
    (run_cond m EP ι 𝒱₀ L lv hL ρ outs pdats O₀ G u₀ hu₀ E hE0 hE3 R0 hpre0 hpost0 R1 hpre1 hpost1 R2 hpre2 hpost2)

/-- THE RESULT beside the frame, off the run: the result array main_v28 ends at the last valuation's contents for it,
    and each argument ends as launched. -/
theorem result_of_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v28) = V13 m outs c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  OrdCont.mono (θ_run defs (onTc (τ := τ) (main (F := F))) ⟨m, fun _ => 0, ρ⟩)
    (fun r h c =>
      ⟨h c (Proc.devRef .tc main_v28) (Finset.mem_filter.mpr ⟨StableHlo.devRef_mem_tcRefs main_v28, by decide⟩),
        (h c (Proc.devRef .tc main_arg0) (Finset.mem_filter.mpr ⟨StableHlo.devRef_mem_tcRefs main_arg0, by decide⟩)).trans (V13_main_arg0 m outs c),
        (h c (Proc.devRef .tc main_arg1) (Finset.mem_filter.mpr ⟨StableHlo.devRef_mem_tcRefs main_arg1, by decide⟩)).trans (V13_main_arg1 m outs c),
        (h c (Proc.devRef .tc main_arg2) (Finset.mem_filter.mpr ⟨StableHlo.devRef_mem_tcRefs main_arg2, by decide⟩)).trans (V13_main_arg2 m outs c),
        (h c (Proc.devRef .tc main_arg3) (Finset.mem_filter.mpr ⟨StableHlo.devRef_mem_tcRefs main_arg3, by decide⟩)).trans (V13_main_arg3 m outs c),
        (h c (Proc.devRef .tc main_arg4) (Finset.mem_filter.mpr ⟨StableHlo.devRef_mem_tcRefs main_arg4, by decide⟩)).trans (V13_main_arg4 m outs c),
        (h c (Proc.devRef .tc main_arg5) (Finset.mem_filter.mpr ⟨StableHlo.devRef_mem_tcRefs main_arg5, by decide⟩)).trans (V13_main_arg5 m outs c),
        (h c (Proc.devRef .tc main_arg6) (Finset.mem_filter.mpr ⟨StableHlo.devRef_mem_tcRefs main_arg6, by decide⟩)).trans (V13_main_arg6 m outs c),
        (h c (Proc.devRef .tc main_arg7) (Finset.mem_filter.mpr ⟨StableHlo.devRef_mem_tcRefs main_arg7, by decide⟩)).trans (V13_main_arg7 m outs c),
        (h c (Proc.devRef .tc main_arg8) (Finset.mem_filter.mpr ⟨StableHlo.devRef_mem_tcRefs main_arg8, by decide⟩)).trans (V13_main_arg8 m outs c),
        (h c (Proc.devRef .tc main_arg9) (Finset.mem_filter.mpr ⟨StableHlo.devRef_mem_tcRefs main_arg9, by decide⟩)).trans (V13_main_arg9 m outs c),
        (h c (Proc.devRef .tc main_arg10) (Finset.mem_filter.mpr ⟨StableHlo.devRef_mem_tcRefs main_arg10, by decide⟩)).trans (V13_main_arg10 m outs c),
        (h c (Proc.devRef .tc main_arg11) (Finset.mem_filter.mpr ⟨StableHlo.devRef_mem_tcRefs main_arg11, by decide⟩)).trans (V13_main_arg11 m outs c),
        (h c (Proc.devRef .tc main_arg12) (Finset.mem_filter.mpr ⟨StableHlo.devRef_mem_tcRefs main_arg12, by decide⟩)).trans (V13_main_arg12 m outs c),
        (h c (Proc.devRef .tc main_arg13) (Finset.mem_filter.mpr ⟨StableHlo.devRef_mem_tcRefs main_arg13, by decide⟩)).trans (V13_main_arg13 m outs c),
        (h c (Proc.devRef .tc main_arg14) (Finset.mem_filter.mpr ⟨StableHlo.devRef_mem_tcRefs main_arg14, by decide⟩)).trans (V13_main_arg14 m outs c),
        (h c (Proc.devRef .tc main_arg15) (Finset.mem_filter.mpr ⟨StableHlo.devRef_mem_tcRefs main_arg15, by decide⟩)).trans (V13_main_arg15 m outs c),
        (h c (Proc.devRef .tc main_arg16) (Finset.mem_filter.mpr ⟨StableHlo.devRef_mem_tcRefs main_arg16, by decide⟩)).trans (V13_main_arg16 m outs c)⟩)
    (run_cond m EP ι 𝒱₀ L lv hL ρ outs pdats O₀ G u₀ hu₀ E hE0 hE3 R0 hpre0 hpost0 R1 hpre1 hpost1 R2 hpre2 hpost2)

end Cert.KernelIdeal.Gen

end
-- ==== Proof.KI.Regs.lean ====
/-
  The three kernel regions of @main as segments of its run, and the run itself.

  Between two items of @main every core holds each of its unscoped buffers whole. The contents are named by a
  fold through @main: the launch memory, each host stretch applied in turn, and after each kernel region the one
  array it writes set to what the region's pipeline leaves in it (the output window's write-backs folded over
  the grid). Each region's proof data are taken at the contents the region is entered from, so the fold is
  defined outright, region by region, and the unknowns of the conditional run are then instantiated by it.

  A region is entered by sorting its windows' arrays out of the unscoped buffers and is left by putting them
  back at the contents the pipeline leaves; the generator register rides into the region's invariant and out
  again; no core owes anything.
-/
import proofs.«163787_j56899726737498_1_alg».proof.Proof.KI.Enc
import proofs.«163787_j56899726737498_1_alg».proof.Proof.KI.Gat1
import proofs.«163787_j56899726737498_1_alg».proof.Proof.KI.Gat2
import proofs.«163787_j56899726737498_1_alg».proof.Proof.KI.Shared
import proofs.«163787_j56899726737498_1_alg».proof.Proof.KI.RunAll

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items, region by region -/

/-- Region 0's entry contents: the launch memory after the first host stretch, read at the core's references. -/
abbrev X1 : (c : Dev nD) → (b : Ref sig .tc) → Buf (Elt F) ((c : Thread nD τ).loc b) := fun c b => V1 m c b

/-- What region 0 leaves in the array it writes: the output window's write-backs folded over the whole grid. -/
def o2 (c : Dev nD) : Buf (Elt F) ((c : Thread nD τ).loc main_v3) := (dat0 (X1 m) c).arrAt 7 cfg0.N

/-- After region 0: its output array at what the pipeline leaves, every other buffer as entered. -/
def W2 (c : Dev nD) : Valuation τ sig (Elt F) := Function.update (V1 m c) main_v3 (o2 m c)
abbrev X2 : (c : Dev nD) → (b : Ref sig .tc) → Buf (Elt F) ((c : Thread nD τ).loc b) := fun c b => W2 m c b

/-- After the host stretch between regions 0 and 1: region 1's entry contents. -/
abbrev W3 (c : Dev nD) : Valuation τ sig (Elt F) := StableHlo.after hostOps1 (W2 m c)
abbrev X3 : (c : Dev nD) → (b : Ref sig .tc) → Buf (Elt F) ((c : Thread nD τ).loc b) := fun c b => W3 m c b

/-- What region 1 leaves in the array it writes. -/
def o4 (c : Dev nD) : Buf (Elt F) ((c : Thread nD τ).loc main_v5) := (dat1 (X3 m) c).arrAt 5 cfg1.N

/-- After region 1. -/
def W4 (c : Dev nD) : Valuation τ sig (Elt F) := Function.update (W3 m c) main_v5 (o4 m c)
abbrev X4 : (c : Dev nD) → (b : Ref sig .tc) → Buf (Elt F) ((c : Thread nD τ).loc b) := fun c b => W4 m c b

/-- After the three host stretches between regions 1 and 2: region 2's entry contents. -/
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
abbrev X7 : (c : Dev nD) → (b : Ref sig .tc) → Buf (Elt F) ((c : Thread nD τ).loc b) := fun c b => W7 m c b

/-- What region 2 leaves in the array it writes. -/
def o8 (c : Dev nD) : Buf (Elt F) ((c : Thread nD τ).loc main_v13) := (dat2 (X7 m) c).arrAt 5 cfg2.N

/-- After region 2. -/
def W8 (c : Dev nD) : Valuation τ sig (Elt F) := Function.update (W7 m c) main_v13 (o8 m c)
abbrev X8 : (c : Dev nD) → (b : Ref sig .tc) → Buf (Elt F) ((c : Thread nD τ).loc b) := fun c b => W8 m c b

/-- The regions' contributions to the fold, as the conditional run reads them: after region 0, after region 1,
    after region 2. -/
def outs : Outs (F := F) := fun J r c => if J = 2 then W2 m c r else if J = 4 then W4 m c r else W8 m c r

theorem outs_2 (c : Dev nD) : outs m 2 main_v3 c = o2 m c := by
  show W2 m c main_v3 = _
  unfold W2; exact Function.update_self ..
theorem outs_4 (c : Dev nD) : outs m 4 main_v5 c = o4 m c := by
  show W4 m c main_v5 = _
  unfold W4; exact Function.update_self ..
theorem outs_8 (c : Dev nD) : outs m 8 main_v13 c = o8 m c := by
  show W8 m c main_v13 = _
  unfold W8; exact Function.update_self ..

/-- The conditional run's valuations at these unknowns are the fold. -/
theorem V2_eq (c : Dev nD) : V2 m (outs m) c = W2 m c := by
  show Function.update (V1 m c) main_v3 (outs m 2 main_v3 c) = _
  rw [outs_2]; rfl
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v5 (outs m 4 main_v5 c) = _
  rw [outs_4, V3_eq]; rfl
theorem V5_eq (c : Dev nD) : V5 m (outs m) c = W5 m c := by
  show StableHlo.after hostOps2 (V4 m (outs m) c) = _
  rw [V4_eq]
theorem V6_eq (c : Dev nD) : V6 m (outs m) c = W6 m c := by
  show StableHlo.after hostOps2_1 (V5 m (outs m) c) = _
  rw [V5_eq]
theorem V7_eq (c : Dev nD) : V7 m (outs m) c = W7 m c := by
  show StableHlo.after hostOps2_2 (V6 m (outs m) c) = _
  rw [V6_eq]
theorem V8_eq (c : Dev nD) : V8 m (outs m) c = W8 m c := by
  show Function.update (V7 m (outs m) c) main_v13 (outs m 8 main_v13 c) = _
  rw [outs_8, V7_eq]; rfl

/-- The three region values, read off the conditional run's valuations. -/
theorem V2_main_v3 (c : Dev nD) : V2 m (outs m) c main_v3 = o2 m c := by
  rw [V2_eq]; unfold W2; exact Function.update_self ..
theorem V4_main_v5 (c : Dev nD) : V4 m (outs m) c main_v5 = o4 m c := by
  rw [V4_eq]; unfold W4; exact Function.update_self ..
theorem V8_main_v13 (c : Dev nD) : V8 m (outs m) c main_v13 = o8 m c := by
  rw [V8_eq]; unfold W8; exact Function.update_self ..

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## What each region leaves: its arrays at the pipeline's last contents, every other buffer as entered -/

/-- A buffer other than the one a region writes is as the region found it. -/
theorem update_other {W : Valuation τ sig (Elt F)} {r b : Ref sig .tc} (c : Dev nD) (v : Buf (Elt F) ((c : Thread nD τ).loc r)) (h : b ≠ r) :
    (Function.update W (r : DevRef τ sig) v) b = W b :=
  Function.update_of_ne (StableHlo.devRef_ne_of_ne h) ..

theorem hF0 (c : Dev nD) (w : Fin cfg0.W) : (dat0 (X1 m) c).arrAt w cfg0.N = X2 m c (Pipeline.arrRef spec0 w) := by
  have hi : ∀ w : Fin cfg0.W, (cfg0.win w).isOut = false → Pipeline.arrRef spec0 w ≠ main_v3 →
      (dat0 (X1 m) c).arrAt w cfg0.N = X2 m c (Pipeline.arrRef spec0 w) := fun w h hne => by
    rw [(dat0 (X1 m) c).arrAt_in w h, A_eq0]
    exact (update_other c (o2 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact hi 5 rfl (by decide)
  | ⟨6, _⟩ => exact hi 6 rfl (by decide)
  | ⟨7, _⟩ => exact (Function.update_self (f := V1 m c) ..).symm

theorem hrest0 (c : Dev nD) : ∀ b, b ∉ Finset.univ.image (Pipeline.arrRef spec0) → X2 m c b = X1 m c b :=
  fun b hb => update_other c (o2 m c) fun e => hb (Finset.mem_image.mpr ⟨7, Finset.mem_univ _, e.symm⟩)

theorem hF1 (c : Dev nD) (w : Fin cfg1.W) : (dat1 (X3 m) c).arrAt w cfg1.N = X4 m c (Pipeline.arrRef spec1 w) := by
  have hi : ∀ w : Fin cfg1.W, (cfg1.win w).isOut = false → Pipeline.arrRef spec1 w ≠ main_v5 →
      (dat1 (X3 m) c).arrAt w cfg1.N = X4 m c (Pipeline.arrRef spec1 w) := fun w h hne => by
    rw [(dat1 (X3 m) c).arrAt_in w h, A_eq1]
    exact (update_other c (o4 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact (Function.update_self (f := W3 m c) ..).symm

theorem hrest1 (c : Dev nD) : ∀ b, b ∉ Finset.univ.image (Pipeline.arrRef spec1) → X4 m c b = X3 m c b :=
  fun b hb => update_other c (o4 m c) fun e => hb (Finset.mem_image.mpr ⟨5, Finset.mem_univ _, e.symm⟩)

theorem hF2 (c : Dev nD) (w : Fin cfg2.W) : (dat2 (X7 m) c).arrAt w cfg2.N = X8 m c (Pipeline.arrRef spec2 w) := by
  have hi : ∀ w : Fin cfg2.W, (cfg2.win w).isOut = false → Pipeline.arrRef spec2 w ≠ main_v13 →
      (dat2 (X7 m) c).arrAt w cfg2.N = X8 m c (Pipeline.arrRef spec2 w) := fun w h hne => by
    rw [(dat2 (X7 m) c).arrAt_in w h, A_eq2]
    exact (update_other c (o8 m c) hne).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact (Function.update_self (f := W7 m c) ..).symm

theorem hrest2 (c : Dev nD) : ∀ b, b ∉ Finset.univ.image (Pipeline.arrRef spec2) → X8 m c b = X7 m c b :=
  fun b hb => update_other c (o8 m c) fun e => hb (Finset.mem_image.mpr ⟨5, Finset.mem_univ _, e.symm⟩)

/-! ## The regions as segments -/

/-- No pipeline has a prefetched table: the tables' part of a region's entry is empty. -/
theorem noTables (c : Dev nD) (p : Fin 3) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]
  | ⟨2, _⟩ => rw [show (Finset.univ : Finset (Fin 0)) = ∅ from rfl, BI.bigSep_empty]

set_option backward.isDefEq.respectTransparency.types false in
/-- REGION 0 over the thread state: entered from every unscoped buffer at the contents after the first host stretch,
    left with its output array at what the pipeline leaves. Its eight windows read eight distinct arrays, each held
    at the full share. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 0; iempintro
    isplitl [Hdue]
    · unfold Pipeline.Dat.owesAt Pipeline.owesWithin
      icases Hdue with ⟨%W, Hdue⟩; iexists W; isplitr; · ipureintro; exact fun _ _ => Or.inl trivial
      iexact Hdue
    isplitl [Hprng]; · iexact Hprng
    iexact Hrest
  hin c := by
    rw [show (pdats m 0 c).Φ 0 = Pipeline.ΦA spec0 c from rfl]; unfold Pipeline.ΦA
    iintro ⟨Hprng, -, Hsc⟩
    isplitl [Hsc]; · iexact Hsc
    iexact Hprng
  hout c := by
    rw [Pipeline.ownSems0_none, show (pdats m 0 c).Φ (Fin.last _) = Pipeline.ΦA spec0 c from rfl]; unfold Pipeline.ΦA
    iintro ⟨Hsc, Hprng⟩
    isplitl [Hprng]; · iexact Hprng
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    icases Hdue with ⟨%W, -, Hdue⟩; iexists W; iexact Hdue

set_option backward.isDefEq.respectTransparency.types false in
/-- REGION 1 over the thread state: entered from every unscoped buffer at the contents after the host stretch that
    follows region 0, left with its output array at what the pipeline leaves. Its first two windows read one array,
    which is split along the share at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (X3 m) c).loose
  hwaits := Pipeline.hwaits_of_owed_zero _ _ _ _ L lv 1 fun c t => owed1 (X3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    have hsplit := entry1 c (pdats m 1 c) (q1_0 (X3 m) c) (q1_1 (X3 m) c) (q1_ge (X3 m) c) (X3 m c) (A_eq1 (X3 m) c)
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 1; iempintro
    isplitl [Hdue]
    · unfold Pipeline.Dat.owesAt Pipeline.owesWithin
      rw [show (pdats m 1 c).owed 0 = 0 from owed1 (X3 m) c 0]
      icases Hdue with ⟨%W, Hdue⟩; iexists W; isplitr; · ipureintro; exact fun _ _ => Or.inl trivial
      iexact Hdue
    isplitl [Hprng]; · iexact Hprng
    iexact Hrest
  hin c := by
    refine .trans ?_ (hin1 (X3 m) c); unfold Pipeline.ΦA
    iintro ⟨Hprng, -, Hsc⟩
    isplitl [Hsc]; · iexact Hsc
    iexact Hprng
  hout c := by
    rw [Pipeline.ownSems0_none]
    refine (hout1 (X3 m) c).trans ?_; unfold Pipeline.ΦA
    iintro ⟨Hsc, Hprng⟩
    isplitl [Hprng]; · iexact Hprng
    isplitr; · iempintro
    iexact Hsc
  hexit c := by
    have hjoin := exit1 c (pdats m 1 c) (q1_0 (X3 m) c) (q1_1 (X3 m) c) (q1_ge (X3 m) c) (X3 m c) (X4 m c)
      ((pdats m 1 c).arrAt · cfg1.N) (hF1 m c) (hrest1 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    rw [show (pdats m 1 c).owed (Fin.last (Pipeline.pin (pcfgs (F := F)) adm 1).N) = 0 from owed1 (X3 m) c _]
    icases Hdue with ⟨%W, -, Hdue⟩; iexists W; iexact Hdue

set_option backward.isDefEq.respectTransparency.types false in
/-- REGION 2 over the thread state: region 1's record at the second attention call's arrays. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (X7 m) c).loose
  hwaits := Pipeline.hwaits_of_owed_zero _ _ _ _ L lv 2 fun c t => owed2 (X7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (X7 m c)
  hentry c := by
    have hsplit := entry2 c (pdats m 2 c) (q2_0 (X7 m) c) (q2_1 (X7 m) c) (q2_ge (X7 m) c) (X7 m c) (A_eq2 (X7 m) c)
    rw [Pipeline.unscopedBufs_held] at hsplit
    iintro ⟨⟨Hbufs, Hprng, Hdue⟩, -, -⟩
    ihave Hs := hsplit $$ Hbufs
    icases Hs with ⟨Harr, Hrest⟩
    imodintro
    isplitl [Harr]; · iexact Harr
    isplitr; · iapply noTables c 2; iempintro
    isplitl [Hdue]
    · unfold Pipeline.Dat.owesAt Pipeline.owesWithin
      rw [show (pdats m 2 c).owed 0 = 0 from owed2 (X7 m) c 0]
      icases Hdue with ⟨%W, Hdue⟩; iexists W; isplitr; · ipureintro; exact fun _ _ => Or.inl trivial
      iexact Hdue
    isplitl [Hprng]; · iexact Hprng
    iexact Hrest
  hin c := by
    refine .trans ?_ (hin2 (X7 m) c); unfold Pipeline.ΦA
    iintro ⟨Hprng, -, Hsc⟩
    isplitl [Hsc]; · iexact Hsc
    iexact Hprng
  hout c := by
    rw [Pipeline.ownSems0_none]
    refine (hout2 (X7 m) c).trans ?_; unfold Pipeline.ΦA
    iintro ⟨Hsc, Hprng⟩
    isplitl [Hprng]; · iexact Hprng
    isplitr; · iempintro
    iexact Hsc
  hexit c := by
    have hjoin := exit2 c (pdats m 2 c) (q2_0 (X7 m) c) (q2_1 (X7 m) c) (q2_ge (X7 m) c) (X7 m c) (X8 m c)
      ((pdats m 2 c).arrAt · cfg2.N) (hF2 m c) (hrest2 m c)
    rw [Pipeline.unscopedBufs_held] at hjoin
    iintro ⟨Harr, Hdue, Hprng, Hrest⟩
    imodintro
    isplitl [Harr Hrest]
    · iapply hjoin; isplitl [Harr] <;> iassumption
    isplitl [Hprng]; · iexact Hprng
    unfold Pipeline.Dat.owesAt Pipeline.owesWithin
    rw [show (pdats m 2 c).owed (Fin.last (Pipeline.pin (pcfgs (F := F)) adm 2).N) = 0 from owed2 (X7 m) c _]
    icases Hdue with ⟨%W, -, Hdue⟩; iexists W; iexact Hdue

/-! ## The launch -/

/-- The launch's user element: the pipeline library's, at every pipeline's staging cells. -/
abbrev u₀ : UR sig nD τ := initOf (Pipeline.cells cfgs cellOf_inj) (Pipeline.launchToks cfgs cellOf_inj)

/-- The launch element is the library's own; no core keeps a ghost resource of its own. -/
theorem hu₀ : (ownU u₀ : sProp 𝕄) ⊢ |={Set.univ}=> iprop(BI.own (emb₁ (initOf (Pipeline.cells cfgs cellOf_inj) (Pipeline.launchToks cfgs cellOf_inj)))
    ∗ bigSep Finset.univ fun _ : Dev nD => (iprop(emp) : sProp 𝕄)) := by
  iintro Hu; imodintro
  isplitl [Hu]
  · iapply (show (ownU u₀ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest state from what the launch deals it: its generator register, at the launch's state, and
    its dues, at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, Hdue, -, Hprng, -⟩, -⟩
  imodintro
  isplitl [Hprng]; · iexists _; iexact Hprng
  iexists ∅; iexact Hdue

/-- The rest state ends owing nothing. -/
theorem hE3 (c : Dev nD) : R (F := F) c ⊢ (iprop(∃ W, owes (c : Thread nD τ) (0 : CellTallies nD τ sig Unit) W) : sProp 𝕄) := by
  iintro ⟨-, Hdue⟩; iexact Hdue

/-! The thread states chain: each region is entered from the conditional run's valuation before it and left at the
    one after it, these being the fold. -/

theorem hpre0 (c : Dev nD) : iprop(StableHlo.held (c : Thread nD τ) (Pipeline.ucRefs τ sig) (V1 m c) ∗ R c) ⊢ (reg0 m).pre c := .rfl
theorem hpost0 (c : Dev nD) : (reg0 m).post c ⊢ iprop(StableHlo.held (c : Thread nD τ) (Pipeline.ucRefs τ sig) (V2 m (outs m) c) ∗ R c) := by
  rw [V2_eq]; exact .rfl
theorem hpre1 (c : Dev nD) : iprop(StableHlo.held (c : Thread nD τ) (Pipeline.ucRefs τ sig) (V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (V4 m (outs m) c) ∗ R c) := by
  rw [V4_eq]; exact .rfl
theorem hpre2 (c : Dev nD) : iprop(StableHlo.held (c : Thread nD τ) (Pipeline.ucRefs τ sig) (V7 m (outs m) c) ∗ R c) ⊢ (reg2 m).pre c := by
  rw [V7_eq]; exact .rfl
theorem hpost2 (c : Dev nD) : (reg2 m).post c ⊢ iprop(StableHlo.held (c : Thread nD τ) (Pipeline.ucRefs τ sig) (V8 m (outs m) c) ∗ R c) := by
  rw [V8_eq]; exact .rfl

variable (ρ : Dev nD → PrngReg)

/-- THE RUN: every weakly fair execution of @main from memory m with zero counters terminates, and in every final
    memory each unscoped buffer of each core holds the fold's last contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = V13 m (outs m) c b) :=
  run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

/-- THE FRAME: every weakly fair execution of @main terminates and every final memory holds each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of_run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

/-- THE RESULT beside the frame: the result array ends at the fold's last contents for it, each argument as launched. -/
theorem result_run : θ_run defs (onTc (τ := τ) (main (F := F))) ⟨m, fun _ => 0, ρ⟩ (fun r => ∀ c : Dev nD,
      r.2.mem ((c.tc : Thread nD τ).loc main_v28) = V13 m (outs m) c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  result_of_run_cond m emb₁ () 𝒱₀ L lv (fun _ _ => rfl) ρ (outs m) (pdats m) 0 (fun _ => iprop(emp)) u₀ hu₀ (fun _ c => R c) (hE0 ρ) hE3
    (reg0 m) (hpre0 m) (hpost0 m) (reg1 m) (hpre1 m) (hpost1 m) (reg2 m) (hpre2 m) (hpost2 m)

end Cert.KernelIdeal.Gen

end
-- ==== Proof.KI.KEdge.lean ====
/-
  The edge weight of the graph layers, at the extended reals: from a destination row and a source row of the
  32-feature array, the logistic of t * (distance + θ). The distance is the square root of the squared distance,
  the squared distance being expanded as the two squared norms minus twice the inner product and clamped at zero.
-/
import Idealize.ShloMosaic.PureOps.Ideal

noncomputable section

namespace Cert.KernelIdeal.Val

open Idealize.ShloMosaic

/-- The squared distance between a destination row and a source row, expanded as the two squared norms minus
    twice the inner product, clamped at zero. -/
def kSq (hd hs : Fin 32 → EReal) : EReal :=
  max ((∑ k, hd k * hd k) + (∑ k, hs k * hs k) - Ideal.ofBits .f32 0x40000000#32 * ∑ k, hd k * hs k) 0

/-- The distance: the square root of the clamped square where that is positive, zero elsewhere. -/
def kDist (hd hs : Fin 32 → EReal) : EReal :=
  Scalar.select (Ideal.cmp .ogt (kSq hd hs) 0)
    (Ideal.sqrt (Scalar.select (Ideal.cmp .ogt (kSq hd hs) 0) (kSq hd hs) (Ideal.ofBits .f32 0x3F800000#32))) 0

/-- The edge weight between a destination row and a source row at temperature `t` and offset `θ`. -/
def kEdge (hd hs : Fin 32 → EReal) (t θ : EReal) : EReal := Ideal.logistic (t * (kDist hd hs + θ))

end Cert.KernelIdeal.Val

end
-- ==== Proof.KI.RefLayer.lean ====
/- The reference's graph layer read at an index, at the ideal float model: one entry of the latent graph
   A[s,d] = 1 / (1 + exp (-(t * (dist[s,d] + θ)))) as a scalar function of rows s and d of the encoder's output h,
   and each of the two graph layers as a sum over the 8192 source rows of the transposed graph's entry times the
   projected feature. -/
import proofs.«163787_j56899726737498_1_alg».proof.Proof.Gen.ReferenceIdeal.Read

noncomputable section

namespace Cert.KernelIdeal.Val

open Cert.ReferenceIdeal Cert.ReferenceIdeal.Gen Cert.ReferenceIdeal.Read Idealize.ShloMosaic Idealize.ShloMosaic.TcCoe Idealize.SL.Sem Idealize.ShloMosaic.StableHlo

/-- The squared norm of a row as the reference sums it: the zero word plus the sum of the squares. -/
def rSq (h : Fin 32 → EReal) : EReal :=
  Ideal.ofBits .f32 0x00000000#32 + ∑ k : Fin 32, h k * h k

/-- The squared distance between rows `hs` and `hd`, clamped below at zero. -/
def rD2 (hs hd : Fin 32 → EReal) : EReal :=
  max (rSq hs + rSq hd - Ideal.ofBits .f32 0x40000000#32 * ∑ k : Fin 32, hs k * hd k) (Ideal.ofBits .f32 0x00000000#32)

/-- The distance: the square root where the squared distance is positive (taken of one where it is not), zero elsewhere. -/
def rDist (hs hd : Fin 32 → EReal) : EReal :=
  Scalar.select (Ideal.cmp .ogt (rD2 hs hd) (Ideal.ofBits .f32 0x00000000#32))
    (Ideal.sqrt (Scalar.select (Ideal.cmp .ogt (rD2 hs hd) (Ideal.ofBits .f32 0x00000000#32)) (rD2 hs hd) (Ideal.ofBits .f32 0x3F800000#32)))
    (Ideal.ofBits .f32 0x00000000#32)

/-- One entry A[s,d] of the reference's latent graph from row s (`hs`) and row d (`hd`) of h, the temperature `t` and the
    threshold `θ`. -/
def rEdge (hs hd : Fin 32 → EReal) (t θ : EReal) : EReal :=
  Ideal.div (Ideal.ofBits .f32 0x3F800000#32) (Ideal.ofBits .f32 0x3F800000#32 + Ideal.exp (-(t * (rDist hs hd + θ))))

variable (x0 : (⟨S8192x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x32, .f32⟩ : BufTy).Contents (Elt Ideal))
  (x6 : (⟨S32, .f32⟩ : BufTy).Contents (Elt Ideal)) (x7 x8 : (⟨S1x1, .f32⟩ : BufTy).Contents (Elt Ideal))
  (x9 : (⟨S32x16, .f32⟩ : BufTy).Contents (Elt Ideal)) (x10 : (⟨S16, .f32⟩ : BufTy).Contents (Elt Ideal))
  (x11 : (⟨S16x8, .f32⟩ : BufTy).Contents (Elt Ideal))

/-! ## The scalar arguments and the index maps at coordinates -/

/-- The temperature, reshaped to a scalar, is the one entry of its [1,1] array. -/
theorem ref_t_apply (i : S_.Idx) : val_main_v14 (F := Ideal) x7 i = x7 (ValueIdx.ix2 (0 : Fin 1) (0 : Fin 1)) := by
  unfold val_main_v14
  refine shapeCast_apply x7 shapeCasts_S1x1_S_ i (ValueIdx.ix2 (0 : Fin 1) (0 : Fin 1)) ?_
  refine (Shape.rowMajor_val_two _).trans ?_
  refine Eq.trans ?_ (Shape.rowMajorPi_zero _ i).symm
  rfl

/-- The threshold, reshaped to a scalar, is the one entry of its [1,1] array. -/
theorem ref_theta_apply (i : S_.Idx) : val_main_v36 (F := Ideal) x8 i = x8 (ValueIdx.ix2 (0 : Fin 1) (0 : Fin 1)) := by
  unfold val_main_v36
  refine shapeCast_apply x8 shapeCasts_S1x1_S_ i (ValueIdx.ix2 (0 : Fin 1) (0 : Fin 1)) ?_
  refine (Shape.rowMajor_val_two _).trans ?_
  refine Eq.trans ?_ (Shape.rowMajorPi_zero _ i).symm
  rfl

theorem ref_idx16_ix (r : Fin 8192) (k : Fin 32) : idx_main_v16 (ValueIdx.ix1 r) k = ValueIdx.ix2 r k :=
  funext fun a => by match a with | ⟨0, _⟩ => rfl | ⟨1, _⟩ => rfl

theorem ref_idx19_ix (s d : Fin 8192) : idx_main_v17 (idx_main_v19 (ValueIdx.ix2 s d)) = ValueIdx.ix1 s :=
  funext fun a => by match a with | ⟨0, _⟩ => rfl

theorem ref_idx20_ix (s d : Fin 8192) : idx_main_v18 (idx_main_v20 (ValueIdx.ix2 s d)) = ValueIdx.ix1 d :=
  funext fun a => by match a with | ⟨0, _⟩ => rfl

theorem ref_lidx23_ix (s d : Fin 8192) (k : Fin 32) : lidx_main_v23 (ValueIdx.ix2 s d) k = ValueIdx.ix2 s k :=
  funext fun a => by match a with | ⟨0, _⟩ => rfl | ⟨1, _⟩ => rfl

theorem ref_ridx23_ix (s d : Fin 8192) (k : Fin 32) : idx_main_v22 (ridx_main_v23 (ValueIdx.ix2 s d) k) = ValueIdx.ix2 d k :=
  funext fun a => by match a with | ⟨0, _⟩ => rfl | ⟨1, _⟩ => rfl

theorem ref_idx47_ix (d s : Fin 8192) : idx_main_v47 (ValueIdx.ix2 d s) = ValueIdx.ix2 s d :=
  funext fun a => by match a with | ⟨0, _⟩ => rfl | ⟨1, _⟩ => rfl

theorem ref_idx56_ix (d s : Fin 8192) : idx_main_v56 (ValueIdx.ix2 d s) = ValueIdx.ix2 s d :=
  funext fun a => by match a with | ⟨0, _⟩ => rfl | ⟨1, _⟩ => rfl

/-! ## The graph's entry -/

/-- The squared norm of row r as the reference reduces it. -/
theorem ref_sq_apply (r : Fin 8192) :
    val_main_v16 (F := Ideal) x0 x1 x2 x3 x4 x5 x6 (ValueIdx.ix1 r)
      = rSq (fun k => val_main_v13 (F := Ideal) x0 x1 x2 x3 x4 x5 x6 (ValueIdx.ix2 r k)) := by
  rw [val_main_v16_apply]
  simp only [val_main_cst_apply, val_main_v15_apply, ref_idx16_ix, Ideal.ofBits_def, Ideal.mulf_def]
  rfl

/-- The graph's entry A[s,d] is `rEdge` of rows s and d of h. -/
theorem ref_A_apply (s d : Fin 8192) :
    val_main_v46 (F := Ideal) x0 x1 x2 x3 x4 x5 x6 x7 x8 (ValueIdx.ix2 s d)
      = rEdge (fun k => val_main_v13 (F := Ideal) x0 x1 x2 x3 x4 x5 x6 (ValueIdx.ix2 s k))
          (fun k => val_main_v13 (F := Ideal) x0 x1 x2 x3 x4 x5 x6 (ValueIdx.ix2 d k))
          (x7 (ValueIdx.ix2 (0 : Fin 1) (0 : Fin 1))) (x8 (ValueIdx.ix2 (0 : Fin 1) (0 : Fin 1))) := by
  simp only [val_main_v46_apply, val_main_v45_apply, val_main_cst_7_apply, val_main_v44_apply, val_main_v43_apply,
    val_main_cst_6_apply, val_main_v42_apply, val_main_v41_apply, val_main_v40_apply, val_main_v39_apply,
    val_main_v38_apply, val_main_v37_apply, val_main_v35_apply, val_main_v30_apply, val_main_v29_apply,
    val_main_cst_2_apply, val_main_v34_apply, val_main_v33_apply, val_main_v32_apply, val_main_v31_apply,
    val_main_cst_3_apply, val_main_call2_v1_apply, val_main_call2_v0_apply, val_main_cst_4_apply,
    val_main_call3_v1_apply, val_main_call3_v0_apply, val_main_cst_5_apply, val_main_v28_apply, val_main_v27_apply,
    val_main_cst_1_apply, val_main_v26_apply, val_main_v25_apply, val_main_v24_apply, val_main_cst_0_apply,
    val_main_v21_apply, val_main_v19_apply, val_main_v17_apply, val_main_v20_apply, val_main_v18_apply,
    val_main_v23_apply, val_main_v22_apply, ref_t_apply, ref_theta_apply, ref_idx19_ix, ref_idx20_ix, ref_lidx23_ix, ref_ridx23_ix,
    ref_sq_apply, Ideal.hostDivf_def, Ideal.ofBits_def, Ideal.addf_def, Ideal.hostUnary_exp_def, Ideal.hostNegf_def,
    Ideal.negf_def, Ideal.mulf_def, Ideal.cmpf_def, Ideal.hostUnary_sqrt_def, Ideal.maximumf_def, Ideal.subf_def]
  rfl

/-- The first transposed graph at (d, s) is the graph's entry A[s,d]. -/
theorem ref_AT_apply (d s : Fin 8192) :
    val_main_v47 (F := Ideal) x0 x1 x2 x3 x4 x5 x6 x7 x8 (ValueIdx.ix2 d s)
      = rEdge (fun k => val_main_v13 (F := Ideal) x0 x1 x2 x3 x4 x5 x6 (ValueIdx.ix2 s k))
          (fun k => val_main_v13 (F := Ideal) x0 x1 x2 x3 x4 x5 x6 (ValueIdx.ix2 d k))
          (x7 (ValueIdx.ix2 (0 : Fin 1) (0 : Fin 1))) (x8 (ValueIdx.ix2 (0 : Fin 1) (0 : Fin 1))) := by
  rw [val_main_v47_apply, ref_idx47_ix]
  exact ref_A_apply x0 x1 x2 x3 x4 x5 x6 x7 x8 s d

/-- The second transposed graph at (d, s) is the same entry. -/
theorem ref_AT2_apply (d s : Fin 8192) :
    val_main_v56 (F := Ideal) x0 x1 x2 x3 x4 x5 x6 x7 x8 (ValueIdx.ix2 d s)
      = rEdge (fun k => val_main_v13 (F := Ideal) x0 x1 x2 x3 x4 x5 x6 (ValueIdx.ix2 s k))
          (fun k => val_main_v13 (F := Ideal) x0 x1 x2 x3 x4 x5 x6 (ValueIdx.ix2 d k))
          (x7 (ValueIdx.ix2 (0 : Fin 1) (0 : Fin 1))) (x8 (ValueIdx.ix2 (0 : Fin 1) (0 : Fin 1))) := by
  rw [val_main_v56_apply, ref_idx56_ix]
  exact ref_A_apply x0 x1 x2 x3 x4 x5 x6 x7 x8 s d

theorem ref_lidx49_ix (d : Fin 8192) (f : Fin 16) (s : Fin 8192) : lidx_main_v49 (ValueIdx.ix2 d f) s = ValueIdx.ix2 d s :=
  funext fun a => by match a with | ⟨0, _⟩ => rfl | ⟨1, _⟩ => rfl

theorem ref_ridx49_ix (d : Fin 8192) (f : Fin 16) (s : Fin 8192) : ridx_main_v49 (ValueIdx.ix2 d f) s = ValueIdx.ix2 s f :=
  funext fun a => by match a with | ⟨0, _⟩ => rfl | ⟨1, _⟩ => rfl

theorem ref_lidx58_ix (d : Fin 8192) (f : Fin 8) (s : Fin 8192) : lidx_main_v58 (ValueIdx.ix2 d f) s = ValueIdx.ix2 d s :=
  funext fun a => by match a with | ⟨0, _⟩ => rfl | ⟨1, _⟩ => rfl

theorem ref_ridx58_ix (d : Fin 8192) (f : Fin 8) (s : Fin 8192) : ridx_main_v58 (ValueIdx.ix2 d f) s = ValueIdx.ix2 s f :=
  funext fun a => by match a with | ⟨0, _⟩ => rfl | ⟨1, _⟩ => rfl

/-- The first graph layer's aggregation at (d, f): the sum over the source rows s of A[s,d] times the projected feature. -/
theorem ref_layer1 (d : Fin 8192) (f : Fin 16) :
    val_main_v49 (F := Ideal) x0 x1 x2 x3 x4 x5 x6 x7 x8 x9 (ValueIdx.ix2 d f)
      = ∑ s : Fin 8192,
          rEdge (fun k => val_main_v13 (F := Ideal) x0 x1 x2 x3 x4 x5 x6 (ValueIdx.ix2 s k))
            (fun k => val_main_v13 (F := Ideal) x0 x1 x2 x3 x4 x5 x6 (ValueIdx.ix2 d k))
            (x7 (ValueIdx.ix2 (0 : Fin 1) (0 : Fin 1))) (x8 (ValueIdx.ix2 (0 : Fin 1) (0 : Fin 1)))
          * val_main_v48 (F := Ideal) x0 x1 x2 x3 x4 x5 x6 x9 (ValueIdx.ix2 s f) := by
  rw [val_main_v49_apply]
  refine Finset.sum_congr rfl fun s _ => ?_
  rw [ref_lidx49_ix, ref_ridx49_ix, ref_AT_apply]

/-- The second graph layer's aggregation at (d, f). -/
theorem ref_layer2 (d : Fin 8192) (f : Fin 8) :
    val_main_v58 (F := Ideal) x0 x1 x2 x3 x4 x5 x6 x7 x8 x9 x10 x11 (ValueIdx.ix2 d f)
      = ∑ s : Fin 8192,
          rEdge (fun k => val_main_v13 (F := Ideal) x0 x1 x2 x3 x4 x5 x6 (ValueIdx.ix2 s k))
            (fun k => val_main_v13 (F := Ideal) x0 x1 x2 x3 x4 x5 x6 (ValueIdx.ix2 d k))
            (x7 (ValueIdx.ix2 (0 : Fin 1) (0 : Fin 1))) (x8 (ValueIdx.ix2 (0 : Fin 1) (0 : Fin 1)))
          * val_main_v57 (F := Ideal) x0 x1 x2 x3 x4 x5 x6 x7 x8 x9 x10 x11 (ValueIdx.ix2 s f) := by
  rw [val_main_v58_apply]
  refine Finset.sum_congr rfl fun s _ => ?_
  rw [ref_lidx58_ix, ref_ridx58_ix, ref_AT2_apply]

end Cert.KernelIdeal.Val
-- ==== Proof.KI.Edge.lean ====
/-
  One entry of the latent graph, as the kernel computes it from a destination row and a source row and as the
  reference computes it from the source row and the destination row, is the same extended real: the squared
  norms are added in the other order, each product of the inner sum is taken in the other order, the reduce's
  initial zero is the unit of addition, and the logistic function is one over one plus the exponential of the
  negated argument. Only commutativity of addition and multiplication is used; nothing need be finite.
-/
import proofs.«163787_j56899726737498_1_alg».proof.Proof.KI.KEdge
import proofs.«163787_j56899726737498_1_alg».proof.Proof.KI.RefLayer
import Idealize.ShloMosaic.PureOps.Ideal.Laws

noncomputable section

namespace Cert.KernelIdeal.Val

open Idealize.ShloMosaic

/-- The word of 1.0 is the extended real one. -/
theorem one_word : Ideal.ofBits .f32 0x3F800000#32 = (1 : EReal) := by
  simp [Ideal.ofBits, Ideal.ieee, -EReal.coe_mul]; norm_num

/-- The squared distance: the two orders agree. -/
theorem kSq_eq_rD2 (hd hs : Fin 32 → EReal) : kSq hd hs = rD2 hs hd := by
  unfold kSq rD2 rSq
  rw [Ideal.ofBits_zero_f32, zero_add, zero_add, add_comm (∑ k, hd k * hd k)]
  congr 3
  exact Finset.sum_congr rfl fun k _ => mul_comm _ _

/-- The distance: the two orders agree. -/
theorem kDist_eq_rDist (hd hs : Fin 32 → EReal) : kDist hd hs = rDist hs hd := by
  unfold kDist rDist
  rw [kSq_eq_rD2, Ideal.ofBits_zero_f32]

/-- The graph's entry: the kernel's from (destination, source) is the reference's from (source, destination). -/
theorem kEdge_eq_rEdge (hd hs : Fin 32 → EReal) (t θ : EReal) : kEdge hd hs t θ = rEdge hs hd t θ := by
  unfold kEdge rEdge
  rw [kDist_eq_rDist, one_word]
  rfl

end Cert.KernelIdeal.Val

end
-- ==== Proof.KI.EncValue.lean ====
/- Region 0 (the encoder) read as a value, at the ideal floats: the kernel's payload at an index of a block and the
   reference's encoder at an index of the array are one row function of the input row, the weights and the biases; the
   four blocks the region writes back tile the output array, so the array the region leaves is the reference's
   encoder output of the argument arrays. -/
import proofs.«163787_j56899726737498_1_alg».proof.Proof.KI.Enc
import proofs.«163787_j56899726737498_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

/-! ## The three matmuls at an index -/

/-- The left operand's row coordinate at an output index of matmul 1 is the output's row. -/
theorem mm1_lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- Its column coordinate is the contraction coordinate. -/
theorem mm1_lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- The right operand's row coordinate is the contraction coordinate. -/
theorem mm1_rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- Its column coordinate is the output's column. -/
theorem mm1_rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
/-- Matmul 1 into the zero accumulator, at row `p` and column `q`: the sum over the 512 contraction
    coordinates of the left operand's row `p` times the right operand's column `q`. -/
theorem mm1_apply (l : FVec Ideal S2048x512 .bf16) (r : FVec Ideal S512x256 .bf16) (p : Fin 2048) (q : Fin 256) :
    matmul dot_S2048x512_S512x256_S2048x256_1_0_0_1_n_n none l r (constant (F := Ideal) S2048x256 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 p q) ((ValueIdx.contrEquiv1 dot_S2048x512_S512x256_S2048x256_1_0_0_1_n_n 512 rfl rfl).symm k) = ix2 p k := funext fun a => Fin.ext (by
    match a with
    | ⟨0, _⟩ => exact mm1_lhs_0 _ _
    | ⟨1, _⟩ => exact (mm1_lhs_1 _ _).trans hk)
  have er : dot_S2048x512_S512x256_S2048x256_1_0_0_1_n_n.rhsIdx (ix2 p q) ((ValueIdx.contrEquiv1 dot_S2048x512_S512x256_S2048x256_1_0_0_1_n_n 512 rfl rfl).symm k) = ix2 k q := funext fun a => Fin.ext (by
    match a with
    | ⟨0, _⟩ => exact (mm1_rhs_0 _ _).trans hk
    | ⟨1, _⟩ => exact mm1_rhs_1 _ _)
  rw [el, er]

/-- The left operand's row coordinate at an output index of matmul 2 is the output's row. -/
theorem mm2_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- Its column coordinate is the contraction coordinate. -/
theorem mm2_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- The right operand's row coordinate is the contraction coordinate. -/
theorem mm2_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- Its column coordinate is the output's column. -/
theorem mm2_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- Matmul 2 into the zero accumulator, at row `p` and column `q`: the sum over the 256 contraction
    coordinates of the left operand's row `p` times the right operand's column `q`. -/
theorem mm2_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact mm2_lhs_0 _ _
    | ⟨1, _⟩ => exact (mm2_lhs_1 _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (mm2_rhs_0 _ _).trans hk
    | ⟨1, _⟩ => exact mm2_rhs_1 _ _)
  rw [el, er]

/-- The left operand's row coordinate at an output index of matmul 3 is the output's row. -/
theorem mm3_lhs_0 (i : S2048x32.Idx) (q : dot_S2048x256_S256x32_S2048x32_1_0_0_1_n_n.contr.Idx) :
    (dot_S2048x256_S256x32_S2048x32_1_0_0_1_n_n.lhsIdx i q 0).val = (i 0).val := by
  unfold DotDims.lhsIdx
  rw [dif_neg (show ¬(0 : Fin S2048x256.rank) ∈ dot_S2048x256_S256x32_S2048x32_1_0_0_1_n_n.lhsBatch by decide), dif_pos (show (0 : Fin S2048x256.rank) ∈ dot_S2048x256_S256x32_S2048x32_1_0_0_1_n_n.lhsNonContracting by decide)]
  rfl
/-- Its column coordinate is the contraction coordinate. -/
theorem mm3_lhs_1 (i : S2048x32.Idx) (q : dot_S2048x256_S256x32_S2048x32_1_0_0_1_n_n.contr.Idx) :
    (dot_S2048x256_S256x32_S2048x32_1_0_0_1_n_n.lhsIdx i q 1).val = (q ⟨0, by decide⟩).val :=
  dot_S2048x256_S256x32_S2048x32_1_0_0_1_n_n.lhsIdx_val_of_single rfl i q
/-- The right operand's row coordinate is the contraction coordinate. -/
theorem mm3_rhs_0 (i : S2048x32.Idx) (q : dot_S2048x256_S256x32_S2048x32_1_0_0_1_n_n.contr.Idx) :
    (dot_S2048x256_S256x32_S2048x32_1_0_0_1_n_n.rhsIdx i q 0).val = (q ⟨0, by decide⟩).val :=
  dot_S2048x256_S256x32_S2048x32_1_0_0_1_n_n.rhsIdx_val_of_single rfl i q
/-- Its column coordinate is the output's column. -/
theorem mm3_rhs_1 (i : S2048x32.Idx) (q : dot_S2048x256_S256x32_S2048x32_1_0_0_1_n_n.contr.Idx) :
    (dot_S2048x256_S256x32_S2048x32_1_0_0_1_n_n.rhsIdx i q 1).val = (i 1).val := by
  unfold DotDims.rhsIdx
  rw [dif_neg (show ¬(1 : Fin S256x32.rank) ∈ dot_S2048x256_S256x32_S2048x32_1_0_0_1_n_n.rhsBatch by decide), dif_pos (show (1 : Fin S256x32.rank) ∈ dot_S2048x256_S256x32_S2048x32_1_0_0_1_n_n.rhsNonContracting by decide)]
  rfl
/-- Matmul 3 into the zero accumulator, at row `p` and column `q`: the sum over the 256 contraction
    coordinates of the left operand's row `p` times the right operand's column `q`. -/
theorem mm3_apply (l : FVec Ideal S2048x256 .bf16) (r : FVec Ideal S256x32 .bf16) (p : Fin 2048) (q : Fin 32) :
    matmul dot_S2048x256_S256x32_S2048x32_1_0_0_1_n_n none l r (constant (F := Ideal) S2048x32 .f32 0x00000000#32) (ix2 p q)
      = ∑ k : Fin 256, l (ix2 p k) * r (ix2 k q) := by
  simp only [matmul]
  rw [Ideal.matmul_constant_zero_apply, ← Equiv.sum_comp (ValueIdx.contrEquiv1 dot_S2048x256_S256x32_S2048x32_1_0_0_1_n_n 256 rfl rfl).symm]
  refine Finset.sum_congr rfl fun k _ => ?_
  have hk := ValueIdx.contrEquiv1_symm_val dot_S2048x256_S256x32_S2048x32_1_0_0_1_n_n 256 rfl rfl k
  have el : dot_S2048x256_S256x32_S2048x32_1_0_0_1_n_n.lhsIdx (ix2 p q) ((ValueIdx.contrEquiv1 dot_S2048x256_S256x32_S2048x32_1_0_0_1_n_n 256 rfl rfl).symm k) = ix2 p k := funext fun a => Fin.ext (by
    match a with
    | ⟨0, _⟩ => exact mm3_lhs_0 _ _
    | ⟨1, _⟩ => exact (mm3_lhs_1 _ _).trans hk)
  have er : dot_S2048x256_S256x32_S2048x32_1_0_0_1_n_n.rhsIdx (ix2 p q) ((ValueIdx.contrEquiv1 dot_S2048x256_S256x32_S2048x32_1_0_0_1_n_n 256 rfl rfl).symm k) = ix2 k q := funext fun a => Fin.ext (by
    match a with
    | ⟨0, _⟩ => exact (mm3_rhs_0 _ _).trans hk
    | ⟨1, _⟩ => exact mm3_rhs_1 _ _)
  rw [el, er]

/-! ## One row of the encoder -/

/-- One row of the encoder, from the row `a` of the input and the three layers' weights and biases: two dense
    layers each followed by the maximum with zero, then a third dense layer. -/
def encRow (a : Fin 512 → EReal) (w1 : (⟨2, ![512, 256]⟩ : Shape).Idx → EReal) (b1 : Fin 256 → EReal)
    (w2 : (⟨2, ![256, 256]⟩ : Shape).Idx → EReal) (b2 : Fin 256 → EReal)
    (w3 : (⟨2, ![256, 32]⟩ : Shape).Idx → EReal) (b3 : Fin 32 → EReal) (j : Fin 32) : EReal :=
  (∑ k2 : Fin 256, max ((∑ k1 : Fin 256, max ((∑ k0 : Fin 512, a k0 * w1 (ix2 k0 k1)) + b1 k1) 0 * w2 (ix2 k1 k2)) + b2 k2) 0 * w3 (ix2 k2 j)) + b3 j

/-! ## The kernel's payload at an index -/

/-- The zero word is the extended real zero. -/
theorem ofBits_zero : (FloatOps.ofBits (F := Ideal) FTy.f32 0x00000000#32) = (0 : EReal) := Ideal.ofBits_zero_f32

/-- The kernel's payload at row `p` and column `j` of a block is the encoder's row function of row `p` of the
    loaded input block, the weights as loaded, and the one row of each bias block. -/
theorem enc_pay_apply (x0 : Vec Ideal S2048x512 .f32) (x1 : Vec Ideal S512x256 .f32) (x2 : Vec Ideal S1x256 .f32)
    (x3 : Vec Ideal S256x256 .f32) (x4 : Vec Ideal S1x256 .f32) (x5 : Vec Ideal S256x32 .f32) (x6 : Vec Ideal S1x32 .f32)
    (p : Fin 2048) (j : Fin 32) :
    k0_pay1 (F := Ideal) x0 x1 x2 x3 x4 x5 x6 (ix2 p j)
      = encRow (fun k => x0 (ix2 p k)) x1 (fun q => x2 (ix2 (0 : Fin 1) q)) x3 (fun q => x4 (ix2 (0 : Fin 1) q)) x5
          (fun q => x6 (ix2 (0 : Fin 1) q)) j := by
  unfold k0_pay1 encRow
  dsimp only
  simp only [shapeCast_self]
  rw [addf_apply, mm3_apply, broadcastTo_1b_ab_apply]
  refine congrArg (· + x6 (ix2 (0 : Fin 1) j)) (Finset.sum_congr rfl fun k2 _ => ?_)
  rw [truncf_apply, truncf_apply, maximumf_apply, addf_apply, mm2_apply, broadcastTo_1b_ab_apply,
    broadcast_apply, ofBits_zero]
  refine congrArg (fun s => max (s + x4 (ix2 (0 : Fin 1) k2)) 0 * x5 (ix2 k2 j)) (Finset.sum_congr rfl fun k1 _ => ?_)
  rw [truncf_apply, truncf_apply, maximumf_apply, addf_apply, mm1_apply, broadcastTo_1b_ab_apply,
    broadcast_apply]
  refine congrArg (fun s => max (s + x2 (ix2 (0 : Fin 1) k1)) 0 * x3 (ix2 k1 k2)) (Finset.sum_congr rfl fun k0 _ => ?_)
  rw [truncf_apply, truncf_apply]

/-! ## The reference's encoder at an index -/

section Reference
open Cert.ReferenceIdeal.Read

/-- The reference's first layer at row `r` and column `q`. -/
theorem ref_enc_layer1 (X0 : (⟨Cert.ReferenceIdeal.S8192x512, .f32⟩ : BufTy).Contents (Elt Ideal)) (w1 : (⟨Cert.ReferenceIdeal.S512x256, .f32⟩ : BufTy).Contents (Elt Ideal)) (b1 : (⟨Cert.ReferenceIdeal.S256, .f32⟩ : BufTy).Contents (Elt Ideal)) (r : Fin 8192) (q : Fin 256) :
    val_main_v4 (F := Ideal) X0 w1 b1 (ix2 r q)
      = max ((∑ k0 : Fin 512, X0 (ix2 r k0) * w1 (ix2 k0 q)) + b1 (ix1 q)) 0 := by
  rw [val_main_v4_apply, Ideal.maximumf_def, val_main_v3_apply, Ideal.addf_def, val_main_v0_apply, val_main_v2_apply,
    val_main_v1_apply, val_main_call0_v0_apply, val_main_call0_cst_apply, ofBits_zero]
  refine congrArg₂ max (congrArg₂ (· + ·) (Finset.sum_congr rfl fun k _ => ?_) ?_) rfl
  · have el : lidx_main_v0 (ix2 r q) k = ix2 r k := funext fun a => match a with | ⟨0, _⟩ => rfl | ⟨1, _⟩ => rfl
    have er : ridx_main_v0 (ix2 r q) k = ix2 k q := funext fun a => match a with | ⟨0, _⟩ => rfl | ⟨1, _⟩ => rfl
    rw [el, er]
  · exact congrArg b1 (funext fun a => match a with | ⟨0, _⟩ => rfl)

/-- The reference's second layer at row `r` and column `q`, over the first layer's row `r`. -/
theorem ref_enc_layer2 (X0 : (⟨Cert.ReferenceIdeal.S8192x512, .f32⟩ : BufTy).Contents (Elt Ideal)) (w1 : (⟨Cert.ReferenceIdeal.S512x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (r : Fin 8192) (q : Fin 256) :
    val_main_v9 (F := Ideal) X0 w1 b1 w2 b2 (ix2 r q)
      = max ((∑ k1 : Fin 256, val_main_v4 (F := Ideal) X0 w1 b1 (ix2 r k1) * w2 (ix2 k1 q)) + b2 (ix1 q)) 0 := by
  rw [val_main_v9_apply, Ideal.maximumf_def, val_main_v8_apply, Ideal.addf_def, val_main_v5_apply, val_main_v7_apply,
    val_main_v6_apply, val_main_call1_v0_apply, val_main_call1_cst_apply, ofBits_zero]
  refine congrArg₂ max (congrArg₂ (· + ·) (Finset.sum_congr rfl fun k _ => ?_) ?_) rfl
  · have el : lidx_main_v5 (ix2 r q) k = ix2 r k := funext fun a => match a with | ⟨0, _⟩ => rfl | ⟨1, _⟩ => rfl
    have er : ridx_main_v5 (ix2 r q) k = ix2 k q := funext fun a => match a with | ⟨0, _⟩ => rfl | ⟨1, _⟩ => rfl
    rw [el, er]
  · exact congrArg b2 (funext fun a => match a with | ⟨0, _⟩ => rfl)

/-- The reference's third layer at row `r` and column `j`, over the second layer's row `r`. -/
theorem ref_enc_layer3 (X0 : (⟨Cert.ReferenceIdeal.S8192x512, .f32⟩ : BufTy).Contents (Elt Ideal)) (w1 : (⟨Cert.ReferenceIdeal.S512x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (w3 : (⟨Cert.ReferenceIdeal.S256x32, .f32⟩ : BufTy).Contents (Elt Ideal)) (b3 : (⟨Cert.ReferenceIdeal.S32, .f32⟩ : BufTy).Contents (Elt Ideal)) (r : Fin 8192) (j : Fin 32) :
    val_main_v13 (F := Ideal) X0 w1 b1 w2 b2 w3 b3 (ix2 r j)
      = (∑ k2 : Fin 256, val_main_v9 (F := Ideal) X0 w1 b1 w2 b2 (ix2 r k2) * w3 (ix2 k2 j)) + b3 (ix1 j) := by
  rw [val_main_v13_apply, Ideal.addf_def, val_main_v10_apply, val_main_v12_apply, val_main_v11_apply]
  refine congrArg₂ (· + ·) (Finset.sum_congr rfl fun k _ => ?_) ?_
  · have el : lidx_main_v10 (ix2 r j) k = ix2 r k := funext fun a => match a with | ⟨0, _⟩ => rfl | ⟨1, _⟩ => rfl
    have er : ridx_main_v10 (ix2 r j) k = ix2 k j := funext fun a => match a with | ⟨0, _⟩ => rfl | ⟨1, _⟩ => rfl
    rw [el, er]
  · exact congrArg b3 (funext fun a => match a with | ⟨0, _⟩ => rfl)

/-- The reference's encoder output at row `r` and column `j` is the encoder's row function of row `r` of the
    input array, the weights and the biases. -/
theorem ref_enc_apply (X0 : (⟨Cert.ReferenceIdeal.S8192x512, .f32⟩ : BufTy).Contents (Elt Ideal)) (w1 : (⟨Cert.ReferenceIdeal.S512x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (w3 : (⟨Cert.ReferenceIdeal.S256x32, .f32⟩ : BufTy).Contents (Elt Ideal)) (b3 : (⟨Cert.ReferenceIdeal.S32, .f32⟩ : BufTy).Contents (Elt Ideal)) (r : Fin 8192) (j : Fin 32) :
    val_main_v13 (F := Ideal) X0 w1 b1 w2 b2 w3 b3 (ix2 r j)
      = encRow (fun k => X0 (ix2 r k)) w1 (fun q => b1 (ix1 q)) w2 (fun q => b2 (ix1 q)) w3 (fun q => b3 (ix1 q)) j := by
  unfold encRow
  rw [ref_enc_layer3]
  refine congrArg (· + b3 (ix1 j)) (Finset.sum_congr rfl fun k2 _ => ?_)
  rw [ref_enc_layer2]
  refine congrArg (fun s => max (s + b2 (ix1 k2)) 0 * w3 (ix2 k2 j)) (Finset.sum_congr rfl fun k1 _ => ?_)
  rw [ref_enc_layer1]

end Reference

/-! ## From the blocks to the array -/

section Array

-- the TensorCore's buffer contents when the region is entered
variable (V : (c : Dev nD) → (b : Ref sig .tc) → Buf (Elt Ideal) ((c : Thread nD τ).loc b))

/-- The whole-block rectangle's offsets are zero on both axes. -/
theorem zero_offsets : (![0, 0] : Fin 2 → Nat) = fun _ => 0 := funext fun a => by fin_cases a <;> rfl

/-- The printed index maps over the four points: the input's rows and the output's rows move with the point, 2048
    rows each; the weights and the biases are one whole block at every point. -/
theorem enc_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The encoder of the reference, of the argument arrays as the region finds them. -/
abbrev encArr (c : Dev nD) : Buf (Elt Ideal) ((c : Thread nD τ).loc main_v3) :=
  Cert.ReferenceIdeal.Read.val_main_v13 (F := Ideal) (V c main_arg0) (V c main_arg1) (V c main_arg2) (V c main_arg3) (V c main_arg4) (V c main_arg5) (V c main_arg6)

/-- What point `t` writes back is block `t` of the reference's encoder output: row `p` of the block is row
    `2048 t + p` of the array, on the input side and on the output side, and the biases' one-row arrays are the
    bias vectors. -/
theorem enc_flushed (c : Dev nD)
    (hv0 : V c main_v0 = shapeCast S1x256 (V c main_arg2) shapeCasts_S256_S1x256)
    (hv1 : V c main_v1 = shapeCast S1x256 (V c main_arg4) shapeCasts_S256_S1x256)
    (hv2 : V c main_v2 = shapeCast S1x32 (V c main_arg6) shapeCasts_S32_S1x32)
    (t : Fin cfg0.N) :
    (dat0 (F := Ideal) V c).flushed 7 t = ((cfg0.win 7).blk t).view.read (Elt Ideal) (encArr V c) := by
  show (cfg0.win 7).cut (grid0.coords t) ((dat0 (F := Ideal) V c).after 7 t) = _
  rw [after0_7]
  unfold out0_7
  rw [View.canon_unit_zero zero_offsets]
  simp only [View.ld_unit_zero (S := S2048x512) zero_offsets, View.ld_unit_zero (S := S512x256) zero_offsets, View.ld_unit_zero (S := S1x256) zero_offsets, View.ld_unit_zero (S := S256x256) zero_offsets, View.ld_unit_zero (S := S256x32) zero_offsets, View.ld_unit_zero (S := S1x32) zero_offsets]
  obtain ⟨e00, e01, e10, e11, e20, e21, e30, e31, e40, e41, e50, e51, e60, e61, e70, e71⟩ := enc_index_facts t
  have ht : t.val < 4 := lt_of_lt_of_eq t.isLt (N_0 : cfg0.N = 4)
  refine funext fun (y : S2048x32.Idx) => ?_
  obtain ⟨p, j, rfl⟩ : ∃ (p : Fin 2048) (j : Fin 32), y = ix2 p j := ⟨y 0, y 1, eq_ix2 y⟩
  have hp : p.val < 2048 := p.isLt
  have hr : 2048 * t.val + p.val < 8192 := by omega
  have hemb : ((cfg0.win 7).blk t).view.emb (ix2 p j) = ix2 (⟨2048 * t.val + p.val, hr⟩ : Fin 8192) j := by
    refine funext fun a => Fin.ext ?_
    match a with
    | ⟨0, _⟩ => show win0_7.index t (0 : Fin 2) * 2048 + 1 * p.val = 2048 * t.val + p.val; omega
    | ⟨1, _⟩ => show win0_7.index t (1 : Fin 2) * 32 + 1 * j.val = j.val; omega
  show k0_pay1 (F := Ideal) (iblk0 V c 0 t) (iblk0 V c 1 t) (iblk0 V c 2 t) (iblk0 V c 3 t) (iblk0 V c 4 t) (iblk0 V c 5 t) (iblk0 V c 6 t) (ix2 p j)
    = encArr V c (((cfg0.win 7).blk t).view.emb (ix2 p j))
  rw [hemb, enc_pay_apply]
  show _ = Cert.ReferenceIdeal.Read.val_main_v13 (F := Ideal) (V c main_arg0) (V c main_arg1) (V c main_arg2) (V c main_arg3) (V c main_arg4) (V c main_arg5) (V c main_arg6) (ix2 (⟨2048 * t.val + p.val, hr⟩ : Fin 8192) j)
  rw [ref_enc_apply]
  have h0 : (fun k => iblk0 V c 0 t (ix2 p k)) = fun k : Fin 512 => V c main_arg0 (ix2 (⟨2048 * t.val + p.val, hr⟩ : Fin 8192) k) := by
    funext k
    show V c main_arg0 (((cfg0.win 0).blk t).view.emb (ix2 p k)) = _
    refine congrArg (V c main_arg0) (funext fun a => Fin.ext ?_)
    match a with
    | ⟨0, _⟩ => show win0_0.index t (0 : Fin 2) * 2048 + 1 * p.val = 2048 * t.val + p.val; omega
    | ⟨1, _⟩ => show win0_0.index t (1 : Fin 2) * 512 + 1 * k.val = k.val; omega
  have h1 : iblk0 V c 1 t = V c main_arg1 := by
    funext y
    show V c main_arg1 (((cfg0.win 1).blk t).view.emb y) = V c main_arg1 y
    refine congrArg (V c main_arg1) (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  have h2 : (fun q => iblk0 V c 2 t (ix2 (0 : Fin 1) q)) = fun q : Fin 256 => V c main_arg2 (ix1 q) := by
    funext q
    have hb : iblk0 V c 2 t (ix2 (0 : Fin 1) q) = V c main_v0 (ix2 (0 : Fin 1) q) := by
      show V c main_v0 (((cfg0.win 2).blk t).view.emb (ix2 (0 : Fin 1) q)) = _
      refine congrArg (V c main_v0) (funext fun a => Fin.ext ?_)
      match a with
      | ⟨0, _⟩ => show win0_2.index t (0 : Fin 2) * 1 + 1 * 0 = 0; omega
      | ⟨1, _⟩ => show win0_2.index t (1 : Fin 2) * 256 + 1 * q.val = q.val; omega
    rw [hb, hv0]
    exact shapeCast_a_1a_apply _ _ 0 q
  have h3 : iblk0 V c 3 t = V c main_arg3 := by
    funext y
    show V c main_arg3 (((cfg0.win 3).blk t).view.emb y) = V c main_arg3 y
    refine congrArg (V c main_arg3) (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  have h4 : (fun q => iblk0 V c 4 t (ix2 (0 : Fin 1) q)) = fun q : Fin 256 => V c main_arg4 (ix1 q) := by
    funext q
    have hb : iblk0 V c 4 t (ix2 (0 : Fin 1) q) = V c main_v1 (ix2 (0 : Fin 1) q) := by
      show V c main_v1 (((cfg0.win 4).blk t).view.emb (ix2 (0 : Fin 1) q)) = _
      refine congrArg (V c main_v1) (funext fun a => Fin.ext ?_)
      match a with
      | ⟨0, _⟩ => show win0_4.index t (0 : Fin 2) * 1 + 1 * 0 = 0; omega
      | ⟨1, _⟩ => show win0_4.index t (1 : Fin 2) * 256 + 1 * q.val = q.val; omega
    rw [hb, hv1]
    exact shapeCast_a_1a_apply _ _ 0 q
  have h5 : iblk0 V c 5 t = V c main_arg5 := by
    funext y
    show V c main_arg5 (((cfg0.win 5).blk t).view.emb y) = V c main_arg5 y
    refine congrArg (V c main_arg5) (funext fun a => Fin.ext ?_)
    match a with
    | ⟨0, _⟩ => show win0_5.index t (0 : Fin 2) * 256 + 1 * (y 0).val = (y 0).val; omega
    | ⟨1, _⟩ => show win0_5.index t (1 : Fin 2) * 32 + 1 * (y 1).val = (y 1).val; omega
  have h6 : (fun q => iblk0 V c 6 t (ix2 (0 : Fin 1) q)) = fun q : Fin 32 => V c main_arg6 (ix1 q) := by
    funext q
    have hb : iblk0 V c 6 t (ix2 (0 : Fin 1) q) = V c main_v2 (ix2 (0 : Fin 1) q) := by
      show V c main_v2 (((cfg0.win 6).blk t).view.emb (ix2 (0 : Fin 1) q)) = _
      refine congrArg (V c main_v2) (funext fun a => Fin.ext ?_)
      match a with
      | ⟨0, _⟩ => show win0_6.index t (0 : Fin 2) * 1 + 1 * 0 = 0; omega
      | ⟨1, _⟩ => show win0_6.index t (1 : Fin 2) * 32 + 1 * q.val = q.val; omega
    rw [hb, hv2]
    exact shapeCast_a_1a_apply _ _ 0 q
  rw [h0, h1, h2, h3, h4, h5, h6]

/-- An index of the output array is in point `t`'s block iff each coordinate is in the block's range on its axis. -/
theorem enc_mem_blk (t : Fin cfg0.N) (i : S8192x32.Idx) :
    i ∈ ((cfg0.win 7).blk t).view.set ↔ ∀ a : Fin 2, win0_7.index t a * S2048x32.size a ≤ (i a).val ∧ (i a).val < win0_7.index t a * S2048x32.size a + S2048x32.size a := by
  show i ∈ ((View.whole main_v3).slice (win0_7.rect t)).set ↔ _
  rw [View.set_slice_whole, Rect.mem_set_unit]
  exact Iff.rfl

/-- Every row of the output array is in some point's block: row `r` in the block of point `r / 2048`. -/
theorem enc_cover (i : S8192x32.Idx) : ∃ t : Fin cfg0.N, (cfg0.win 7).flush t = true ∧ i ∈ ((cfg0.win 7).blk t).view.set := by
  have hi0 : (i 0).val < 8192 := (i 0).isLt
  have hi1 : (i 1).val < 32 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨e00, e01, e10, e11, e20, e21, e30, e31, e40, e41, e50, e51, e60, e61, e70, e71⟩ := enc_index_facts t
  refine ⟨t, flush0_7 t, ?_⟩
  rw [enc_mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 32 ≤ (i 1).val ∧ (i 1).val < win0_7.index t (1 : Fin 2) * 32 + 32; omega

/-- REGION 0's OUTPUT ARRAY after its four points is the reference's encoder output of the argument arrays, given that
    the three one-row bias arrays are the bias vectors recast. -/
theorem enc_value (c : Dev nD)
    (hv0 : V c main_v0 = shapeCast S1x256 (V c main_arg2) shapeCasts_S256_S1x256)
    (hv1 : V c main_v1 = shapeCast S1x256 (V c main_arg4) shapeCasts_S256_S1x256)
    (hv2 : V c main_v2 = shapeCast S1x32 (V c main_arg6) shapeCasts_S32_S1x32) :
    (dat0 (F := Ideal) V c).arrAt 7 cfg0.N
      = Cert.ReferenceIdeal.Read.val_main_v13 (F := Ideal) (V c main_arg0) (V c main_arg1) (V c main_arg2) (V c main_arg3) (V c main_arg4) (V c main_arg5) (V c main_arg6) :=
  (dat0 (F := Ideal) V c).arrAt_eq_of_cover 7 (encArr V c) (fun t _ => enc_flushed V c hv0 hv1 hv2 t) enc_cover

end Array

end Cert.KernelIdeal.Val

end
-- ==== Proof.KI.KHost.lean ====
/-
  The kernel program's host stretches, read against the reference's stage functions (at the ideal floats).

  @main of the kernel program is: three reshapes of bias vectors; region 0 (the encoder, leaving h in main_v3);
  h times the first graph weight; region 1 (leaving the first aggregation in main_v5); scale, bias, relu and the
  second graph weight; region 2 (leaving the second aggregation in main_v13); scale, bias, relu and the classifier.
  Operation for operation these stretches are the reference's own: the reference computes the same h (its main_v13),
  the same products (main_v48, main_v57) and the same tail (main_v59 .. main_v73), and differs only in how the two
  aggregations (its main_v49, main_v58) are made. So, for ANY contents the regions leave (outs), once a region's
  output is known to be the reference's value, everything the next stretch writes is the reference's value too:
  both sides are then one and the same term of pure operations over the arguments.

  Here V_J m outs c is what core c's unscoped buffers hold after item J-1 of @main, and the arguments are read at
  launch: no item writes an argument.
-/
import proofs.«163787_j56899726737498_1_alg».proof.Proof.Gen.KernelIdeal.Regions
import proofs.«163787_j56899726737498_1_alg».proof.Proof.Gen.ReferenceIdeal.Read

noncomputable section

namespace Cert.KernelIdeal.Val

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

/-! ## The arguments, untouched -/

/-- No item before item 1 writes `main_arg0`. -/
theorem v1_main_arg0 : Gen.V1 m c main_arg0 = m ((c : Thread nD τ).loc main_arg0) :=
  (Gen.V1_of m c main_arg0 (by decide)).trans rfl
/-- No item before item 1 writes `main_arg1`. -/
theorem v1_main_arg1 : Gen.V1 m c main_arg1 = m ((c : Thread nD τ).loc main_arg1) :=
  (Gen.V1_of m c main_arg1 (by decide)).trans rfl
/-- No item before item 1 writes `main_arg2`. -/
theorem v1_main_arg2 : Gen.V1 m c main_arg2 = m ((c : Thread nD τ).loc main_arg2) :=
  (Gen.V1_of m c main_arg2 (by decide)).trans rfl
/-- No item before item 1 writes `main_arg3`. -/
theorem v1_main_arg3 : Gen.V1 m c main_arg3 = m ((c : Thread nD τ).loc main_arg3) :=
  (Gen.V1_of m c main_arg3 (by decide)).trans rfl
/-- No item before item 1 writes `main_arg4`. -/
theorem v1_main_arg4 : Gen.V1 m c main_arg4 = m ((c : Thread nD τ).loc main_arg4) :=
  (Gen.V1_of m c main_arg4 (by decide)).trans rfl
/-- No item before item 1 writes `main_arg5`. -/
theorem v1_main_arg5 : Gen.V1 m c main_arg5 = m ((c : Thread nD τ).loc main_arg5) :=
  (Gen.V1_of m c main_arg5 (by decide)).trans rfl
/-- No item before item 1 writes `main_arg6`. -/
theorem v1_main_arg6 : Gen.V1 m c main_arg6 = m ((c : Thread nD τ).loc main_arg6) :=
  (Gen.V1_of m c main_arg6 (by decide)).trans rfl
/-- No item before item 1 writes `main_arg7`. -/
theorem v1_main_arg7 : Gen.V1 m c main_arg7 = m ((c : Thread nD τ).loc main_arg7) :=
  (Gen.V1_of m c main_arg7 (by decide)).trans rfl
/-- No item before item 1 writes `main_arg8`. -/
theorem v1_main_arg8 : Gen.V1 m c main_arg8 = m ((c : Thread nD τ).loc main_arg8) :=
  (Gen.V1_of m c main_arg8 (by decide)).trans rfl
/-- No item before item 1 writes `main_arg9`. -/
theorem v1_main_arg9 : Gen.V1 m c main_arg9 = m ((c : Thread nD τ).loc main_arg9) :=
  (Gen.V1_of m c main_arg9 (by decide)).trans rfl
/-- No item before item 1 writes `main_arg10`. -/
theorem v1_main_arg10 : Gen.V1 m c main_arg10 = m ((c : Thread nD τ).loc main_arg10) :=
  (Gen.V1_of m c main_arg10 (by decide)).trans rfl
/-- No item before item 1 writes `main_arg11`. -/
theorem v1_main_arg11 : Gen.V1 m c main_arg11 = m ((c : Thread nD τ).loc main_arg11) :=
  (Gen.V1_of m c main_arg11 (by decide)).trans rfl
/-- No item before item 1 writes `main_arg12`. -/
theorem v1_main_arg12 : Gen.V1 m c main_arg12 = m ((c : Thread nD τ).loc main_arg12) :=
  (Gen.V1_of m c main_arg12 (by decide)).trans rfl
/-- No item before item 1 writes `main_arg13`. -/
theorem v1_main_arg13 : Gen.V1 m c main_arg13 = m ((c : Thread nD τ).loc main_arg13) :=
  (Gen.V1_of m c main_arg13 (by decide)).trans rfl
/-- No item before item 1 writes `main_arg14`. -/
theorem v1_main_arg14 : Gen.V1 m c main_arg14 = m ((c : Thread nD τ).loc main_arg14) :=
  (Gen.V1_of m c main_arg14 (by decide)).trans rfl
/-- No item before item 1 writes `main_arg15`. -/
theorem v1_main_arg15 : Gen.V1 m c main_arg15 = m ((c : Thread nD τ).loc main_arg15) :=
  (Gen.V1_of m c main_arg15 (by decide)).trans rfl
/-- No item before item 1 writes `main_arg16`. -/
theorem v1_main_arg16 : Gen.V1 m c main_arg16 = m ((c : Thread nD τ).loc main_arg16) :=
  (Gen.V1_of m c main_arg16 (by decide)).trans rfl
/-- No item before item 2 writes `main_arg9`. -/
theorem v2_main_arg9 : Gen.V2 m outs c main_arg9 = m ((c : Thread nD τ).loc main_arg9) :=
  (Gen.V2_of m outs c main_arg9 (by decide)).trans <| (Gen.V1_of m c main_arg9 (by decide)).trans rfl
/-- No item before item 3 writes `main_arg7`. -/
theorem v3_main_arg7 : Gen.V3 m outs c main_arg7 = m ((c : Thread nD τ).loc main_arg7) :=
  (Gen.V3_of m outs c main_arg7 (by decide)).trans <| (Gen.V2_of m outs c main_arg7 (by decide)).trans <| (Gen.V1_of m c main_arg7 (by decide)).trans rfl
/-- No item before item 3 writes `main_arg8`. -/
theorem v3_main_arg8 : Gen.V3 m outs c main_arg8 = m ((c : Thread nD τ).loc main_arg8) :=
  (Gen.V3_of m outs c main_arg8 (by decide)).trans <| (Gen.V2_of m outs c main_arg8 (by decide)).trans <| (Gen.V1_of m c main_arg8 (by decide)).trans rfl
/-- No item before item 4 writes `main_arg10`. -/
theorem v4_main_arg10 : Gen.V4 m outs c main_arg10 = m ((c : Thread nD τ).loc main_arg10) :=
  (Gen.V4_of m outs c main_arg10 (by decide)).trans <| (Gen.V3_of m outs c main_arg10 (by decide)).trans <| (Gen.V2_of m outs c main_arg10 (by decide)).trans <| (Gen.V1_of m c main_arg10 (by decide)).trans rfl
/-- No item before item 4 writes `main_arg11`. -/
theorem v4_main_arg11 : Gen.V4 m outs c main_arg11 = m ((c : Thread nD τ).loc main_arg11) :=
  (Gen.V4_of m outs c main_arg11 (by decide)).trans <| (Gen.V3_of m outs c main_arg11 (by decide)).trans <| (Gen.V2_of m outs c main_arg11 (by decide)).trans <| (Gen.V1_of m c main_arg11 (by decide)).trans rfl
/-- No item before item 7 writes `main_arg7`. -/
theorem v7_main_arg7 : Gen.V7 m outs c main_arg7 = m ((c : Thread nD τ).loc main_arg7) :=
  (Gen.V7_of m outs c main_arg7 (by decide)).trans <| (Gen.V6_of m outs c main_arg7 (by decide)).trans <| (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans rfl
/-- No item before item 7 writes `main_arg8`. -/
theorem v7_main_arg8 : Gen.V7 m outs c main_arg8 = m ((c : Thread nD τ).loc main_arg8) :=
  (Gen.V7_of m outs c main_arg8 (by decide)).trans <| (Gen.V6_of m outs c main_arg8 (by decide)).trans <| (Gen.V5_of m outs c main_arg8 (by decide)).trans <| (Gen.V4_of m outs c main_arg8 (by decide)).trans <| (Gen.V3_of m outs c main_arg8 (by decide)).trans <| (Gen.V2_of m outs c main_arg8 (by decide)).trans <| (Gen.V1_of m c main_arg8 (by decide)).trans rfl
/-- No item before item 8 writes `main_arg12`. -/
theorem v8_main_arg12 : Gen.V8 m outs c main_arg12 = m ((c : Thread nD τ).loc main_arg12) :=
  (Gen.V8_of m outs c main_arg12 (by decide)).trans <| (Gen.V7_of m outs c main_arg12 (by decide)).trans <| (Gen.V6_of m outs c main_arg12 (by decide)).trans <| (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans rfl
/-- No item before item 8 writes `main_arg13`. -/
theorem v8_main_arg13 : Gen.V8 m outs c main_arg13 = m ((c : Thread nD τ).loc main_arg13) :=
  (Gen.V8_of m outs c main_arg13 (by decide)).trans <| (Gen.V7_of m outs c main_arg13 (by decide)).trans <| (Gen.V6_of m outs c main_arg13 (by decide)).trans <| (Gen.V5_of m outs c main_arg13 (by decide)).trans <| (Gen.V4_of m outs c main_arg13 (by decide)).trans <| (Gen.V3_of m outs c main_arg13 (by decide)).trans <| (Gen.V2_of m outs c main_arg13 (by decide)).trans <| (Gen.V1_of m c main_arg13 (by decide)).trans rfl
/-- No item before item 8 writes `main_arg14`. -/
theorem v8_main_arg14 : Gen.V8 m outs c main_arg14 = m ((c : Thread nD τ).loc main_arg14) :=
  (Gen.V8_of m outs c main_arg14 (by decide)).trans <| (Gen.V7_of m outs c main_arg14 (by decide)).trans <| (Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide)).trans rfl
/-- No item before item 8 writes `main_arg15`. -/
theorem v8_main_arg15 : Gen.V8 m outs c main_arg15 = m ((c : Thread nD τ).loc main_arg15) :=
  (Gen.V8_of m outs c main_arg15 (by decide)).trans <| (Gen.V7_of m outs c main_arg15 (by decide)).trans <| (Gen.V6_of m outs c main_arg15 (by decide)).trans <| (Gen.V5_of m outs c main_arg15 (by decide)).trans <| (Gen.V4_of m outs c main_arg15 (by decide)).trans <| (Gen.V3_of m outs c main_arg15 (by decide)).trans <| (Gen.V2_of m outs c main_arg15 (by decide)).trans <| (Gen.V1_of m c main_arg15 (by decide)).trans rfl
/-- No item before item 8 writes `main_arg16`. -/
theorem v8_main_arg16 : Gen.V8 m outs c main_arg16 = m ((c : Thread nD τ).loc main_arg16) :=
  (Gen.V8_of m outs c main_arg16 (by decide)).trans <| (Gen.V7_of m outs c main_arg16 (by decide)).trans <| (Gen.V6_of m outs c main_arg16 (by decide)).trans <| (Gen.V5_of m outs c main_arg16 (by decide)).trans <| (Gen.V4_of m outs c main_arg16 (by decide)).trans <| (Gen.V3_of m outs c main_arg16 (by decide)).trans <| (Gen.V2_of m outs c main_arg16 (by decide)).trans <| (Gen.V1_of m c main_arg16 (by decide)).trans rfl

/-! ## The first stretch: the three bias vectors as one-row matrices -/

/-- After the first stretch `main_v0` is the first encoder bias (`main_arg2`) as a 1 x 256 matrix. -/
theorem v1_main_v0 : Gen.V1 m c main_v0 = (shapeCast S1x256 (m ((c : Thread nD τ).loc main_arg2) : (⟨S256, .f32⟩ : BufTy).Contents (Elt Ideal)) shapeCasts_S256_S1x256 : (⟨S1x256, .f32⟩ : BufTy).Contents (Elt Ideal)) := by
  dsimp only [Gen.V1, Gen.V0, Gen.hostOps0]
  after_results
  rfl
/-- After the first stretch `main_v1` is the second encoder bias (`main_arg4`) as a 1 x 256 matrix. -/
theorem v1_main_v1 : Gen.V1 m c main_v1 = (shapeCast S1x256 (m ((c : Thread nD τ).loc main_arg4) : (⟨S256, .f32⟩ : BufTy).Contents (Elt Ideal)) shapeCasts_S256_S1x256 : (⟨S1x256, .f32⟩ : BufTy).Contents (Elt Ideal)) := by
  dsimp only [Gen.V1, Gen.V0, Gen.hostOps0]
  after_results
  rfl
/-- After the first stretch `main_v2` is the third encoder bias (`main_arg6`) as a 1 x 32 matrix. -/
theorem v1_main_v2 : Gen.V1 m c main_v2 = (shapeCast S1x32 (m ((c : Thread nD τ).loc main_arg6) : (⟨S32, .f32⟩ : BufTy).Contents (Elt Ideal)) shapeCasts_S32_S1x32 : (⟨S1x32, .f32⟩ : BufTy).Contents (Elt Ideal)) := by
  dsimp only [Gen.V1, Gen.V0, Gen.hostOps0]
  after_results
  rfl

/-- What region 0 reads when it is entered: the three biases reshaped, the features and the three weights as launched. -/
theorem host0 :
    Gen.V1 m c main_v0 = (shapeCast S1x256 (m ((c : Thread nD τ).loc main_arg2) : (⟨S256, .f32⟩ : BufTy).Contents (Elt Ideal)) shapeCasts_S256_S1x256 : (⟨S1x256, .f32⟩ : BufTy).Contents (Elt Ideal))
    ∧ Gen.V1 m c main_v1 = (shapeCast S1x256 (m ((c : Thread nD τ).loc main_arg4) : (⟨S256, .f32⟩ : BufTy).Contents (Elt Ideal)) shapeCasts_S256_S1x256 : (⟨S1x256, .f32⟩ : BufTy).Contents (Elt Ideal))
    ∧ Gen.V1 m c main_v2 = (shapeCast S1x32 (m ((c : Thread nD τ).loc main_arg6) : (⟨S32, .f32⟩ : BufTy).Contents (Elt Ideal)) shapeCasts_S32_S1x32 : (⟨S1x32, .f32⟩ : BufTy).Contents (Elt Ideal))
    ∧ Gen.V1 m c main_arg0 = (m ((c : Thread nD τ).loc main_arg0))
    ∧ Gen.V1 m c main_arg1 = (m ((c : Thread nD τ).loc main_arg1))
    ∧ Gen.V1 m c main_arg3 = (m ((c : Thread nD τ).loc main_arg3))
    ∧ Gen.V1 m c main_arg5 = (m ((c : Thread nD τ).loc main_arg5)) :=
  ⟨v1_main_v0 m c, v1_main_v1 m c, v1_main_v2 m c, v1_main_arg0 m c, v1_main_arg1 m c, v1_main_arg3 m c, v1_main_arg5 m c⟩

/-! ## After region 0: h times the first graph weight -/

/-- If region 0 leaves the reference's h in `main_v3`, region 1 is entered with h still there, with the reference's
    h W1 in `main_v4`, and with the two scalars as launched. -/
theorem host1 (h2 : Gen.V2 m outs c main_v3 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    Gen.V3 m outs c main_v3 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ Gen.V3 m outs c main_v4 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9))
    ∧ Gen.V3 m outs c main_arg7 = (m ((c : Thread nD τ).loc main_arg7))
    ∧ Gen.V3 m outs c main_arg8 = (m ((c : Thread nD τ).loc main_arg8)) := by
  refine ⟨(Gen.V3_of m outs c main_v3 (by decide)).trans h2, ?_, v3_main_arg7 m outs c, v3_main_arg8 m outs c⟩
  dsimp only [Gen.V3, Gen.hostOps1]
  after_results
  rw [h2, v2_main_arg9]
  rfl

/-! ## After region 1: scale, bias, relu, times the second graph weight -/

/-- If region 0 leaves the reference's h in `main_v3` and region 1 the reference's first aggregation in `main_v5`,
    region 2 is entered with h still in `main_v3`, with the reference's relu(.) W2 in `main_v12`, and with the two
    scalars as launched. -/
theorem host2 (h2 : Gen.V2 m outs c main_v3 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (h4 : Gen.V4 m outs c main_v5 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    Gen.V7 m outs c main_v3 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ Gen.V7 m outs c main_v12 = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ Gen.V7 m outs c main_arg7 = (m ((c : Thread nD τ).loc main_arg7))
    ∧ Gen.V7 m outs c main_arg8 = (m ((c : Thread nD τ).loc main_arg8)) := by
  refine ⟨(Gen.V7_of m outs c main_v3 (by decide)).trans <| (Gen.V6_of m outs c main_v3 (by decide)).trans <| (Gen.V5_of m outs c main_v3 (by decide)).trans <| (Gen.V4_of m outs c main_v3 (by decide)).trans <| (Gen.V3_of m outs c main_v3 (by decide)).trans h2, ?_, v7_main_arg7 m outs c, v7_main_arg8 m outs c⟩
  dsimp only [Gen.V7, Gen.hostOps2_2]
  after_results
  simp only [TRef.ofBuf, TRef.toBuf, cast_eq]
  rw [h4, v4_main_arg10, v4_main_arg11]
  rfl

/-! ## After region 2: scale, bias, relu and the classifier -/

/-- If region 2 leaves the reference's second aggregation in `main_v13`, @main's result `main_v28` ends at the
    reference's result. -/
theorem host3 (h8 : Gen.V8 m outs c main_v13 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    Gen.V13 m outs c main_v28 = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  dsimp only [Gen.V13, Gen.hostOps3_4]
  after_results_simp
  simp only [TRef.ofBuf, TRef.toBuf, cast_eq]
  rw [h8, v8_main_arg12, v8_main_arg13, v8_main_arg14, v8_main_arg15, v8_main_arg16]
  rfl

end Cert.KernelIdeal.Val

end
-- ==== Proof.KI.GatValue1.lean ====
/-
  The graph layer's first call, read at the extended reals: what the call leaves in its output array is, at
  row d and feature f, the sum over all 8192 source rows s of the edge weight between rows d and s of the
  feature array times the source array at (s, f).
-/
import proofs.«163787_j56899726737498_1_alg».proof.Proof.KI.Gat1
import proofs.«163787_j56899726737498_1_alg».proof.Proof.KI.KEdge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

/-! ## Operations of the tile that are not pointwise, read at an index -/

/-- A lane sum over the 32 features of a row. -/
theorem laneSum_apply1 {n : ℕ} (x : FVec Ideal ⟨2, ![n, 32]⟩ .f32)
    (h : (⟨2, ![n, 32]⟩ : Shape).Reduces [1] ⟨1, ![n]⟩) (hφ : FKind.Formats .f32)
    (hacc : (0x00000000#32 : BitVec 32) = 0x00000000#32) (p : Fin n) :
    multiReduction (F := Ideal) .add [1] ⟨1, ![n]⟩ x 0x00000000#32 h hφ hacc (ix1 p) = ∑ k : Fin 32, x (ix2 p k) := by
  refine (Ideal.multiReduction_add_single x 0x00000000#32 h hφ hacc (ix1 p)).trans ?_
  refine Finset.sum_congr rfl fun k _ => congrArg x ?_
  funext a
  match a with
  | ⟨0, _⟩ => rfl
  | ⟨1, _⟩ => rfl

/-- A vector written as a column: `[n]` cast to `[n, 1]` reads, at `(p, u)`, the operand at `p`. -/
theorem column_apply1 {α : Type} {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the rows: `[a, 1]` broadcast to `[a, b]` reads, at `(p, c)`, the operand at `(p, 0)`. -/
theorem bcastCol_apply1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sqrt_apply1 {s : Shape} {φ : FTy} (x : FVec Ideal s φ) (i : s.Idx) : sqrt x i = Ideal.sqrt (x i) := rfl
theorem logistic_apply1 {s : Shape} {φ : FTy} (x : FVec Ideal s φ) (i : s.Idx) : logistic x i = Ideal.logistic (x i) := rfl

/-! ### The product of the destination block with the transposed source block -/

theorem dotA_lhs0_1 (i : S2048x1024.Idx) (q : dot_S2048x32_S32x1024_S2048x1024_1_0_0_1_n_n.contr.Idx) :
    (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem dotA_lhs1_1 (i : S2048x1024.Idx) (q : dot_S2048x32_S32x1024_S2048x1024_1_0_0_1_n_n.contr.Idx) :
    (dot_S2048x32_S32x1024_S2048x1024_1_0_0_1_n_n.lhsIdx i q 1).val = (q ⟨0, by decide⟩).val :=
  dot_S2048x32_S32x1024_S2048x1024_1_0_0_1_n_n.lhsIdx_val_of_single rfl i q
theorem dotA_rhs0_1 (i : S2048x1024.Idx) (q : dot_S2048x32_S32x1024_S2048x1024_1_0_0_1_n_n.contr.Idx) :
    (dot_S2048x32_S32x1024_S2048x1024_1_0_0_1_n_n.rhsIdx i q 0).val = (q ⟨0, by decide⟩).val :=
  dot_S2048x32_S32x1024_S2048x1024_1_0_0_1_n_n.rhsIdx_val_of_single rfl i q
theorem dotA_rhs1_1 (i : S2048x1024.Idx) (q : dot_S2048x32_S32x1024_S2048x1024_1_0_0_1_n_n.contr.Idx) :
    (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

/-- The product into a zero accumulator, at `(p, q)`: the sum over the 32 features. -/
theorem dotA_apply1 (l : FVec Ideal S2048x32 .f32) (r : FVec Ideal S32x1024 .f32) (p : Fin 2048) (q : Fin 1024) :
    matmul dot_S2048x32_S32x1024_S2048x1024_1_0_0_1_n_n none l r (constant (F := Ideal) S2048x1024 .f32 0x00000000#32) (ix2 p q)
      = ∑ k : Fin 32, l (ix2 p k) * r (ix2 k q) := by
  simp only [matmul]
  rw [Ideal.matmul_constant_zero_apply, ← Equiv.sum_comp (ValueIdx.contrEquiv1 dot_S2048x32_S32x1024_S2048x1024_1_0_0_1_n_n 32 rfl rfl).symm]
  refine Finset.sum_congr rfl fun k _ => ?_
  have hk := ValueIdx.contrEquiv1_symm_val dot_S2048x32_S32x1024_S2048x1024_1_0_0_1_n_n 32 rfl rfl k
  have el : dot_S2048x32_S32x1024_S2048x1024_1_0_0_1_n_n.lhsIdx (ix2 p q) ((ValueIdx.contrEquiv1 dot_S2048x32_S32x1024_S2048x1024_1_0_0_1_n_n 32 rfl rfl).symm k) = ix2 p k := funext fun a => Fin.ext (by
    match a with
    | ⟨0, _⟩ => exact dotA_lhs0_1 _ _
    | ⟨1, _⟩ => exact (dotA_lhs1_1 _ _).trans hk)
  have er : dot_S2048x32_S32x1024_S2048x1024_1_0_0_1_n_n.rhsIdx (ix2 p q) ((ValueIdx.contrEquiv1 dot_S2048x32_S32x1024_S2048x1024_1_0_0_1_n_n 32 rfl rfl).symm k) = ix2 k q := funext fun a => Fin.ext (by
    match a with
    | ⟨0, _⟩ => exact (dotA_rhs0_1 _ _).trans hk
    | ⟨1, _⟩ => exact dotA_rhs1_1 _ _)
  rw [el, er]

/-! ### The product of the tile with the source block of the carried array -/

theorem dotB_lhs0_1 (i : S2048x16.Idx) (q : dot_S2048x1024_S1024x16_S2048x16_1_0_0_1_n_n.contr.Idx) :
    (dot_S2048x1024_S1024x16_S2048x16_1_0_0_1_n_n.lhsIdx i q 0).val = (i 0).val := by
  unfold DotDims.lhsIdx
  rw [dif_neg (show ¬(0 : Fin S2048x1024.rank) ∈ dot_S2048x1024_S1024x16_S2048x16_1_0_0_1_n_n.lhsBatch by decide), dif_pos (show (0 : Fin S2048x1024.rank) ∈ dot_S2048x1024_S1024x16_S2048x16_1_0_0_1_n_n.lhsNonContracting by decide)]
  rfl
theorem dotB_lhs1_1 (i : S2048x16.Idx) (q : dot_S2048x1024_S1024x16_S2048x16_1_0_0_1_n_n.contr.Idx) :
    (dot_S2048x1024_S1024x16_S2048x16_1_0_0_1_n_n.lhsIdx i q 1).val = (q ⟨0, by decide⟩).val :=
  dot_S2048x1024_S1024x16_S2048x16_1_0_0_1_n_n.lhsIdx_val_of_single rfl i q
theorem dotB_rhs0_1 (i : S2048x16.Idx) (q : dot_S2048x1024_S1024x16_S2048x16_1_0_0_1_n_n.contr.Idx) :
    (dot_S2048x1024_S1024x16_S2048x16_1_0_0_1_n_n.rhsIdx i q 0).val = (q ⟨0, by decide⟩).val :=
  dot_S2048x1024_S1024x16_S2048x16_1_0_0_1_n_n.rhsIdx_val_of_single rfl i q
theorem dotB_rhs1_1 (i : S2048x16.Idx) (q : dot_S2048x1024_S1024x16_S2048x16_1_0_0_1_n_n.contr.Idx) :
    (dot_S2048x1024_S1024x16_S2048x16_1_0_0_1_n_n.rhsIdx i q 1).val = (i 1).val := by
  unfold DotDims.rhsIdx
  rw [dif_neg (show ¬(1 : Fin S1024x16.rank) ∈ dot_S2048x1024_S1024x16_S2048x16_1_0_0_1_n_n.rhsBatch by decide), dif_pos (show (1 : Fin S1024x16.rank) ∈ dot_S2048x1024_S1024x16_S2048x16_1_0_0_1_n_n.rhsNonContracting by decide)]
  rfl

/-- The product into a zero accumulator, at `(p, f)`: the sum over the 1024 source rows of the block. -/
theorem dotB_apply1 (l : FVec Ideal S2048x1024 .bf16) (r : FVec Ideal S1024x16 .bf16) (p : Fin 2048) (f : Fin 16) :
    matmul dot_S2048x1024_S1024x16_S2048x16_1_0_0_1_n_n none l r (constant (F := Ideal) S2048x16 .f32 0x00000000#32) (ix2 p f)
      = ∑ k : Fin 1024, l (ix2 p k) * r (ix2 k f) := by
  simp only [matmul]
  rw [Ideal.matmul_constant_zero_apply, ← Equiv.sum_comp (ValueIdx.contrEquiv1 dot_S2048x1024_S1024x16_S2048x16_1_0_0_1_n_n 1024 rfl rfl).symm]
  refine Finset.sum_congr rfl fun k _ => ?_
  have hk := ValueIdx.contrEquiv1_symm_val dot_S2048x1024_S1024x16_S2048x16_1_0_0_1_n_n 1024 rfl rfl k
  have el : dot_S2048x1024_S1024x16_S2048x16_1_0_0_1_n_n.lhsIdx (ix2 p f) ((ValueIdx.contrEquiv1 dot_S2048x1024_S1024x16_S2048x16_1_0_0_1_n_n 1024 rfl rfl).symm k) = ix2 p k := funext fun a => Fin.ext (by
    match a with
    | ⟨0, _⟩ => exact dotB_lhs0_1 _ _
    | ⟨1, _⟩ => exact (dotB_lhs1_1 _ _).trans hk)
  have er : dot_S2048x1024_S1024x16_S2048x16_1_0_0_1_n_n.rhsIdx (ix2 p f) ((ValueIdx.contrEquiv1 dot_S2048x1024_S1024x16_S2048x16_1_0_0_1_n_n 1024 rfl rfl).symm k) = ix2 k f := funext fun a => Fin.ext (by
    match a with
    | ⟨0, _⟩ => exact (dotB_rhs0_1 _ _).trans hk
    | ⟨1, _⟩ => exact dotB_rhs1_1 _ _)
  rw [el, er]

/-- The same against the transposed source block: the inner product of row `p` of the one with row `q` of the other. -/
theorem dotAT_apply1 (l : FVec Ideal S2048x32 .f32) (r : FVec Ideal S1024x32 .f32) (p : Fin 2048) (q : Fin 1024) :
    matmul dot_S2048x32_S32x1024_S2048x1024_1_0_0_1_n_n none l (transpose S32x1024 [1, 0] r transposes_S1024x32_p1_0_S32x1024)
        (constant (F := Ideal) S2048x1024 .f32 0x00000000#32) (ix2 p q)
      = ∑ k : Fin 32, l (ix2 p k) * r (ix2 q k) := by
  rw [dotA_apply1]
  refine Finset.sum_congr rfl fun k _ => ?_
  rw [transpose_ix2_apply]

/-! ## The tile and the accumulation step at an index -/

/-- The distance tile at `(p, q)`: the distance between row `p` of the destination block and row `q` of the source block. -/
theorem pay4_apply1 (x0 : Vec Ideal S2048x32 .f32) (x1 : Vec Ideal S1024x32 .f32) (p : Fin 2048) (q : Fin 1024) :
    k1_pay4 (F := Ideal) x0 x1 (ix2 p q) = kDist (fun k => x0 (ix2 p k)) (fun k => x1 (ix2 q k)) := by
  unfold k1_pay4
  simp only [select_apply, cmpf_apply, broadcast_apply, sqrt_apply1, maximumf_apply, subf_apply, mulf_apply, addf_apply]
  rw [bcastCol_apply1, column_apply1, laneSum_apply1, broadcastTo_1b_ab_apply, transpose_ix2_apply, column_apply1, laneSum_apply1, shapeCast_self, shapeCast_self, dotAT_apply1]
  simp only [mulf_apply, Ideal.ofBits_def, Ideal.ofBits_zero_f32, Ideal.cmpf_def]
  rfl

/-- The one entry of a `[1, 1]` block. -/
theorem extract00_1 {α : Type} (x : S1x1.Idx → α) : extractAt ![0, 0] x inpos_S1x1_p0_0 = x (ix2 (0 : Fin 1) (0 : Fin 1)) :=
  congrArg x (funext fun a => by
    match a with
    | ⟨0, _⟩ => rfl
    | ⟨1, _⟩ => rfl)

/-- One step of the accumulation at `(p, f)`: the accumulator there plus the sum, over the 1024 rows of the source
    block, of the edge weight between row `p` of the destination block and that row times the carried array's entry. -/
theorem acc1_apply (x0 : Vec Ideal S2048x32 .f32) (x1 : Vec Ideal S1024x32 .f32) (x2 : Vec Ideal S1024x16 .f32) (x3 x4 : Vec Ideal S1x1 .f32)
    (a : Vec Ideal S2048x16 .f32) (p : Fin 2048) (f : Fin 16) :
    acc1 (F := Ideal) x0 x1 x2 x3 x4 a (ix2 p f)
      = a (ix2 p f) + ∑ q : Fin 1024, kEdge (fun k => x0 (ix2 p k)) (fun k => x1 (ix2 q k)) (x3 (ix2 0 0)) (x4 (ix2 0 0)) * x2 (ix2 q f) := by
  unfold acc1 k1_pay1 k1_pay3 k1_pay5
  simp only [shapeCast_self, addf_apply]
  rw [dotB_apply1]
  simp only [truncf_apply, logistic_apply1, mulf_apply, addf_apply, broadcast_apply, pay4_apply1, extract00_1]
  rfl

/-- The accumulator's reset value: zero everywhere. -/
theorem pay2_apply1 (i : S2048x16.Idx) : k1_pay2 (F := Ideal) i = 0 := by
  unfold k1_pay2
  simp only [shapeCast_self, broadcast_apply]
  exact Ideal.ofBits_zero_f32

end Cert.KernelIdeal.Val

end
-- ==== Proof.KI.GatBlocks1.lean ====
/-
  The blocks of the graph layer's first call, read at an index: each input window's block at a grid point is
  the part of its array at the block index times the block's size, and the output window's block at a point
  covers the rows of its array from 2048 times the point's row of the grid.
-/
import proofs.«163787_j56899726737498_1_alg».proof.Proof.KI.Gat1
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The grid has 32 points. -/
theorem lt_N1 (t : Fin cfg1.N) : t.val < 32 := Nat.lt_of_lt_of_eq t.isLt N_1

/-- The windows' block indices at a point: the destination block and the output block move with the point's row of
    the grid, the two source blocks with its column, the two scalars stay. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, _)

/-- The destination block of the feature array at point `t`: rows from 2048 times the point's row of the grid. -/
theorem iblk1_0_apply (c : Dev nD) (t : Fin cfg1.N) (p : Fin 2048) (k : Fin 32) :
    iblk1 (F := Ideal) V c 0 t (ix2 p k)
      = V c main_v3 (ix2 (⟨2048 * (t.val / 8) + p.val, by have := lt_N1 t; omega⟩ : Fin 8192) k) := by
  obtain ⟨e0, e1, -⟩ := idx_facts1 t
  show V c main_v3 (((cfg1.win 0).blk t).view.emb (ix2 p k)) = _
  refine congrArg (V c main_v3) (funext fun a => Fin.ext ?_)
  match a with
  | ⟨0, _⟩ => show win1_0.index t (0 : Fin 2) * 2048 + 1 * p.val = 2048 * (t.val / 8) + p.val; omega
  | ⟨1, _⟩ => show win1_0.index t (1 : Fin 2) * 32 + 1 * k.val = k.val; omega

/-- The source block of the feature array at point `t`: rows from 1024 times the point's column of the grid. -/
theorem iblk1_1_apply (c : Dev nD) (t : Fin cfg1.N) (q : Fin 1024) (k : Fin 32) :
    iblk1 (F := Ideal) V c 1 t (ix2 q k)
      = V c main_v3 (ix2 (⟨1024 * (t.val % 8) + q.val, by omega⟩ : Fin 8192) k) := by
  obtain ⟨-, -, e0, e1, -⟩ := idx_facts1 t
  show V c main_v3 (((cfg1.win 1).blk t).view.emb (ix2 q k)) = _
  refine congrArg (V c main_v3) (funext fun a => Fin.ext ?_)
  match a with
  | ⟨0, _⟩ => show win1_1.index t (0 : Fin 2) * 1024 + 1 * q.val = 1024 * (t.val % 8) + q.val; omega
  | ⟨1, _⟩ => show win1_1.index t (1 : Fin 2) * 32 + 1 * k.val = k.val; omega

/-- The source block of the carried array at point `t`: rows from 1024 times the point's column of the grid. -/
theorem iblk1_2_apply (c : Dev nD) (t : Fin cfg1.N) (q : Fin 1024) (f : Fin 16) :
    iblk1 (F := Ideal) V c 2 t (ix2 q f)
      = V c main_v4 (ix2 (⟨1024 * (t.val % 8) + q.val, by omega⟩ : Fin 8192) f) := by
  obtain ⟨-, -, -, -, e0, e1, -⟩ := idx_facts1 t
  show V c main_v4 (((cfg1.win 2).blk t).view.emb (ix2 q f)) = _
  refine congrArg (V c main_v4) (funext fun a => Fin.ext ?_)
  match a with
  | ⟨0, _⟩ => show win1_2.index t (0 : Fin 2) * 1024 + 1 * q.val = 1024 * (t.val % 8) + q.val; omega
  | ⟨1, _⟩ => show win1_2.index t (1 : Fin 2) * 16 + 1 * f.val = f.val; omega

/-- The temperature's block at every point: its one entry. -/
theorem iblk1_3_apply (c : Dev nD) (t : Fin cfg1.N) :
    iblk1 (F := Ideal) V c 3 t (ix2 (0 : Fin 1) (0 : Fin 1)) = V c main_arg7 (ix2 (0 : Fin 1) (0 : Fin 1)) := by
  obtain ⟨-, -, -, -, -, -, e0, e1, -⟩ := idx_facts1 t
  show V c main_arg7 (((cfg1.win 3).blk t).view.emb (ix2 (0 : Fin 1) (0 : Fin 1))) = _
  refine congrArg (V c main_arg7) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-- The offset's block at every point: its one entry. -/
theorem iblk1_4_apply (c : Dev nD) (t : Fin cfg1.N) :
    iblk1 (F := Ideal) V c 4 t (ix2 (0 : Fin 1) (0 : Fin 1)) = V c main_arg8 (ix2 (0 : Fin 1) (0 : Fin 1)) := by
  obtain ⟨-, -, -, -, -, -, -, -, e0, e1, -⟩ := idx_facts1 t
  show V c main_arg8 (((cfg1.win 4).blk t).view.emb (ix2 (0 : Fin 1) (0 : Fin 1))) = _
  refine congrArg (V c main_arg8) (funext fun a => Fin.ext ?_)
  match a with
  | ⟨0, _⟩ => show win1_4.index t (0 : Fin 2) * 1 + 1 * 0 = 0; omega
  | ⟨1, _⟩ => show win1_4.index t (1 : Fin 2) * 1 + 1 * 0 = 0; omega

/-! ## The output window -/

/-- A function of the output array read through the output block at point `t`: its rows from 2048 times the point's
    row of the grid. -/
theorem blk1_5_read {α : Type} (G : S8192x16.Idx → α) (t : Fin cfg1.N) (p : Fin 2048) (f : Fin 16) :
    G (((cfg1.win 5).blk t).view.emb (ix2 p f))
      = G (ix2 (⟨2048 * (t.val / 8) + p.val, by have := lt_N1 t; omega⟩ : Fin 8192) f) := by
  obtain ⟨-, -, -, -, -, -, -, -, -, -, e0, e1⟩ := idx_facts1 t
  refine congrArg G (funext fun a => Fin.ext ?_)
  match a with
  | ⟨0, _⟩ => show win1_5.index t (0 : Fin 2) * 2048 + 1 * p.val = 2048 * (t.val / 8) + p.val; omega
  | ⟨1, _⟩ => show win1_5.index t (1 : Fin 2) * 16 + 1 * f.val = f.val; omega

/-- An index of the output array is in the output block at point `t` iff its row is among the block's 2048 rows. -/
theorem mem_blk1_5 (t : Fin cfg1.N) (i : S8192x16.Idx) :
    i ∈ ((cfg1.win 5).blk t).view.set ↔ 2048 * (t.val / 8) ≤ (i 0).val ∧ (i 0).val < 2048 * (t.val / 8) + 2048 := by
  obtain ⟨-, -, -, -, -, -, -, -, -, -, e0, e1⟩ := idx_facts1 t
  show i ∈ ((View.whole main_v5).slice (win1_5.rect t)).set ↔ _
  rw [View.set_slice_whole, Rect.mem_set_unit]
  constructor
  · intro h
    have b0 : win1_5.index t (0 : Fin 2) * 2048 ≤ (i 0).val ∧ (i 0).val < win1_5.index t (0 : Fin 2) * 2048 + 2048 := h 0
    omega
  · intro h a
    match a with
    | ⟨0, _⟩ => show win1_5.index t (0 : Fin 2) * 2048 ≤ (i 0).val ∧ (i 0).val < win1_5.index t (0 : Fin 2) * 2048 + 2048; omega
    | ⟨1, _⟩ =>
      have hi : (i 1).val < 16 := (i 1).isLt
      show win1_5.index t (1 : Fin 2) * 16 ≤ (i 1).val ∧ (i 1).val < win1_5.index t (1 : Fin 2) * 16 + 16; omega

/-- What point `t` writes back through the output window: the scratch accumulator as the point leaves it. -/
theorem flushed1_5_apply (c : Dev nD) (t : Fin cfg1.N) (p : Fin 2048) (f : Fin 16) :
    (dat1 (F := Ideal) V c).flushed 5 t (ix2 p f) = sc1 (F := Ideal) V c t.val t.isLt (ix2 p f) := by
  show (cfg1.win 5).cut (grid1.coords t) ((dat1 (F := Ideal) V c).after 5 t) (ix2 p f) = _
  rw [after1_5]
  rfl

end Cert.KernelIdeal.Val

end
-- ==== Proof.KI.GatFold1.lean ====
/-
  The graph layer's first call, from the grid points to the array: what the scratch accumulator holds after a point
  is the sum, over the source tiles of the point's row of the grid up to the point's column, of the tile's
  contributions; at the last column that is the sum over all 8192 source rows; and the output array, written back
  exactly at the last columns, ends holding that sum at every row and feature.
-/
import proofs.«163787_j56899726737498_1_alg».proof.Proof.KI.Gat1
import proofs.«163787_j56899726737498_1_alg».proof.Proof.KI.KEdge
import proofs.«163787_j56899726737498_1_alg».proof.Proof.KI.GatValue1
import proofs.«163787_j56899726737498_1_alg».proof.Proof.KI.GatBlocks1
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Sums over the source rows, by tiles -/

/-- A sum over the 8192 rows, regrouped as 8 tiles of 1024 rows. -/
theorem sum_tiles1 {M : Type*} [AddCommMonoid M] (g : Fin 8192 → M) :
    ∑ s : Fin 8192, g s = ∑ j : Fin 8, ∑ q : Fin 1024, g ⟨1024 * j.val + q.val, by have := j.isLt; have := q.isLt; omega⟩ := by
  rw [← Equiv.sum_comp (finProdFinEquiv (m := 8) (n := 1024)) g, Fintype.sum_prod_type]
  refine Finset.sum_congr rfl fun j _ => Finset.sum_congr rfl fun q _ => congrArg g (Fin.ext ?_)
  show q.val + 1024 * j.val = 1024 * j.val + q.val
  omega

/-- The contribution of source tile `j` to the output at destination row `d` and feature `f`: the sum over the tile's
    1024 rows of the edge weight between row `d` and the source row times the carried array's entry. -/
def term1 (c : Dev nD) (d : Fin 8192) (f : Fin 16) (j : Fin 8) : EReal :=
  ∑ q : Fin 1024,
    kEdge (fun k => V c main_v3 (ix2 d k))
        (fun k => V c main_v3 (ix2 (⟨1024 * j.val + q.val, by have := j.isLt; have := q.isLt; omega⟩ : Fin 8192) k))
        (V c main_arg7 (ix2 (0 : Fin 1) (0 : Fin 1))) (V c main_arg8 (ix2 (0 : Fin 1) (0 : Fin 1)))
      * V c main_v4 (ix2 (⟨1024 * j.val + q.val, by have := j.isLt; have := q.isLt; omega⟩ : Fin 8192) f)

/-- The contributions of source tiles `0` to `m`. -/
def part1 (c : Dev nD) (d : Fin 8192) (f : Fin 16) (m : ℕ) : EReal :=
  ∑ j ∈ Finset.range (m + 1), if h : j < 8 then term1 V c d f ⟨j, h⟩ else 0

/-- The whole sum over the source rows. -/
def out1 (c : Dev nD) (d : Fin 8192) (f : Fin 16) : EReal :=
  ∑ s : Fin 8192,
    kEdge (fun k => V c main_v3 (ix2 d k)) (fun k => V c main_v3 (ix2 s k))
        (V c main_arg7 (ix2 (0 : Fin 1) (0 : Fin 1))) (V c main_arg8 (ix2 (0 : Fin 1) (0 : Fin 1)))
      * V c main_v4 (ix2 s f)

theorem part1_zero (c : Dev nD) (d : Fin 8192) (f : Fin 16) : part1 V c d f 0 = term1 V c d f ⟨0, by omega⟩ := by
  unfold part1
  rw [Finset.sum_range_one]
  exact dif_pos _

theorem part1_succ (c : Dev nD) (d : Fin 8192) (f : Fin 16) (m : ℕ) (h : m + 1 < 8) :
    part1 V c d f (m + 1) = part1 V c d f m + term1 V c d f ⟨m + 1, h⟩ := by
  unfold part1
  rw [Finset.sum_range_succ, dif_pos h]

/-- All eight tiles together are the whole sum. -/
theorem part1_last (c : Dev nD) (d : Fin 8192) (f : Fin 16) : part1 V c d f 7 = out1 V c d f := by
  unfold part1 out1
  rw [sum_tiles1, Finset.sum_range]
  exact Finset.sum_congr rfl fun j _ => dif_pos j.isLt

/-! ## The fold across a row of the grid -/

/-- The term a point adds to the accumulator at `(p, f)` is the contribution of the point's source tile to the
    point's destination row. -/
theorem step1 (c : Dev nD) (t : Fin cfg1.N) (p : Fin 2048) (f : Fin 16) (d : Fin 8192)
    (hd : d.val = 2048 * (t.val / 8) + p.val) (j : Fin 8) (hj : j.val = t.val % 8) :
    ∑ q : Fin 1024,
        kEdge (fun k => iblk1 (F := Ideal) V c 0 t (ix2 p k)) (fun k => iblk1 (F := Ideal) V c 1 t (ix2 q k))
            (iblk1 (F := Ideal) V c 3 t (ix2 (0 : Fin 1) (0 : Fin 1))) (iblk1 (F := Ideal) V c 4 t (ix2 (0 : Fin 1) (0 : Fin 1)))
          * iblk1 (F := Ideal) V c 2 t (ix2 q f)
      = term1 V c d f j := by
  unfold term1
  refine Finset.sum_congr rfl fun q _ => ?_
  have e0 : (⟨2048 * (t.val / 8) + p.val, by have := lt_N1 t; omega⟩ : Fin 8192) = d := Fin.ext hd.symm
  have e1 : (⟨1024 * (t.val % 8) + q.val, by omega⟩ : Fin 8192)
      = ⟨1024 * j.val + q.val, by have := j.isLt; have := q.isLt; omega⟩ := Fin.ext (by show 1024 * (t.val % 8) + q.val = 1024 * j.val + q.val; omega)
  simp only [iblk1_0_apply, iblk1_1_apply, iblk1_2_apply, iblk1_3_apply, iblk1_4_apply, e0, e1]

/-- What the accumulator holds after point `t`, at `(p, f)`: the contributions of the source tiles up to the point's
    column to the point's destination row. -/
theorem sc1_fold (c : Dev nD) : ∀ (n : ℕ) (t : Fin cfg1.N), t.val = n → ∀ (p : Fin 2048) (f : Fin 16) (d : Fin 8192),
    d.val = 2048 * (t.val / 8) + p.val → sc1 (F := Ideal) V c t.val t.isLt (ix2 p f) = part1 V c d f (t.val % 8) := by
  intro n
  induction n with
  | zero =>
    intro t ht p f d hd
    have h0 : t.val % 8 = 0 := by omega
    rw [sc1_first V c t h0, acc1_apply, pay2_apply1, zero_add, h0, part1_zero]
    exact step1 V c t p f d hd ⟨0, by omega⟩ h0.symm
  | succ n ih =>
    intro t ht p f d hd
    have hN := lt_N1 t
    by_cases h0 : t.val % 8 = 0
    · rw [sc1_first V c t h0, acc1_apply, pay2_apply1, zero_add, h0, part1_zero]
      exact step1 V c t p f d hd ⟨0, by omega⟩ h0.symm
    · have hprev := ih ⟨t.val - 1, by have := t.isLt; omega⟩ (by show t.val - 1 = n; omega) p f d
        (by show d.val = 2048 * ((t.val - 1) / 8) + p.val; omega)
      have e : t.val % 8 = (t.val - 1) % 8 + 1 := by omega
      rw [sc1_next V c t h0, acc1_apply, e, part1_succ V c d f ((t.val - 1) % 8) (by omega)]
      exact congrArg₂ (· + ·) hprev (step1 V c t p f d hd ⟨(t.val - 1) % 8 + 1, by omega⟩ (by show (t.val - 1) % 8 + 1 = t.val % 8; omega))

/-! ## From the blocks to the array -/

/-- What the output array ends holding: at every row and feature the whole sum over the source rows. -/
def G1 (c : Dev nD) : S8192x16.Idx → EReal := fun i => out1 V c ⟨(i 0).val, idx2_lt0 i⟩ ⟨(i 1).val, idx2_lt1 i⟩

/-- A point that writes the output window back writes the block of `G1` under it. -/
theorem flushed1_eq (c : Dev nD) (t : Fin cfg1.N) (hf : (cfg1.win 5).flush t = true) :
    (dat1 (F := Ideal) V c).flushed 5 t = ((cfg1.win 5).blk t).view.read (Elt Ideal) (G1 V c) := by
  have h7 : t.val % 8 = 7 := (flush1_5 t).mp hf
  funext x
  obtain ⟨p, f, rfl⟩ : ∃ (p : Fin 2048) (f : Fin 16), x = ix2 p f := ⟨x 0, x 1, eq_ix2 x⟩
  rw [flushed1_5_apply]
  show _ = G1 V c (((cfg1.win 5).blk t).view.emb (ix2 p f))
  rw [blk1_5_read (G1 V c) t p f]
  rw [sc1_fold V c t.val t rfl p f ⟨2048 * (t.val / 8) + p.val, by have := lt_N1 t; omega⟩ rfl, h7, part1_last]
  rfl

/-- Every row of the output array lies in the block of a point that writes it back: the last point of its row of the grid. -/
theorem cover1 (i : S8192x16.Idx) : ∃ t : Fin cfg1.N, (cfg1.win 5).flush t = true ∧ i ∈ ((cfg1.win 5).blk t).view.set := by
  have hi : (i 0).val < 8192 := idx2_lt0 i
  refine ⟨⟨8 * ((i 0).val / 2048) + 7, by show _ < grid1.N; rw [N_1]; omega⟩, (flush1_5 _).mpr (by show (8 * ((i 0).val / 2048) + 7) % 8 = 7; omega), ?_⟩
  rw [mem_blk1_5]
  show 2048 * ((8 * ((i 0).val / 2048) + 7) / 8) ≤ (i 0).val ∧ (i 0).val < 2048 * ((8 * ((i 0).val / 2048) + 7) / 8) + 2048
  omega

/-- THE OUTPUT ARRAY after the call: at row `d` and feature `f`, the sum over all 8192 source rows `s` of the edge weight
    between rows `d` and `s` of the feature array times the carried array at `(s, f)`. -/
theorem gat_value1 (c : Dev nD) (d : Fin 8192) (f : Fin 16) :
    (Cert.KernelIdeal.Gen.dat1 (F := Ideal) V c).arrAt 5 cfg1.N (ix2 d f)
      = ∑ s : Fin 8192,
          kEdge (fun k => V c main_v3 (ix2 d k)) (fun k => V c main_v3 (ix2 s k))
              (V c main_arg7 (ix2 (0 : Fin 1) (0 : Fin 1))) (V c main_arg8 (ix2 (0 : Fin 1) (0 : Fin 1)))
            * V c main_v4 (ix2 s f) := by
  rw [(dat1 (F := Ideal) V c).arrAt_eq_of_cover 5 (G1 V c) (flushed1_eq V c) cover1]
  rfl

end Cert.KernelIdeal.Val

end
-- ==== Proof.KI.GatValue2.lean ====
/-
  The graph layer's second call, read at the extended reals: what the call leaves in its output array is, at
  row d and feature f, the sum over all 8192 source rows s of the edge weight between rows d and s of the
  feature array times the source array at (s, f).
-/
import proofs.«163787_j56899726737498_1_alg».proof.Proof.KI.Gat2
import proofs.«163787_j56899726737498_1_alg».proof.Proof.KI.KEdge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

/-! ## Operations of the tile that are not pointwise, read at an index -/

/-- A lane sum over the 32 features of a row. -/
theorem laneSum_apply2 {n : ℕ} (x : FVec Ideal ⟨2, ![n, 32]⟩ .f32)
    (h : (⟨2, ![n, 32]⟩ : Shape).Reduces [1] ⟨1, ![n]⟩) (hφ : FKind.Formats .f32)
    (hacc : (0x00000000#32 : BitVec 32) = 0x00000000#32) (p : Fin n) :
    multiReduction (F := Ideal) .add [1] ⟨1, ![n]⟩ x 0x00000000#32 h hφ hacc (ix1 p) = ∑ k : Fin 32, x (ix2 p k) := by
  refine (Ideal.multiReduction_add_single x 0x00000000#32 h hφ hacc (ix1 p)).trans ?_
  refine Finset.sum_congr rfl fun k _ => congrArg x ?_
  funext a
  match a with
  | ⟨0, _⟩ => rfl
  | ⟨1, _⟩ => rfl

/-- A vector written as a column: `[n]` cast to `[n, 1]` reads, at `(p, u)`, the operand at `p`. -/
theorem column_apply2 {α : Type} {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the rows: `[a, 1]` broadcast to `[a, b]` reads, at `(p, c)`, the operand at `(p, 0)`. -/
theorem bcastCol_apply2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sqrt_apply2 {s : Shape} {φ : FTy} (x : FVec Ideal s φ) (i : s.Idx) : sqrt x i = Ideal.sqrt (x i) := rfl
theorem logistic_apply2 {s : Shape} {φ : FTy} (x : FVec Ideal s φ) (i : s.Idx) : logistic x i = Ideal.logistic (x i) := rfl

/-! ### The product of the destination block with the transposed source block -/

theorem dotA_lhs0_2 (i : S2048x1024.Idx) (q : dot_S2048x32_S32x1024_S2048x1024_1_0_0_1_n_n.contr.Idx) :
    (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem dotA_lhs2_1 (i : S2048x1024.Idx) (q : dot_S2048x32_S32x1024_S2048x1024_1_0_0_1_n_n.contr.Idx) :
    (dot_S2048x32_S32x1024_S2048x1024_1_0_0_1_n_n.lhsIdx i q 1).val = (q ⟨0, by decide⟩).val :=
  dot_S2048x32_S32x1024_S2048x1024_1_0_0_1_n_n.lhsIdx_val_of_single rfl i q
theorem dotA_rhs0_2 (i : S2048x1024.Idx) (q : dot_S2048x32_S32x1024_S2048x1024_1_0_0_1_n_n.contr.Idx) :
    (dot_S2048x32_S32x1024_S2048x1024_1_0_0_1_n_n.rhsIdx i q 0).val = (q ⟨0, by decide⟩).val :=
  dot_S2048x32_S32x1024_S2048x1024_1_0_0_1_n_n.rhsIdx_val_of_single rfl i q
theorem dotA_rhs2_1 (i : S2048x1024.Idx) (q : dot_S2048x32_S32x1024_S2048x1024_1_0_0_1_n_n.contr.Idx) :
    (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

/-- The product into a zero accumulator, at `(p, q)`: the sum over the 32 features. -/
theorem dotA_apply2 (l : FVec Ideal S2048x32 .f32) (r : FVec Ideal S32x1024 .f32) (p : Fin 2048) (q : Fin 1024) :
    matmul dot_S2048x32_S32x1024_S2048x1024_1_0_0_1_n_n none l r (constant (F := Ideal) S2048x1024 .f32 0x00000000#32) (ix2 p q)
      = ∑ k : Fin 32, l (ix2 p k) * r (ix2 k q) := by
  simp only [matmul]
  rw [Ideal.matmul_constant_zero_apply, ← Equiv.sum_comp (ValueIdx.contrEquiv1 dot_S2048x32_S32x1024_S2048x1024_1_0_0_1_n_n 32 rfl rfl).symm]
  refine Finset.sum_congr rfl fun k _ => ?_
  have hk := ValueIdx.contrEquiv1_symm_val dot_S2048x32_S32x1024_S2048x1024_1_0_0_1_n_n 32 rfl rfl k
  have el : dot_S2048x32_S32x1024_S2048x1024_1_0_0_1_n_n.lhsIdx (ix2 p q) ((ValueIdx.contrEquiv1 dot_S2048x32_S32x1024_S2048x1024_1_0_0_1_n_n 32 rfl rfl).symm k) = ix2 p k := funext fun a => Fin.ext (by
    match a with
    | ⟨0, _⟩ => exact dotA_lhs0_2 _ _
    | ⟨1, _⟩ => exact (dotA_lhs2_1 _ _).trans hk)
  have er : dot_S2048x32_S32x1024_S2048x1024_1_0_0_1_n_n.rhsIdx (ix2 p q) ((ValueIdx.contrEquiv1 dot_S2048x32_S32x1024_S2048x1024_1_0_0_1_n_n 32 rfl rfl).symm k) = ix2 k q := funext fun a => Fin.ext (by
    match a with
    | ⟨0, _⟩ => exact (dotA_rhs0_2 _ _).trans hk
    | ⟨1, _⟩ => exact dotA_rhs2_1 _ _)
  rw [el, er]

/-! ### The product of the tile with the source block of the carried array -/

theorem dotB_lhs0_2 (i : S2048x8.Idx) (q : dot_S2048x1024_S1024x8_S2048x8_1_0_0_1_n_n.contr.Idx) :
    (dot_S2048x1024_S1024x8_S2048x8_1_0_0_1_n_n.lhsIdx i q 0).val = (i 0).val := by
  unfold DotDims.lhsIdx
  rw [dif_neg (show ¬(0 : Fin S2048x1024.rank) ∈ dot_S2048x1024_S1024x8_S2048x8_1_0_0_1_n_n.lhsBatch by decide), dif_pos (show (0 : Fin S2048x1024.rank) ∈ dot_S2048x1024_S1024x8_S2048x8_1_0_0_1_n_n.lhsNonContracting by decide)]
  rfl
theorem dotB_lhs2_1 (i : S2048x8.Idx) (q : dot_S2048x1024_S1024x8_S2048x8_1_0_0_1_n_n.contr.Idx) :
    (dot_S2048x1024_S1024x8_S2048x8_1_0_0_1_n_n.lhsIdx i q 1).val = (q ⟨0, by decide⟩).val :=
  dot_S2048x1024_S1024x8_S2048x8_1_0_0_1_n_n.lhsIdx_val_of_single rfl i q
theorem dotB_rhs0_2 (i : S2048x8.Idx) (q : dot_S2048x1024_S1024x8_S2048x8_1_0_0_1_n_n.contr.Idx) :
    (dot_S2048x1024_S1024x8_S2048x8_1_0_0_1_n_n.rhsIdx i q 0).val = (q ⟨0, by decide⟩).val :=
  dot_S2048x1024_S1024x8_S2048x8_1_0_0_1_n_n.rhsIdx_val_of_single rfl i q
theorem dotB_rhs2_1 (i : S2048x8.Idx) (q : dot_S2048x1024_S1024x8_S2048x8_1_0_0_1_n_n.contr.Idx) :
    (dot_S2048x1024_S1024x8_S2048x8_1_0_0_1_n_n.rhsIdx i q 1).val = (i 1).val := by
  unfold DotDims.rhsIdx
  rw [dif_neg (show ¬(1 : Fin S1024x8.rank) ∈ dot_S2048x1024_S1024x8_S2048x8_1_0_0_1_n_n.rhsBatch by decide), dif_pos (show (1 : Fin S1024x8.rank) ∈ dot_S2048x1024_S1024x8_S2048x8_1_0_0_1_n_n.rhsNonContracting by decide)]
  rfl

/-- The product into a zero accumulator, at `(p, f)`: the sum over the 1024 source rows of the block. -/
theorem dotB_apply2 (l : FVec Ideal S2048x1024 .bf16) (r : FVec Ideal S1024x8 .bf16) (p : Fin 2048) (f : Fin 8) :
    matmul dot_S2048x1024_S1024x8_S2048x8_1_0_0_1_n_n none l r (constant (F := Ideal) S2048x8 .f32 0x00000000#32) (ix2 p f)
      = ∑ k : Fin 1024, l (ix2 p k) * r (ix2 k f) := by
  simp only [matmul]
  rw [Ideal.matmul_constant_zero_apply, ← Equiv.sum_comp (ValueIdx.contrEquiv1 dot_S2048x1024_S1024x8_S2048x8_1_0_0_1_n_n 1024 rfl rfl).symm]
  refine Finset.sum_congr rfl fun k _ => ?_
  have hk := ValueIdx.contrEquiv1_symm_val dot_S2048x1024_S1024x8_S2048x8_1_0_0_1_n_n 1024 rfl rfl k
  have el : dot_S2048x1024_S1024x8_S2048x8_1_0_0_1_n_n.lhsIdx (ix2 p f) ((ValueIdx.contrEquiv1 dot_S2048x1024_S1024x8_S2048x8_1_0_0_1_n_n 1024 rfl rfl).symm k) = ix2 p k := funext fun a => Fin.ext (by
    match a with
    | ⟨0, _⟩ => exact dotB_lhs0_2 _ _
    | ⟨1, _⟩ => exact (dotB_lhs2_1 _ _).trans hk)
  have er : dot_S2048x1024_S1024x8_S2048x8_1_0_0_1_n_n.rhsIdx (ix2 p f) ((ValueIdx.contrEquiv1 dot_S2048x1024_S1024x8_S2048x8_1_0_0_1_n_n 1024 rfl rfl).symm k) = ix2 k f := funext fun a => Fin.ext (by
    match a with
    | ⟨0, _⟩ => exact (dotB_rhs0_2 _ _).trans hk
    | ⟨1, _⟩ => exact dotB_rhs2_1 _ _)
  rw [el, er]

/-- The same against the transposed source block: the inner product of row `p` of the one with row `q` of the other. -/
theorem dotAT_apply2 (l : FVec Ideal S2048x32 .f32) (r : FVec Ideal S1024x32 .f32) (p : Fin 2048) (q : Fin 1024) :
    matmul dot_S2048x32_S32x1024_S2048x1024_1_0_0_1_n_n none l (transpose S32x1024 [1, 0] r transposes_S1024x32_p1_0_S32x1024)
        (constant (F := Ideal) S2048x1024 .f32 0x00000000#32) (ix2 p q)
      = ∑ k : Fin 32, l (ix2 p k) * r (ix2 q k) := by
  rw [dotA_apply2]
  refine Finset.sum_congr rfl fun k _ => ?_
  rw [transpose_ix2_apply]

/-! ## The tile and the accumulation step at an index -/

/-- The distance tile at `(p, q)`: the distance between row `p` of the destination block and row `q` of the source block. -/
theorem pay4_apply2 (x0 : Vec Ideal S2048x32 .f32) (x1 : Vec Ideal S1024x32 .f32) (p : Fin 2048) (q : Fin 1024) :
    k2_pay4 (F := Ideal) x0 x1 (ix2 p q) = kDist (fun k => x0 (ix2 p k)) (fun k => x1 (ix2 q k)) := by
  unfold k2_pay4
  simp only [select_apply, cmpf_apply, broadcast_apply, sqrt_apply2, maximumf_apply, subf_apply, mulf_apply, addf_apply]
  rw [bcastCol_apply2, column_apply2, laneSum_apply2, broadcastTo_1b_ab_apply, transpose_ix2_apply, column_apply2, laneSum_apply2, shapeCast_self, shapeCast_self, dotAT_apply2]
  simp only [mulf_apply, Ideal.ofBits_def, Ideal.ofBits_zero_f32, Ideal.cmpf_def]
  rfl

/-- The one entry of a `[1, 1]` block. -/
theorem extract00_2 {α : Type} (x : S1x1.Idx → α) : extractAt ![0, 0] x inpos_S1x1_p0_0 = x (ix2 (0 : Fin 1) (0 : Fin 1)) :=
  congrArg x (funext fun a => by
    match a with
    | ⟨0, _⟩ => rfl
    | ⟨1, _⟩ => rfl)

/-- One step of the accumulation at `(p, f)`: the accumulator there plus the sum, over the 1024 rows of the source
    block, of the edge weight between row `p` of the destination block and that row times the carried array's entry. -/
theorem acc2_apply (x0 : Vec Ideal S2048x32 .f32) (x1 : Vec Ideal S1024x32 .f32) (x2 : Vec Ideal S1024x8 .f32) (x3 x4 : Vec Ideal S1x1 .f32)
    (a : Vec Ideal S2048x8 .f32) (p : Fin 2048) (f : Fin 8) :
    acc2 (F := Ideal) x0 x1 x2 x3 x4 a (ix2 p f)
      = a (ix2 p f) + ∑ q : Fin 1024, kEdge (fun k => x0 (ix2 p k)) (fun k => x1 (ix2 q k)) (x3 (ix2 0 0)) (x4 (ix2 0 0)) * x2 (ix2 q f) := by
  unfold acc2 k2_pay1 k2_pay3 k2_pay5
  simp only [shapeCast_self, addf_apply]
  rw [dotB_apply2]
  simp only [truncf_apply, logistic_apply2, mulf_apply, addf_apply, broadcast_apply, pay4_apply2, extract00_2]
  rfl

/-- The accumulator's reset value: zero everywhere. -/
theorem pay2_apply2 (i : S2048x8.Idx) : k2_pay2 (F := Ideal) i = 0 := by
  unfold k2_pay2
  simp only [shapeCast_self, broadcast_apply]
  exact Ideal.ofBits_zero_f32

end Cert.KernelIdeal.Val

end
-- ==== Proof.KI.GatBlocks2.lean ====
/-
  The blocks of the graph layer's second call, read at an index: each input window's block at a grid point is
  the part of its array at the block index times the block's size, and the output window's block at a point
  covers the rows of its array from 2048 times the point's row of the grid.
-/
import proofs.«163787_j56899726737498_1_alg».proof.Proof.KI.Gat2
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The grid has 32 points. -/
theorem lt_N2 (t : Fin cfg2.N) : t.val < 32 := Nat.lt_of_lt_of_eq t.isLt N_2

/-- The windows' block indices at a point: the destination block and the output block move with the point's row of
    the grid, the two source blocks with its column, the two scalars stay. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N, _)

/-- The destination block of the feature array at point `t`: rows from 2048 times the point's row of the grid. -/
theorem iblk2_0_apply (c : Dev nD) (t : Fin cfg2.N) (p : Fin 2048) (k : Fin 32) :
    iblk2 (F := Ideal) V c 0 t (ix2 p k)
      = V c main_v3 (ix2 (⟨2048 * (t.val / 8) + p.val, by have := lt_N2 t; omega⟩ : Fin 8192) k) := by
  obtain ⟨e0, e1, -⟩ := idx_facts2 t
  show V c main_v3 (((cfg2.win 0).blk t).view.emb (ix2 p k)) = _
  refine congrArg (V c main_v3) (funext fun a => Fin.ext ?_)
  match a with
  | ⟨0, _⟩ => show win2_0.index t (0 : Fin 2) * 2048 + 1 * p.val = 2048 * (t.val / 8) + p.val; omega
  | ⟨1, _⟩ => show win2_0.index t (1 : Fin 2) * 32 + 1 * k.val = k.val; omega

/-- The source block of the feature array at point `t`: rows from 1024 times the point's column of the grid. -/
theorem iblk2_1_apply (c : Dev nD) (t : Fin cfg2.N) (q : Fin 1024) (k : Fin 32) :
    iblk2 (F := Ideal) V c 1 t (ix2 q k)
      = V c main_v3 (ix2 (⟨1024 * (t.val % 8) + q.val, by omega⟩ : Fin 8192) k) := by
  obtain ⟨-, -, e0, e1, -⟩ := idx_facts2 t
  show V c main_v3 (((cfg2.win 1).blk t).view.emb (ix2 q k)) = _
  refine congrArg (V c main_v3) (funext fun a => Fin.ext ?_)
  match a with
  | ⟨0, _⟩ => show win2_1.index t (0 : Fin 2) * 1024 + 1 * q.val = 1024 * (t.val % 8) + q.val; omega
  | ⟨1, _⟩ => show win2_1.index t (1 : Fin 2) * 32 + 1 * k.val = k.val; omega

/-- The source block of the carried array at point `t`: rows from 1024 times the point's column of the grid. -/
theorem iblk2_2_apply (c : Dev nD) (t : Fin cfg2.N) (q : Fin 1024) (f : Fin 8) :
    iblk2 (F := Ideal) V c 2 t (ix2 q f)
      = V c main_v12 (ix2 (⟨1024 * (t.val % 8) + q.val, by omega⟩ : Fin 8192) f) := by
  obtain ⟨-, -, -, -, e0, e1, -⟩ := idx_facts2 t
  show V c main_v12 (((cfg2.win 2).blk t).view.emb (ix2 q f)) = _
  refine congrArg (V c main_v12) (funext fun a => Fin.ext ?_)
  match a with
  | ⟨0, _⟩ => show win2_2.index t (0 : Fin 2) * 1024 + 1 * q.val = 1024 * (t.val % 8) + q.val; omega
  | ⟨1, _⟩ => show win2_2.index t (1 : Fin 2) * 8 + 1 * f.val = f.val; omega

/-- The temperature's block at every point: its one entry. -/
theorem iblk2_3_apply (c : Dev nD) (t : Fin cfg2.N) :
    iblk2 (F := Ideal) V c 3 t (ix2 (0 : Fin 1) (0 : Fin 1)) = V c main_arg7 (ix2 (0 : Fin 1) (0 : Fin 1)) := by
  obtain ⟨-, -, -, -, -, -, e0, e1, -⟩ := idx_facts2 t
  show V c main_arg7 (((cfg2.win 3).blk t).view.emb (ix2 (0 : Fin 1) (0 : Fin 1))) = _
  refine congrArg (V c main_arg7) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-- The offset's block at every point: its one entry. -/
theorem iblk2_4_apply (c : Dev nD) (t : Fin cfg2.N) :
    iblk2 (F := Ideal) V c 4 t (ix2 (0 : Fin 1) (0 : Fin 1)) = V c main_arg8 (ix2 (0 : Fin 1) (0 : Fin 1)) := by
  obtain ⟨-, -, -, -, -, -, -, -, e0, e1, -⟩ := idx_facts2 t
  show V c main_arg8 (((cfg2.win 4).blk t).view.emb (ix2 (0 : Fin 1) (0 : Fin 1))) = _
  refine congrArg (V c main_arg8) (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-! ## The output window -/

/-- A function of the output array read through the output block at point `t`: its rows from 2048 times the point's
    row of the grid. -/
theorem blk2_5_read {α : Type} (G : S8192x8.Idx → α) (t : Fin cfg2.N) (p : Fin 2048) (f : Fin 8) :
    G (((cfg2.win 5).blk t).view.emb (ix2 p f))
      = G (ix2 (⟨2048 * (t.val / 8) + p.val, by have := lt_N2 t; omega⟩ : Fin 8192) f) := by
  obtain ⟨-, -, -, -, -, -, -, -, -, -, e0, e1⟩ := idx_facts2 t
  refine congrArg G (funext fun a => Fin.ext ?_)
  match a with
  | ⟨0, _⟩ => show win2_5.index t (0 : Fin 2) * 2048 + 1 * p.val = 2048 * (t.val / 8) + p.val; omega
  | ⟨1, _⟩ => show win2_5.index t (1 : Fin 2) * 8 + 1 * f.val = f.val; omega

/-- An index of the output array is in the output block at point `t` iff its row is among the block's 2048 rows. -/
theorem mem_blk2_5 (t : Fin cfg2.N) (i : S8192x8.Idx) :
    i ∈ ((cfg2.win 5).blk t).view.set ↔ 2048 * (t.val / 8) ≤ (i 0).val ∧ (i 0).val < 2048 * (t.val / 8) + 2048 := by
  obtain ⟨-, -, -, -, -, -, -, -, -, -, e0, e1⟩ := idx_facts2 t
  show i ∈ ((View.whole main_v13).slice (win2_5.rect t)).set ↔ _
  rw [View.set_slice_whole, Rect.mem_set_unit]
  constructor
  · intro h
    have b0 : win2_5.index t (0 : Fin 2) * 2048 ≤ (i 0).val ∧ (i 0).val < win2_5.index t (0 : Fin 2) * 2048 + 2048 := h 0
    omega
  · intro h a
    match a with
    | ⟨0, _⟩ => show win2_5.index t (0 : Fin 2) * 2048 ≤ (i 0).val ∧ (i 0).val < win2_5.index t (0 : Fin 2) * 2048 + 2048; omega
    | ⟨1, _⟩ =>
      have hi : (i 1).val < 8 := (i 1).isLt
      show win2_5.index t (1 : Fin 2) * 8 ≤ (i 1).val ∧ (i 1).val < win2_5.index t (1 : Fin 2) * 8 + 8; omega

/-- What point `t` writes back through the output window: the scratch accumulator as the point leaves it. -/
theorem flushed2_5_apply (c : Dev nD) (t : Fin cfg2.N) (p : Fin 2048) (f : Fin 8) :
    (dat2 (F := Ideal) V c).flushed 5 t (ix2 p f) = sc2 (F := Ideal) V c t.val t.isLt (ix2 p f) := by
  show (cfg2.win 5).cut (grid2.coords t) ((dat2 (F := Ideal) V c).after 5 t) (ix2 p f) = _
  rw [after2_5]
  rfl

end Cert.KernelIdeal.Val

end
-- ==== Proof.KI.GatFold2.lean ====
/-
  The graph layer's second call, from the grid points to the array: what the scratch accumulator holds after a point
  is the sum, over the source tiles of the point's row of the grid up to the point's column, of the tile's
  contributions; at the last column that is the sum over all 8192 source rows; and the output array, written back
  exactly at the last columns, ends holding that sum at every row and feature.
-/
import proofs.«163787_j56899726737498_1_alg».proof.Proof.KI.Gat2
import proofs.«163787_j56899726737498_1_alg».proof.Proof.KI.KEdge
import proofs.«163787_j56899726737498_1_alg».proof.Proof.KI.GatValue2
import proofs.«163787_j56899726737498_1_alg».proof.Proof.KI.GatBlocks2
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Sums over the source rows, by tiles -/

/-- A sum over the 8192 rows, regrouped as 8 tiles of 1024 rows. -/
theorem sum_tiles2 {M : Type*} [AddCommMonoid M] (g : Fin 8192 → M) :
    ∑ s : Fin 8192, g s = ∑ j : Fin 8, ∑ q : Fin 1024, g ⟨1024 * j.val + q.val, by have := j.isLt; have := q.isLt; omega⟩ := by
  rw [← Equiv.sum_comp (finProdFinEquiv (m := 8) (n := 1024)) g, Fintype.sum_prod_type]
  refine Finset.sum_congr rfl fun j _ => Finset.sum_congr rfl fun q _ => congrArg g (Fin.ext ?_)
  show q.val + 1024 * j.val = 1024 * j.val + q.val
  omega

/-- The contribution of source tile `j` to the output at destination row `d` and feature `f`: the sum over the tile's
    1024 rows of the edge weight between row `d` and the source row times the carried array's entry. -/
def term2 (c : Dev nD) (d : Fin 8192) (f : Fin 8) (j : Fin 8) : EReal :=
  ∑ q : Fin 1024,
    kEdge (fun k => V c main_v3 (ix2 d k))
        (fun k => V c main_v3 (ix2 (⟨1024 * j.val + q.val, by have := j.isLt; have := q.isLt; omega⟩ : Fin 8192) k))
        (V c main_arg7 (ix2 (0 : Fin 1) (0 : Fin 1))) (V c main_arg8 (ix2 (0 : Fin 1) (0 : Fin 1)))
      * V c main_v12 (ix2 (⟨1024 * j.val + q.val, by have := j.isLt; have := q.isLt; omega⟩ : Fin 8192) f)

/-- The contributions of source tiles `0` to `m`. -/
def part2 (c : Dev nD) (d : Fin 8192) (f : Fin 8) (m : ℕ) : EReal :=
  ∑ j ∈ Finset.range (m + 1), if h : j < 8 then term2 V c d f ⟨j, h⟩ else 0

/-- The whole sum over the source rows. -/
def out2 (c : Dev nD) (d : Fin 8192) (f : Fin 8) : EReal :=
  ∑ s : Fin 8192,
    kEdge (fun k => V c main_v3 (ix2 d k)) (fun k => V c main_v3 (ix2 s k))
        (V c main_arg7 (ix2 (0 : Fin 1) (0 : Fin 1))) (V c main_arg8 (ix2 (0 : Fin 1) (0 : Fin 1)))
      * V c main_v12 (ix2 s f)

theorem part2_zero (c : Dev nD) (d : Fin 8192) (f : Fin 8) : part2 V c d f 0 = term2 V c d f ⟨0, by omega⟩ := by
  unfold part2
  rw [Finset.sum_range_one]
  exact dif_pos _

theorem part2_succ (c : Dev nD) (d : Fin 8192) (f : Fin 8) (m : ℕ) (h : m + 1 < 8) :
    part2 V c d f (m + 1) = part2 V c d f m + term2 V c d f ⟨m + 1, h⟩ := by
  unfold part2
  rw [Finset.sum_range_succ, dif_pos h]

/-- All eight tiles together are the whole sum. -/
theorem part2_last (c : Dev nD) (d : Fin 8192) (f : Fin 8) : part2 V c d f 7 = out2 V c d f := by
  unfold part2 out2
  rw [sum_tiles2, Finset.sum_range]
  exact Finset.sum_congr rfl fun j _ => dif_pos j.isLt

/-! ## The fold across a row of the grid -/

/-- The term a point adds to the accumulator at `(p, f)` is the contribution of the point's source tile to the
    point's destination row. -/
theorem step2 (c : Dev nD) (t : Fin cfg2.N) (p : Fin 2048) (f : Fin 8) (d : Fin 8192)
    (hd : d.val = 2048 * (t.val / 8) + p.val) (j : Fin 8) (hj : j.val = t.val % 8) :
    ∑ q : Fin 1024,
        kEdge (fun k => iblk2 (F := Ideal) V c 0 t (ix2 p k)) (fun k => iblk2 (F := Ideal) V c 1 t (ix2 q k))
            (iblk2 (F := Ideal) V c 3 t (ix2 (0 : Fin 1) (0 : Fin 1))) (iblk2 (F := Ideal) V c 4 t (ix2 (0 : Fin 1) (0 : Fin 1)))
          * iblk2 (F := Ideal) V c 2 t (ix2 q f)
      = term2 V c d f j := by
  unfold term2
  refine Finset.sum_congr rfl fun q _ => ?_
  have e0 : (⟨2048 * (t.val / 8) + p.val, by have := lt_N2 t; omega⟩ : Fin 8192) = d := Fin.ext hd.symm
  have e1 : (⟨1024 * (t.val % 8) + q.val, by omega⟩ : Fin 8192)
      = ⟨1024 * j.val + q.val, by have := j.isLt; have := q.isLt; omega⟩ := Fin.ext (by show 1024 * (t.val % 8) + q.val = 1024 * j.val + q.val; omega)
  simp only [iblk2_0_apply, iblk2_1_apply, iblk2_2_apply, iblk2_3_apply, iblk2_4_apply, e0, e1]

/-- What the accumulator holds after point `t`, at `(p, f)`: the contributions of the source tiles up to the point's
    column to the point's destination row. -/
theorem sc2_fold (c : Dev nD) : ∀ (n : ℕ) (t : Fin cfg2.N), t.val = n → ∀ (p : Fin 2048) (f : Fin 8) (d : Fin 8192),
    d.val = 2048 * (t.val / 8) + p.val → sc2 (F := Ideal) V c t.val t.isLt (ix2 p f) = part2 V c d f (t.val % 8) := by
  intro n
  induction n with
  | zero =>
    intro t ht p f d hd
    have h0 : t.val % 8 = 0 := by omega
    rw [sc2_first V c t h0, acc2_apply, pay2_apply2, zero_add, h0, part2_zero]
    exact step2 V c t p f d hd ⟨0, by omega⟩ h0.symm
  | succ n ih =>
    intro t ht p f d hd
    have hN := lt_N2 t
    by_cases h0 : t.val % 8 = 0
    · rw [sc2_first V c t h0, acc2_apply, pay2_apply2, zero_add, h0, part2_zero]
      exact step2 V c t p f d hd ⟨0, by omega⟩ h0.symm
    · have hprev := ih ⟨t.val - 1, by have := t.isLt; omega⟩ (by show t.val - 1 = n; omega) p f d
        (by show d.val = 2048 * ((t.val - 1) / 8) + p.val; omega)
      have e : t.val % 8 = (t.val - 1) % 8 + 1 := by omega
      rw [sc2_next V c t h0, acc2_apply, e, part2_succ V c d f ((t.val - 1) % 8) (by omega)]
      exact congrArg₂ (· + ·) hprev (step2 V c t p f d hd ⟨(t.val - 1) % 8 + 1, by omega⟩ (by show (t.val - 1) % 8 + 1 = t.val % 8; omega))

/-! ## From the blocks to the array -/

/-- What the output array ends holding: at every row and feature the whole sum over the source rows. -/
def G2 (c : Dev nD) : S8192x8.Idx → EReal := fun i => out2 V c ⟨(i 0).val, idx2_lt0 i⟩ ⟨(i 1).val, idx2_lt1 i⟩

/-- A point that writes the output window back writes the block of `G2` under it. -/
theorem flushed2_eq (c : Dev nD) (t : Fin cfg2.N) (hf : (cfg2.win 5).flush t = true) :
    (dat2 (F := Ideal) V c).flushed 5 t = ((cfg2.win 5).blk t).view.read (Elt Ideal) (G2 V c) := by
  have h7 : t.val % 8 = 7 := (flush2_5 t).mp hf
  funext x
  obtain ⟨p, f, rfl⟩ : ∃ (p : Fin 2048) (f : Fin 8), x = ix2 p f := ⟨x 0, x 1, eq_ix2 x⟩
  rw [flushed2_5_apply]
  show _ = G2 V c (((cfg2.win 5).blk t).view.emb (ix2 p f))
  rw [blk2_5_read (G2 V c) t p f]
  rw [sc2_fold V c t.val t rfl p f ⟨2048 * (t.val / 8) + p.val, by have := lt_N2 t; omega⟩ rfl, h7, part2_last]
  rfl

/-- Every row of the output array lies in the block of a point that writes it back: the last point of its row of the grid. -/
theorem cover2 (i : S8192x8.Idx) : ∃ t : Fin cfg2.N, (cfg2.win 5).flush t = true ∧ i ∈ ((cfg2.win 5).blk t).view.set := by
  have hi : (i 0).val < 8192 := idx2_lt0 i
  refine ⟨⟨8 * ((i 0).val / 2048) + 7, by show _ < grid2.N; rw [N_2]; omega⟩, (flush2_5 _).mpr (by show (8 * ((i 0).val / 2048) + 7) % 8 = 7; omega), ?_⟩
  rw [mem_blk2_5]
  show 2048 * ((8 * ((i 0).val / 2048) + 7) / 8) ≤ (i 0).val ∧ (i 0).val < 2048 * ((8 * ((i 0).val / 2048) + 7) / 8) + 2048
  omega

/-- THE OUTPUT ARRAY after the call: at row `d` and feature `f`, the sum over all 8192 source rows `s` of the edge weight
    between rows `d` and `s` of the feature array times the carried array at `(s, f)`. -/
theorem gat_value2 (c : Dev nD) (d : Fin 8192) (f : Fin 8) :
    (Cert.KernelIdeal.Gen.dat2 (F := Ideal) V c).arrAt 5 cfg2.N (ix2 d f)
      = ∑ s : Fin 8192,
          kEdge (fun k => V c main_v3 (ix2 d k)) (fun k => V c main_v3 (ix2 s k))
              (V c main_arg7 (ix2 (0 : Fin 1) (0 : Fin 1))) (V c main_arg8 (ix2 (0 : Fin 1) (0 : Fin 1)))
            * V c main_v12 (ix2 s f) := by
  rw [(dat2 (F := Ideal) V c).arrAt_eq_of_cover 5 (G2 V c) (flushed2_eq V c) cover2]
  rfl

end Cert.KernelIdeal.Val

end
-- ==== Proof.KI.Bridge.lean ====
/-
  The kernel program's result buffer is the reference's result term of the argument arrays, at the ideal floats:
  a chain of equalities of arrays. The encoder region leaves the reference's encoder output h; the host stretch
  after it projects h; the first graph region leaves, at (d, f), the sum over the source rows s of the edge
  weight of (d, s) times the projected feature of s, which is the reference's first graph layer because the edge
  weight the kernel computes from (destination, source) is the entry of the latent graph the reference computes
  from (source, destination); the second graph region likewise; the last host stretches are the reference's
  closing layers.
-/
import proofs.«163787_j56899726737498_1_alg».proof.Proof.Gen.KernelIdeal.Regions
import proofs.«163787_j56899726737498_1_alg».proof.Proof.KI.Edge
import proofs.«163787_j56899726737498_1_alg».proof.Proof.KI.EncValue
import proofs.«163787_j56899726737498_1_alg».proof.Proof.KI.KHost
import proofs.«163787_j56899726737498_1_alg».proof.Proof.KI.GatFold1
import proofs.«163787_j56899726737498_1_alg».proof.Proof.KI.GatFold2
import proofs.«163787_j56899726737498_1_alg».proof.Proof.KI.Regs
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

/-! ## A graph layer, from the four buffers its region reads -/

section Layers

variable (x0 : (⟨S8192x512, .f32⟩ : BufTy).Contents (Elt Ideal)) (x1 : (⟨S512x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x32, .f32⟩ : BufTy).Contents (Elt Ideal)) (x6 : (⟨S32, .f32⟩ : BufTy).Contents (Elt Ideal)) (x7 x8 : (⟨S1x1, .f32⟩ : BufTy).Contents (Elt Ideal)) (x9 : (⟨S32x16, .f32⟩ : BufTy).Contents (Elt Ideal)) (x10 : (⟨S16, .f32⟩ : BufTy).Contents (Elt Ideal)) (x11 : (⟨S16x8, .f32⟩ : BufTy).Contents (Elt Ideal))

/-- The kernel's sum over the source rows, at buffers that hold the reference's h, its projection, the temperature
    and the threshold, is the reference's first graph layer: edge by edge the two weights are one extended real. -/
theorem layer1_of (v3 : (⟨S8192x32, .f32⟩ : BufTy).Contents (Elt Ideal)) (v4 : (⟨S8192x16, .f32⟩ : BufTy).Contents (Elt Ideal))
    (t θ : (⟨S1x1, .f32⟩ : BufTy).Contents (Elt Ideal))
    (h3 : v3 = Cert.ReferenceIdeal.Read.val_main_v13 (F := Ideal) x0 x1 x2 x3 x4 x5 x6)
    (h4 : v4 = Cert.ReferenceIdeal.Read.val_main_v48 (F := Ideal) x0 x1 x2 x3 x4 x5 x6 x9) (h7 : t = x7) (h8 : θ = x8)
    (d : Fin 8192) (f : Fin 16) :
    (∑ s : Fin 8192,
        kEdge (fun k => v3 (ix2 d k)) (fun k => v3 (ix2 s k)) (t (ix2 (0 : Fin 1) (0 : Fin 1))) (θ (ix2 (0 : Fin 1) (0 : Fin 1)))
          * v4 (ix2 s f))
      = Cert.ReferenceIdeal.Read.val_main_v49 (F := Ideal) x0 x1 x2 x3 x4 x5 x6 x7 x8 x9 (ix2 d f) := by
  subst h3 h4 h7 h8
  rw [ref_layer1]
  exact Finset.sum_congr rfl fun s _ => by rw [kEdge_eq_rEdge]

/-- The same for the second graph layer. -/
theorem layer2_of (v3 : (⟨S8192x32, .f32⟩ : BufTy).Contents (Elt Ideal)) (v12 : (⟨S8192x8, .f32⟩ : BufTy).Contents (Elt Ideal))
    (t θ : (⟨S1x1, .f32⟩ : BufTy).Contents (Elt Ideal))
    (h3 : v3 = Cert.ReferenceIdeal.Read.val_main_v13 (F := Ideal) x0 x1 x2 x3 x4 x5 x6)
    (h12 : v12 = Cert.ReferenceIdeal.Read.val_main_v57 (F := Ideal) x0 x1 x2 x3 x4 x5 x6 x7 x8 x9 x10 x11) (h7 : t = x7) (h8 : θ = x8)
    (d : Fin 8192) (f : Fin 8) :
    (∑ s : Fin 8192,
        kEdge (fun k => v3 (ix2 d k)) (fun k => v3 (ix2 s k)) (t (ix2 (0 : Fin 1) (0 : Fin 1))) (θ (ix2 (0 : Fin 1) (0 : Fin 1)))
          * v12 (ix2 s f))
      = Cert.ReferenceIdeal.Read.val_main_v58 (F := Ideal) x0 x1 x2 x3 x4 x5 x6 x7 x8 x9 x10 x11 (ix2 d f) := by
  subst h3 h7 h8
  rw [ref_layer2, h12]
  exact Finset.sum_congr rfl fun s _ => by rw [kEdge_eq_rEdge]

end Layers

/-! ## The chain -/

variable (m : (ℓ : Loc nD τ sig) → Buf (Elt Ideal) ℓ) (c : Dev nD)

/-- After the encoder region the array it writes is the reference's encoder output of the arguments. -/
theorem E0 : Gen.V2 m (Gen.outs m) c main_v3 = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hv0, hv1, hv2, h0, h1, h3, h5⟩ := host0 m c
  have h2 := v1_main_arg2 m c
  have h4 := v1_main_arg4 m c
  have h6 := v1_main_arg6 m c
  rw [Gen.V2_main_v3]
  refine (enc_value (Gen.X1 m) c
    (hv0.trans (congrArg (fun x : (⟨S256, .f32⟩ : BufTy).Contents (Elt Ideal) => shapeCast S1x256 x shapeCasts_S256_S1x256) h2.symm))
    (hv1.trans (congrArg (fun x : (⟨S256, .f32⟩ : BufTy).Contents (Elt Ideal) => shapeCast S1x256 x shapeCasts_S256_S1x256) h4.symm))
    (hv2.trans (congrArg (fun x : (⟨S32, .f32⟩ : BufTy).Contents (Elt Ideal) => shapeCast S1x32 x shapeCasts_S32_S1x32) h6.symm))).trans ?_
  show Cert.ReferenceIdeal.Read.val_main_v13 (F := Ideal) (Gen.V1 m c main_arg0) (Gen.V1 m c main_arg1) (Gen.V1 m c main_arg2) (Gen.V1 m c main_arg3)
    (Gen.V1 m c main_arg4) (Gen.V1 m c main_arg5) (Gen.V1 m c main_arg6) = _
  rw [h0, h1, h2, h3, h4, h5, h6]

/-- After the first graph region the array it writes is the reference's first graph layer of the arguments. -/
theorem E2 : Gen.V4 m (Gen.outs m) c main_v5 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨h3, h4, h7, h8⟩ := host1 m (Gen.outs m) c (E0 m c)
  rw [Gen.V3_eq] at h3 h4 h7 h8
  rw [Gen.V4_main_v5]
  refine funext fun (i : S8192x16.Idx) => ?_
  obtain ⟨d, f, rfl⟩ : ∃ (d : Fin 8192) (f : Fin 16), i = ix2 d f := ⟨i 0, i 1, eq_ix2 i⟩
  exact (gat_value1 (Gen.X3 m) c d f).trans
    (layer1_of _ _ _ _ _ _ _ _ _ _ (Gen.X3 m c main_v3) (Gen.X3 m c main_v4) (Gen.X3 m c main_arg7) (Gen.X3 m c main_arg8) h3 h4 h7 h8 d f)

/-- After the second graph region the array it writes is the reference's second graph layer of the arguments. -/
theorem E4 : Gen.V8 m (Gen.outs m) c main_v13 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨h3, h12, h7, h8⟩ := host2 m (Gen.outs m) c (E0 m c) (E2 m c)
  rw [Gen.V7_eq] at h3 h12 h7 h8
  rw [Gen.V8_main_v13]
  refine funext fun (i : S8192x8.Idx) => ?_
  obtain ⟨d, f, rfl⟩ : ∃ (d : Fin 8192) (f : Fin 8), i = ix2 d f := ⟨i 0, i 1, eq_ix2 i⟩
  exact (gat_value2 (Gen.X7 m) c d f).trans
    (layer2_of _ _ _ _ _ _ _ _ _ _ _ _ (Gen.X7 m c main_v3) (Gen.X7 m c main_v12) (Gen.X7 m c main_arg7) (Gen.X7 m c main_arg8) h3 h12 h7 h8 d f)

/-- The result buffer at the end of the run is the reference's result term of the seventeen arguments. -/
theorem result_eq : Gen.V13 m (Gen.outs m) c main_v28 = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  host3 m (Gen.outs m) c (E4 m c)

end Cert.KernelIdeal.Val

end
-- ==== Proof.lean ====
/-
  The claim. The kernel program and its idealization run and leave their argument arrays as launched, and so does
  the idealized reference; the idealization rewrote no operation; and over the extended reals, from memories that
  agree on the arguments, the idealized kernel and the idealized reference end with equal results: what the
  kernel's three regions and the host stretches between them leave in the result array is the reference's composed
  term of the arguments.
-/
import proofs.«163787_j56899726737498_1_alg».proof.Defs
import proofs.«163787_j56899726737498_1_alg».proof.Proof.Gen.Kernel
import proofs.«163787_j56899726737498_1_alg».proof.Proof.Gen.KernelIdeal
import proofs.«163787_j56899726737498_1_alg».proof.Proof.Gen.ReferenceIdeal
import proofs.«163787_j56899726737498_1_alg».proof.Proof.Gen.Pre_finite_inputs
import proofs.«163787_j56899726737498_1_alg».proof.Proof.RefRead
import proofs.«163787_j56899726737498_1_alg».proof.Proof.K.Regs
import proofs.«163787_j56899726737498_1_alg».proof.Proof.KI.Regs
import proofs.«163787_j56899726737498_1_alg».proof.Proof.KI.Bridge

noncomputable section

namespace Cert.Proof

open Idealize.ShloMosaic Idealize.ShloMosaic.TcCoe Idealize.SL.Sem

/-- The kernel program runs and its arguments end as launched. -/
theorem frameK : Cert.frame_Kernel :=
  fun m ρ _ => Cert.Kernel.Gen.frame m ρ

/-- Its idealization likewise. -/
theorem frameKI : Cert.frame_KernelIdeal :=
  fun m ρ _ => Cert.KernelIdeal.Gen.frame m ρ

/-- The idealized reference runs and its arguments end as launched: its run's post without the result. -/
theorem frameR : Cert.frame_ReferenceIdeal :=
  fun m ρ _ => (θ_run Cert.ReferenceIdeal.defs _ _).mono (fun _ h c => (h c).2) (Cert.ReferenceIdeal.Value.run (F := Ideal) m ρ)

/-- Over the extended reals the two programs, from memories agreeing on the arguments, end with equal results:
    the kernel's result array after its last host stretch, which is the reference's composed term read at the
    kernel's arguments; the reference's run ends at that term of its own arguments, which are the kernel's. -/
theorem alg : Cert.algebraic_KernelIdeal_ReferenceIdeal :=
  fun m ρ m' ρ' _ hagree =>
    ⟨fun c => Cert.KernelIdeal.Gen.V13 m (Cert.KernelIdeal.Gen.outs m) c Cert.KernelIdeal.main_v28,
      Cert.KernelIdeal.Gen.result_run m ρ,
      (θ_run Cert.ReferenceIdeal.defs _ _).mono (fun _ h c => ⟨by
          obtain ⟨e0, e1, e2, e3, e4, e5, e6, e7, e8, e9, e10, e11, e12, e13, e14, e15, e16⟩ := hagree c
          rw [(h c).1, Cert.ReferenceIdeal.Read.val_main_v73_eq, e0, e1, e2, e3, e4, e5, e6, e7, e8, e9, e10, e11, e12, e13, e14, e15, e16]
          exact (Cert.KernelIdeal.Val.result_eq m c).symm, (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frameK, frameKI, frameR, trivial, alg⟩

end Cert.Proof

end
